-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x16 : Shape := ⟨2, ![500000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1 : Shape := ⟨1, ![1]⟩
abbrev S16x256 : Shape := ⟨2, ![16, 256]⟩
abbrev S256x2 : Shape := ⟨2, ![256, 2]⟩
abbrev S2 : Shape := ⟨1, ![2]⟩
abbrev S2x500000 : Shape := ⟨2, ![2, 500000]⟩
abbrev S50000 : Shape := ⟨1, ![50000]⟩
abbrev S_ : Shape := ⟨0, ![]⟩
abbrev S1x500000 : Shape := ⟨2, ![1, 500000]⟩
abbrev S500000 : Shape := ⟨1, ![500000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1 : S_.BroadcastsInDim S1 (![] : Fin 0 → Fin S1.rank)
  reducesTo_S1_S_d0 : S1.ReducesTo [0] S_
  bcast_S_S16x256 : S_.BroadcastsInDim S16x256 (![] : Fin 0 → Fin S16x256.rank)
  reducesTo_S16x256_S_d0_1 : S16x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part10 {F : FTy → Type} [FloatOps F] (main_arg35 : IVec S2x500000 32) (main_v168 : IVec S_ 1) (main_v169 : FVec F S2 .f32) (main_v170 : FVec F S2 .f32) : IVec S_ 1 :=
  let main_v171 : IVec S2 1 := cmpf .olt main_v169 main_v170
  let main_c_67 : IVec S_ 1 := constantI S_ 1 1#1
  let main_v172 : IVec S_ 1 := (fun x v => Host.reduce IntOp.andi x v reducesTo_S2_S_d0 h_S_) main_v171 main_c_67
  let main_v173 : IVec S_ 1 := andi main_v168 main_v172
  let main_v174 : IVec S1x500000 32 := (extractStridedSlice S1x500000 ![0, 0] · slices_S2x500000_S1x500000_0_0) main_arg35
  let main_v175 : IVec S500000 32 := shapeCast S500000 main_v174 shapeCasts_S1x500000_S500000
  let main_c_68 : IVec S_ 32 := constantI S_ 32 0#32
  let main_v176 : IVec S500000 32 := broadcastInDim S500000 ![] bcast_S_S500000 main_c_68
  let main_v177 : IVec S500000 1 := cmpi .sge main_v175 main_v176
  let main_v178 : IVec S1x500000 32 := (extractStridedSlice S1x500000 ![0, 0] · slices_S2x500000_S1x500000_0_0) main_arg35
  let main_v179 : IVec S500000 32 := shapeCast S500000 main_v178 shapeCasts_S1x500000_S500000
  let main_c_69 : IVec S_ 32 := constantI S_ 32 50000#32
  let main_v180 : IVec S500000 32 := broadcastInDim S500000 ![] bcast_S_S500000 main_c_69
  let main_v181 : IVec S500000 1 := cmpi .slt main_v179 main_v180
  let main_v182 : IVec S500000 1 := andi main_v177 main_v181
  let main_c_70 : IVec S_ 1 := constantI S_ 1 1#1
  let main_v183 : IVec S_ 1 := (fun x v => Host.reduce IntOp.andi x v reducesTo_S500000_S_d0 h_S_) main_v182 main_c_70
  let main_v184 : IVec S_ 1 := andi main_v173 main_v183
  main_v184

def fn_part9 {F : FTy → Type} [FloatOps F] (main_arg31 : FVec F S256x256 .f32) (main_arg32 : FVec F S256 .f32) (main_arg33 : FVec F S256x2 .f32) (main_arg34 : FVec F S2 .f32) (main_arg35 : IVec S2x500000 32) (main_v153 : IVec S_ 1) : IVec S_ 1 :=
  let main_v154 : FVec F S256x256 .f32 := Host.absf main_arg31
  let main_cst_60 : FVec F S_ .f32 := constant S_ .f32 0x7F800000#32
  let main_v155 : FVec F S256x256 .f32 := broadcastInDim S256x256 ![] bcast_S_S256x256 main_cst_60
  let main_v156 : IVec S256x256 1 := cmpf .olt main_v154 main_v155
  let main_c_61 : IVec S_ 1 := constantI S_ 1 1#1
  let main_v157 : IVec S_ 1 := (fun x v => Host.reduce IntOp.andi x v reducesTo_S256x256_S_d0_1 h_S_) main_v156 main_c_61
  let main_v158 : IVec S_ 1 := andi main_v153 main_v157
  let main_v159 : FVec F S256 .f32 := Host.absf main_arg32
  let main_cst_62 : FVec F S_ .f32 := constant S_ .f32 0x7F800000#32
  let main_v160 : FVec F S256 .f32 := broadcastInDim S256 ![] bcast_S_S256 main_cst_62
  let main_v161 : IVec S256 1 := cmpf .olt main_v159 main_v160
  let main_c_63 : IVec S_ 1 := constantI S_ 1 1#1
  let main_v162 : IVec S_ 1 := (fun x v => Host.reduce IntOp.andi x v reducesTo_S256_S_d0 h_S_) main_v161 main_c_63
  let main_v163 : IVec S_ 1 := andi main_v158 main_v162
  let main_v164 : FVec F S256x2 .f32 := Host.absf main_arg33
  let main_cst_64 : FVec F S_ .f32 := constant S_ .f32 0x7F800000#32
  let main_v165 : FVec F S256x2 .f32 := broadcastInDim S256x2 ![] bcast_S_S256x2 main_cst_64
  let main_v166 : IVec S256x2 1 := cmpf .olt main_v164 main_v165
  let main_c_65 : IVec S_ 1 := constantI S_ 1 1#1
  let main_v167 : IVec S_ 1 := (fun x v => Host.reduce IntOp.andi x v reducesTo_S256x2_S_d0_1 h_S_) main_v166 main_c_65
  let main_v168 : IVec S_ 1 := andi main_v163 main_v167
  let main_v169 : FVec F S2 .f32 := Host.absf main_arg34
  let main_cst_66 : FVec F S_ .f32 := constant S_ .f32 0x7F800000#32
  let main_v170 : FVec F S2 .f32 := broadcastInDim S2 ![] bcast_S_S2 main_cst_66
  fn_part10 (F := F) main_arg35 main_v168 main_v169 main_v170

def fn_part8 {F : FTy → Type} [FloatOps F] (main_arg28 : FVec F S256x2 .f32) (main_arg29 : FVec F S2 .f32) (main_arg30 : FVec F S2 .f32) (main_arg31 : FVec F S256x256 .f32) (main_arg32 : FVec F S256 .f32) (main_arg33 : FVec F S256x2 .f32) (main_arg34 : FVec F S2 .f32) (main_arg35 : IVec S2x500000 32) (main_v133 : IVec S_ 1) (main_v136 : IVec S256x2 1) : IVec S_ 1 :=
  let main_c_53 : IVec S_ 1 := constantI S_ 1 1#1
  let main_v137 : IVec S_ 1 := (fun x v => Host.reduce IntOp.andi x v reducesTo_S256x2_S_d0_1 h_S_) main_v136 main_c_53
  let main_v138 : IVec S_ 1 := andi main_v133 main_v137
  let main_v139 : FVec F S256x2 .f32 := Host.absf main_arg28
  let main_cst_54 : FVec F S_ .f32 := constant S_ .f32 0x7F800000#32
  let main_v140 : FVec F S256x2 .f32 := broadcastInDim S256x2 ![] bcast_S_S256x2 main_cst_54
  let main_v141 : IVec S256x2 1 := cmpf .olt main_v139 main_v140
  let main_c_55 : IVec S_ 1 := constantI S_ 1 1#1
  let main_v142 : IVec S_ 1 := (fun x v => Host.reduce IntOp.andi x v reducesTo_S256x2_S_d0_1 h_S_) main_v141 main_c_55
  let main_v143 : IVec S_ 1 := andi main_v138 main_v142
  let main_v144 : FVec F S2 .f32 := Host.absf main_arg29
  let main_cst_56 : FVec F S_ .f32 := constant S_ .f32 0x7F800000#32
  let main_v145 : FVec F S2 .f32 := broadcastInDim S2 ![] bcast_S_S2 main_cst_56
  let main_v146 : IVec S2 1 := cmpf .olt main_v144 main_v145
  let main_c_57 : IVec S_ 1 := constantI S_ 1 1#1
  let main_v147 : IVec S_ 1 := (fun x v => Host.reduce IntOp.andi x v reducesTo_S2_S_d0 h_S_) main_v146 main_c_57
  let main_v148 : IVec S_ 1 := andi main_v143 main_v147
  let main_v149 : FVec F S2 .f32 := Host.absf main_arg30
  let main_cst_58 : FVec F S_ .f32 := constant S_ .f32 0x7F800000#32
  let main_v150 : FVec F S2 .f32 := broadcastInDim S2 ![] bcast_S_S2 main_cst_58
  let main_v151 : IVec S2 1 := cmpf .olt main_v149 main_v150
  let main_c_59 : IVec S_ 1 := constantI S_ 1 1#1
  let main_v152 : IVec S_ 1 := (fun x v => Host.reduce IntOp.andi x v reducesTo_S2_S_d0 h_S_) main_v151 main_c_59
  let main_v153 : IVec S_ 1 := andi main_v148 main_v152
  fn_part9 (F := F) main_arg31 main_arg32 main_arg33 main_arg34 main_arg35 main_v153

def fn_part7 {F : FTy → Type} [FloatOps F] (main_arg25 : FVec F S256 .f32) (main_arg26 : FVec F S256 .f32) (main_arg27 : FVec F S256x2 .f32) (main_arg28 : FVec F S256x2 .f32) (main_arg29 : FVec F S2 .f32) (main_arg30 : FVec F S2 .f32) (main_arg31 : FVec F S256x256 .f32) (main_arg32 : FVec F S256 .f32) (main_arg33 : FVec F S256x2 .f32) (main_arg34 : FVec F S2 .f32) (main_arg35 : IVec S2x500000 32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256x2 .f32 := Host.absf main_arg27
  let main_cst_52 : FVec F S_ .f32 := constant S_ .f32 0x7F800000#32
  let main_v135 : FVec F S256x2 .f32 := broadcastInDim S256x2 ![] bcast_S_S256x2 main_cst_52
  let main_v136 : IVec S256x2 1 := cmpf .olt main_v134 main_v135
  fn_part8 (F := F) main_arg28 main_arg29 main_arg30 main_arg31 main_arg32 main_arg33 main_arg34 main_arg35 main_v133 main_v136

def fn_part6 {F : FTy → Type} [FloatOps F] (main_arg21 : FVec F S256 .f32) (main_arg22 : FVec F S1 .f32) (main_arg23 : FVec F S256x256 .f32) (main_arg24 : FVec F S256x256 .f32) (main_arg25 : FVec F S256 .f32) (main_arg26 : FVec F S256 .f32) (main_arg27 : FVec F S256x2 .f32) (main_arg28 : FVec F S256x2 .f32) (main_arg29 : FVec F S2 .f32) (main_arg30 : FVec F S2 .f32) (main_arg31 : FVec F S256x256 .f32) (main_arg32 : FVec F S256 .f32) (main_arg33 : FVec F S256x2 .f32) (main_arg34 : FVec F S2 .f32) (main_arg35 : IVec S2x500000 32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S256x256 .f32 := Host.absf main_arg23
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256x256 .f32 := Host.absf main_arg24
  fn_part7 (F := F) main_arg25 main_arg26 main_arg27 main_arg28 main_arg29 main_arg30 main_arg31 main_arg32 main_arg33 main_arg34 main_arg35 main_v118 main_v119

def fn_part5 {F : FTy → Type} [FloatOps F] (main_arg18 : FVec F S256x256 .f32) (main_arg19 : FVec F S256 .f32) (main_arg20 : FVec F S256x256 .f32) (main_arg21 : FVec F S256 .f32) (main_arg22 : FVec F S1 .f32) (main_arg23 : FVec F S256x256 .f32) (main_arg24 : FVec F S256x256 .f32) (main_arg25 : FVec F S256 .f32) (main_arg26 : FVec F S256 .f32) (main_arg27 : FVec F S256x2 .f32) (main_arg28 : FVec F S256x2 .f32) (main_arg29 : FVec F S2 .f32) (main_arg30 : FVec F S2 .f32) (main_arg31 : FVec F S256x256 .f32) (main_arg32 : FVec F S256 .f32) (main_arg33 : FVec F S256x2 .f32) (main_arg34 : FVec F S2 .f32) (main_arg35 : IVec S2x500000 32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg14 : FVec F S256 .f32) (main_arg15 : FVec F S1 .f32) (main_arg16 : FVec F S16x256 .f32) (main_arg17 : FVec F S256 .f32) (main_arg18 : FVec F S256x256 .f32) (main_arg19 : FVec F S256 .f32) (main_arg20 : FVec F S256x256 .f32) (main_arg21 : FVec F S256 .f32) (main_arg22 : FVec F S1 .f32) (main_arg23 : FVec F S256x256 .f32) (main_arg24 : FVec F S256x256 .f32) (main_arg25 : FVec F S256 .f32) (main_arg26 : FVec F S256 .f32) (main_arg27 : FVec F S256x2 .f32) (main_arg28 : FVec F S256x2 .f32) (main_arg29 : FVec F S2 .f32) (main_arg30 : FVec F S2 .f32) (main_arg31 : FVec F S256x256 .f32) (main_arg32 : FVec F S256 .f32) (main_arg33 : FVec F S256x2 .f32) (main_arg34 : FVec F S2 .f32) (main_arg35 : IVec S2x500000 32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S16x256 .f32 := Host.absf main_arg16
  let main_cst_30 : FVec F S_ .f32 := constant S_ .f32 0x7F800000#32
  let main_v80 : FVec F S16x256 .f32 := broadcastInDim S16x256 ![] bcast_S_S16x256 main_cst_30
  let main_v81 : IVec S16x256 1 := cmpf .olt main_v79 main_v80
  let main_c_31 : IVec S_ 1 := constantI S_ 1 1#1
  let main_v82 : IVec S_ 1 := (fun x v => Host.reduce IntOp.andi x v reducesTo_S16x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg11 : FVec F S256x256 .f32) (main_arg12 : FVec F S256 .f32) (main_arg13 : FVec F S256x256 .f32) (main_arg14 : FVec F S256 .f32) (main_arg15 : FVec F S1 .f32) (main_arg16 : FVec F S16x256 .f32) (main_arg17 : FVec F S256 .f32) (main_arg18 : FVec F S256x256 .f32) (main_arg19 : FVec F S256 .f32) (main_arg20 : FVec F S256x256 .f32) (main_arg21 : FVec F S256 .f32) (main_arg22 : FVec F S1 .f32) (main_arg23 : FVec F S256x256 .f32) (main_arg24 : FVec F S256x256 .f32) (main_arg25 : FVec F S256 .f32) (main_arg26 : FVec F S256 .f32) (main_arg27 : FVec F S256x2 .f32) (main_arg28 : FVec F S256x2 .f32) (main_arg29 : FVec F S2 .f32) (main_arg30 : FVec F S2 .f32) (main_arg31 : FVec F S256x256 .f32) (main_arg32 : FVec F S256 .f32) (main_arg33 : FVec F S256x2 .f32) (main_arg34 : FVec F S2 .f32) (main_arg35 : IVec S2x500000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg7 : FVec F S256 .f32) (main_arg8 : FVec F S1 .f32) (main_arg9 : FVec F S16x256 .f32) (main_arg10 : FVec F S256 .f32) (main_arg11 : FVec F S256x256 .f32) (main_arg12 : FVec F S256 .f32) (main_arg13 : FVec F S256x256 .f32) (main_arg14 : FVec F S256 .f32) (main_arg15 : FVec F S1 .f32) (main_arg16 : FVec F S16x256 .f32) (main_arg17 : FVec F S256 .f32) (main_arg18 : FVec F S256x256 .f32) (main_arg19 : FVec F S256 .f32) (main_arg20 : FVec F S256x256 .f32) (main_arg21 : FVec F S256 .f32) (main_arg22 : FVec F S1 .f32) (main_arg23 : FVec F S256x256 .f32) (main_arg24 : FVec F S256x256 .f32) (main_arg25 : FVec F S256 .f32) (main_arg26 : FVec F S256 .f32) (main_arg27 : FVec F S256x2 .f32) (main_arg28 : FVec F S256x2 .f32) (main_arg29 : FVec F S2 .f32) (main_arg30 : FVec F S2 .f32) (main_arg31 : FVec F S256x256 .f32) (main_arg32 : FVec F S256 .f32) (main_arg33 : FVec F S256x2 .f32) (main_arg34 : FVec F S2 .f32) (main_arg35 : IVec S2x500000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S16x256 .f32 := Host.absf main_arg9
  let main_cst_16 : FVec F S_ .f32 := constant S_ .f32 0x7F800000#32
  let main_v45 : FVec F S16x256 .f32 := broadcastInDim S16x256 ![] bcast_S_S16x256 main_cst_16
  let main_v46 : IVec S16x256 1 := cmpf .olt main_v44 main_v45
  let main_c_17 : IVec S_ 1 := constantI S_ 1 1#1
  let main_v47 : IVec S_ 1 := (fun x v => Host.reduce IntOp.andi x v reducesTo_S16x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg4 : FVec F S128x256 .f32) (main_arg5 : FVec F S256 .f32) (main_arg6 : FVec F S256x256 .f32) (main_arg7 : FVec F S256 .f32) (main_arg8 : FVec F S1 .f32) (main_arg9 : FVec F S16x256 .f32) (main_arg10 : FVec F S256 .f32) (main_arg11 : FVec F S256x256 .f32) (main_arg12 : FVec F S256 .f32) (main_arg13 : FVec F S256x256 .f32) (main_arg14 : FVec F S256 .f32) (main_arg15 : FVec F S1 .f32) (main_arg16 : FVec F S16x256 .f32) (main_arg17 : FVec F S256 .f32) (main_arg18 : FVec F S256x256 .f32) (main_arg19 : FVec F S256 .f32) (main_arg20 : FVec F S256x256 .f32) (main_arg21 : FVec F S256 .f32) (main_arg22 : FVec F S1 .f32) (main_arg23 : FVec F S256x256 .f32) (main_arg24 : FVec F S256x256 .f32) (main_arg25 : FVec F S256 .f32) (main_arg26 : FVec F S256 .f32) (main_arg27 : FVec F S256x2 .f32) (main_arg28 : FVec F S256x2 .f32) (main_arg29 : FVec F S2 .f32) (main_arg30 : FVec F S2 .f32) (main_arg31 : FVec F S256x256 .f32) (main_arg32 : FVec F S256 .f32) (main_arg33 : FVec F S256x2 .f32) (main_arg34 : FVec F S2 .f32) (main_arg35 : IVec S2x500000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S50000x128 .f32) (main_arg1 : FVec F S500000x16 .f32) (main_arg2 : FVec F S16x128 .f32) (main_arg3 : FVec F S128 .f32) (main_arg4 : FVec F S128x256 .f32) (main_arg5 : FVec F S256 .f32) (main_arg6 : FVec F S256x256 .f32) (main_arg7 : FVec F S256 .f32) (main_arg8 : FVec F S1 .f32) (main_arg9 : FVec F S16x256 .f32) (main_arg10 : FVec F S256 .f32) (main_arg11 : FVec F S256x256 .f32) (main_arg12 : FVec F S256 .f32) (main_arg13 : FVec F S256x256 .f32) (main_arg14 : FVec F S256 .f32) (main_arg15 : FVec F S1 .f32) (main_arg16 : FVec F S16x256 .f32) (main_arg17 : FVec F S256 .f32) (main_arg18 : FVec F S256x256 .f32) (main_arg19 : FVec F S256 .f32) (main_arg20 : FVec F S256x256 .f32) (main_arg21 : FVec F S256 .f32) (main_arg22 : FVec F S1 .f32) (main_arg23 : FVec F S256x256 .f32) (main_arg24 : FVec F S256x256 .f32) (main_arg25 : FVec F S256 .f32) (main_arg26 : FVec F S256 .f32) (main_arg27 : FVec F S256x2 .f32) (main_arg28 : FVec F S256x2 .f32) (main_arg29 : FVec F S2 .f32) (main_arg30 : FVec F S2 .f32) (main_arg31 : FVec F S256x256 .f32) (main_arg32 : FVec F S256 .f32) (main_arg33 : FVec F S256x2 .f32) (main_arg34 : FVec F S2 .f32) (main_arg35 : IVec S2x500000 32) (main_arg36 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x16 .f32 := Host.absf main_arg1
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S50000x128 : Shape := ⟨2, ![50000, 128]⟩
abbrev S500000x16 : Shape := ⟨2, ![500000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1 : Shape := ⟨1, ![1]⟩
abbrev S16x256 : Shape := ⟨2, ![16, 256]⟩
abbrev S256x2 : Shape := ⟨2, ![256, 2]⟩
abbrev S2 : Shape := ⟨1, ![2]⟩
abbrev S2x500000 : Shape := ⟨2, ![2, 500000]⟩
abbrev S50000 : Shape := ⟨1, ![50000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x1 : Shape := ⟨2, ![1, 1]⟩
abbrev S500000x128 : Shape := ⟨2, ![500000, 128]⟩
abbrev S1x128 : Shape := ⟨2, ![1, 128]⟩
abbrev S5000x16 : Shape := ⟨2, ![5000, 16]⟩
abbrev S5000x128 : Shape := ⟨2, ![5000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S500000x256 : Shape := ⟨2, ![500000, 256]⟩
abbrev S5000x256 : Shape := ⟨2, ![5000, 256]⟩
abbrev S2048x256 : Shape := ⟨2, ![2048, 256]⟩
abbrev S50000x1 : Shape := ⟨2, ![50000, 1]⟩
abbrev S1x2 : Shape := ⟨2, ![1, 2]⟩
abbrev S2048x2 : Shape := ⟨2, ![2048, 2]⟩
abbrev S512x256 : Shape := ⟨2, ![512, 256]⟩
abbrev S512x2 : Shape := ⟨2, ![512, 2]⟩

abbrev nBuf : Space → Nat
  | .hbm => 174
  | .vmem => 56
  | .smem => 0
  | _ => 0

abbrev hbmTy0_0 (i : Nat) : BufTy := match i % 128 with
  | 0 => ⟨S50000x128, .f32⟩
  | 1 => ⟨S500000x16, .f32⟩
  | 2 => ⟨S16x128, .f32⟩
  | 3 => ⟨S128, .f32⟩
  | 4 => ⟨S128x256, .f32⟩
  | 5 => ⟨S256, .f32⟩
  | 6 => ⟨S256x256, .f32⟩
  | 7 => ⟨S256, .f32⟩
  | 8 => ⟨S1, .f32⟩
  | 9 => ⟨S16x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S1, .f32⟩
  | 16 => ⟨S16x256, .f32⟩
  | 17 => ⟨S256, .f32⟩
  | 18 => ⟨S256x256, .f32⟩
  | 19 => ⟨S256, .f32⟩
  | 20 => ⟨S256x256, .f32⟩
  | 21 => ⟨S256, .f32⟩
  | 22 => ⟨S1, .f32⟩
  | 23 => ⟨S256x256, .f32⟩
  | 24 => ⟨S256x256, .f32⟩
  | 25 => ⟨S256, .f32⟩
  | 26 => ⟨S256, .f32⟩
  | 27 => ⟨S256x2, .f32⟩
  | 28 => ⟨S256x2, .f32⟩
  | 29 => ⟨S2, .f32⟩
  | 30 => ⟨S2, .f32⟩
  | 31 => ⟨S256x256, .f32⟩
  | 32 => ⟨S256, .f32⟩
  | 33 => ⟨S256x2, .f32⟩
  | 34 => ⟨S2, .f32⟩
  | 35 => ⟨S2x500000, .i32⟩
  | 36 => ⟨S50000, .i32⟩
  | 37 => ⟨S1x500000, .i32⟩
  | 38 => ⟨S500000, .i32⟩
  | 39 => ⟨S1x500000, .i32⟩
  | 40 => ⟨S500000, .i32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S1, .i32⟩
  | 50 => ⟨S_, .i32⟩
  | 51 => ⟨S500000x1, .i32⟩
  | 52 => ⟨S500000x1, .i1⟩
  | 53 => ⟨S1x1, .i32⟩
  | 54 => ⟨S500000x1, .i32⟩
  | 55 => ⟨S500000x1, .i1⟩
  | 56 => ⟨S500000x1, .i1⟩
  | 57 => ⟨S_, .i1⟩
  | 58 => ⟨S500000, .i1⟩
  | 59 => ⟨S500000x128, .f32⟩
  | 60 => ⟨S500000x128, .i1⟩
  | 61 => ⟨S_, .f32⟩
  | 62 => ⟨S500000x128, .f32⟩
  | 63 => ⟨S500000x128, .f32⟩
  | 64 => ⟨S1x128, .f32⟩
  | 65 => ⟨S500000x128, .f32⟩
  | 66 => ⟨S_, .f32⟩
  | 67 => ⟨S50000x128, .f32⟩
  | 68 => ⟨S500000x1, .i32⟩
  | 69 => ⟨S50000x128, .f32⟩
  | 70 => ⟨S_, .f32⟩
  | 71 => ⟨S_, .f32⟩
  | 72 => ⟨S_, .f32⟩
  | 73 => ⟨S50000x128, .f32⟩
  | 74 => ⟨S50000x128, .f32⟩
  | 75 => ⟨S50000x128, .f32⟩
  | 76 => ⟨S1x256, .f32⟩
  | 77 => ⟨S1x256, .f32⟩
  | 78 => ⟨S50000x256, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S1, .i32⟩
  | 88 => ⟨S_, .i32⟩
  | 89 => ⟨S500000x1, .i32⟩
  | 90 => ⟨S500000x1, .i1⟩
  | 91 => ⟨S1x1, .i32⟩
  | 92 => ⟨S500000x1, .i32⟩
  | 93 => ⟨S500000x1, .i1⟩
  | 94 => ⟨S500000x1, .i1⟩
  | 95 => ⟨S_, .i1⟩
  | 96 => ⟨S500000, .i1⟩
  | 97 => ⟨S500000x256, .f32⟩
  | 98 => ⟨S500000x256, .i1⟩
  | 99 => ⟨S_, .f32⟩
  | 100 => ⟨S500000x256, .f32⟩
  | 101 => ⟨S500000x256, .f32⟩
  | 102 => ⟨S1x256, .f32⟩
  | 103 => ⟨S500000x256, .f32⟩
  | 104 => ⟨S_, .f32⟩
  | 105 => ⟨S50000x256, .f32⟩
  | 106 => ⟨S500000x1, .i32⟩
  | 107 => ⟨S50000x256, .f32⟩
  | 108 => ⟨S_, .f32⟩
  | 109 => ⟨S_, .f32⟩
  | 110 => ⟨S_, .f32⟩
  | 111 => ⟨S50000x256, .f32⟩
  | 112 => ⟨S50000x256, .f32⟩
  | 113 => ⟨S50000x256, .f32⟩
  | 114 => ⟨S1x256, .f32⟩
  | 115 => ⟨S1x256, .f32⟩
  | 116 => ⟨S50000x256, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S1, .i32⟩
  | 126 => ⟨S_, .i32⟩
  | 127 => ⟨S500000x1, .i32⟩
  | _ => ⟨S50000x128, .f32⟩

abbrev hbmTy0_1 (i : Nat) : BufTy := match i % 128 with
  | 0 => ⟨S500000x1, .i1⟩
  | 1 => ⟨S1x1, .i32⟩
  | 2 => ⟨S500000x1, .i32⟩
  | 3 => ⟨S500000x1, .i1⟩
  | 4 => ⟨S500000x1, .i1⟩
  | 5 => ⟨S_, .i1⟩
  | 6 => ⟨S500000, .i1⟩
  | 7 => ⟨S500000x256, .f32⟩
  | 8 => ⟨S500000x256, .i1⟩
  | 9 => ⟨S_, .f32⟩
  | 10 => ⟨S500000x256, .f32⟩
  | 11 => ⟨S500000x256, .f32⟩
  | 12 => ⟨S1x256, .f32⟩
  | 13 => ⟨S500000x256, .f32⟩
  | 14 => ⟨S_, .f32⟩
  | 15 => ⟨S50000x256, .f32⟩
  | 16 => ⟨S500000x1, .i32⟩
  | 17 => ⟨S50000x256, .f32⟩
  | 18 => ⟨S_, .f32⟩
  | 19 => ⟨S_, .f32⟩
  | 20 => ⟨S_, .f32⟩
  | 21 => ⟨S50000x256, .f32⟩
  | 22 => ⟨S50000x256, .f32⟩
  | 23 => ⟨S50000x256, .f32⟩
  | 24 => ⟨S1x256, .f32⟩
  | 25 => ⟨S1x256, .f32⟩
  | 26 => ⟨S50000x256, .f32⟩
  | 27 => ⟨S_, .f32⟩
  | 28 => ⟨S2048x256, .f32⟩
  | 29 => ⟨S50000x1, .i32⟩
  | 30 => ⟨S2048x256, .f32⟩
  | 31 => ⟨S256x256, .f32⟩
  | 32 => ⟨S256x256, .f32⟩
  | 33 => ⟨S256x256, .f32⟩
  | 34 => ⟨S256, .f32⟩
  | 35 => ⟨S256, .f32⟩
  | 36 => ⟨S256, .f32⟩
  | 37 => ⟨S256x2, .f32⟩
  | 38 => ⟨S256x2, .f32⟩
  | 39 => ⟨S256x2, .f32⟩
  | 40 => ⟨S2, .f32⟩
  | 41 => ⟨S2, .f32⟩
  | 42 => ⟨S2, .f32⟩
  | 43 => ⟨S1x256, .f32⟩
  | 44 => ⟨S1x2, .f32⟩
  | 45 => ⟨S2048x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S2000x128, .f32⟩
  | .local _ .vmem, ⟨9, _⟩ => ⟨S2000x128, .f32⟩
  | .local _ .vmem, ⟨10, _⟩ => ⟨S128x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S5000x16, .f32⟩
  | .local _ .vmem, ⟨17, _⟩ => ⟨S5000x16, .f32⟩
  | .local _ .vmem, ⟨18, _⟩ => ⟨S16x256, .f32⟩
  | .local _ .vmem, ⟨19, _⟩ => ⟨S1x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S5000x16, .f32⟩
  | .local _ .vmem, ⟨33, _⟩ => ⟨S5000x16, .f32⟩
  | .local _ .vmem, ⟨34, _⟩ => ⟨S16x256, .f32⟩
  | .local _ .vmem, ⟨35, _⟩ => ⟨S1x256, .f32⟩
  | .local _ .vmem, ⟨36, _⟩ => ⟨S5000x256, .f32⟩
  | .local _ .vmem, ⟨37, _⟩ => ⟨S5000x256, .f32⟩
  | .local _ .vmem, ⟨38, _⟩ => ⟨S5000x256, .f32⟩
  | .local _ .vmem, ⟨39, _⟩ => ⟨S5000x256, .f32⟩
  | .local _ .vmem, ⟨40, _⟩ => ⟨S2000x256, .f32⟩
  | .local _ .vmem, ⟨41, _⟩ => ⟨S2000x256, .f32⟩
  | .local _ .vmem, ⟨42, _⟩ => ⟨S256x256, .f32⟩
  | .local _ .vmem, ⟨43, _⟩ => ⟨S1x256, .f32⟩
  | .local _ .vmem, ⟨44, _⟩ => ⟨S256x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S512x256, .f32⟩
  | .local _ .vmem, ⟨49, _⟩ => ⟨S512x256, .f32⟩
  | .local _ .vmem, ⟨50, _⟩ => ⟨S256x256, .f32⟩
  | .local _ .vmem, ⟨51, _⟩ => ⟨S1x256, .f32⟩
  | .local _ .vmem, ⟨52, _⟩ => ⟨S256x2, .f32⟩
  | .local _ .vmem, ⟨53, _⟩ => ⟨S1x2, .f32⟩
  | .local _ .vmem, ⟨54, _⟩ => ⟨S512x2, .f32⟩
  | .local _ .vmem, ⟨55, _⟩ => ⟨S512x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_v14 : Ref sig .tc := ⟨.hbm, 60, rfl⟩
abbrev main_call0_cst : Ref sig .tc := ⟨.hbm, 61, rfl⟩
abbrev main_call0_v15 : Ref sig .tc := ⟨.hbm, 62, rfl⟩
abbrev main_v4 : Ref sig .tc := ⟨.hbm, 63, rfl⟩
abbrev main_v5 : Ref sig .tc := ⟨.hbm, 64, rfl⟩
abbrev main_v6 : Ref sig .tc := ⟨.hbm, 65, rfl⟩
abbrev main_cst : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_cst_0 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_call1_c : Ref sig .tc := ⟨.hbm, 79, rfl⟩
abbrev main_call1_v0 : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_c_1 : Ref sig .tc := ⟨.hbm, 87, rfl⟩
abbrev main_call1_c_2 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_3 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_call1_cst : Ref sig .tc := ⟨.hbm, 99, rfl⟩
abbrev main_call1_v15 : Ref sig .tc := ⟨.hbm, 100, rfl⟩
abbrev main_v18 : Ref sig .tc := ⟨.hbm, 101, rfl⟩
abbrev main_v19 : Ref sig .tc := ⟨.hbm, 102, rfl⟩
abbrev main_v20 : Ref sig .tc := ⟨.hbm, 103, rfl⟩
abbrev main_cst_1 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_cst_2 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_v30 : Ref sig .tc := ⟨.hbm, 115, rfl⟩
abbrev main_v31 : Ref sig .tc := ⟨.hbm, 116, rfl⟩
abbrev main_call2_c : Ref sig .tc := ⟨.hbm, 117, rfl⟩
abbrev main_call2_v0 : Ref sig .tc := ⟨.hbm, 118, rfl⟩
abbrev main_call2_v1 : Ref sig .tc := ⟨.hbm, 119, rfl⟩
abbrev main_call2_c_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_c_1 : Ref sig .tc := ⟨.hbm, 125, rfl⟩
abbrev main_call2_c_2 : Ref sig .tc := ⟨.hbm, 126, rfl⟩
abbrev main_call2_v6 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_c_3 : Ref sig .tc := ⟨.hbm, 133, rfl⟩
abbrev main_call2_v12 : Ref sig .tc := ⟨.hbm, 134, rfl⟩
abbrev main_call2_v13 : Ref sig .tc := ⟨.hbm, 135, rfl⟩
abbrev main_call2_v14 : Ref sig .tc := ⟨.hbm, 136, rfl⟩
abbrev main_call2_cst : Ref sig .tc := ⟨.hbm, 137, rfl⟩
abbrev main_call2_v15 : Ref sig .tc := ⟨.hbm, 138, rfl⟩
abbrev main_v32 : Ref sig .tc := ⟨.hbm, 139, rfl⟩
abbrev main_v33 : Ref sig .tc := ⟨.hbm, 140, rfl⟩
abbrev main_v34 : Ref sig .tc := ⟨.hbm, 141, rfl⟩
abbrev main_cst_3 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_cst_4 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_cst_5 : Ref sig .tc := ⟨.hbm, 155, rfl⟩
abbrev main_v46 : Ref sig .tc := ⟨.hbm, 156, rfl⟩
abbrev main_v47 : Ref sig .tc := ⟨.hbm, 157, rfl⟩
abbrev main_v48 : Ref sig .tc := ⟨.hbm, 158, rfl⟩
abbrev main_v49 : Ref sig .tc := ⟨.hbm, 159, rfl⟩
abbrev main_v50 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_v61 : Ref sig .tc := ⟨.hbm, 171, rfl⟩
abbrev main_v62 : Ref sig .tc := ⟨.hbm, 172, rfl⟩
abbrev main_v63 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S512x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  shapeCasts_S128_S1x128 : S128.ShapeCasts S1x128
  inb_S5000x16_S5000x16_0_0 : ∀ a, (![0, 0] : Fin 2 → Nat) a + S5000x16.size a ≤ S5000x16.size a
  h_S5000x16 : 0 < S5000x16.numel
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bcast_S_S50000x128 : S_.BroadcastsInDim S50000x128 (![] : Fin 0 → Fin S50000x128.rank)
  shapeCasts_S1_S_ : S1.ShapeCasts S_
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S500000_S500000x256_0 : S500000.BroadcastsInDim S500000x256 (![0] : Fin 1 → Fin S500000x256.rank)
  bcast_S_S500000x256 : S_.BroadcastsInDim S500000x256 (![] : Fin 0 → Fin S500000x256.rank)
  inb_S16x256_S16x256_0_0 : ∀ a, (![0, 0] : Fin 2 → Nat) a + S16x256.size a ≤ S16x256.size a
  h_S16x256 : 0 < S16x256.numel
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bcast_S_S50000x256 : S_.BroadcastsInDim S50000x256 (![] : Fin 0 → Fin S50000x256.rank)
  shapeCasts_S2000x256_S2000x256 : S2000x256.ShapeCasts S2000x256
  bcast_S_S2048x256 : S_.BroadcastsInDim S2048x256 (![] : Fin 0 → Fin S2048x256.rank)
  bcast_S50000_S50000x1_0 : S50000.BroadcastsInDim S50000x1 (![0] : Fin 1 → Fin S50000x1.rank)
  shapeCasts_S2_S1x2 : S2.ShapeCasts S1x2
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S256x256_S256x256 : S256x256.ShapeCasts S256x256
  broadcasts_S1x256_S512x256 : S1x256.Broadcasts S512x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  gather_S50000x128_S500000x1_S500000x128_1_0_n_n_0_1_1128_wf : GatherDims.WF S50000x128 S500000x1 S500000x128 [1] [0] [] [0] [] 1 ![1, 128]
  dot_S5000x16_S16x128_S5000x128_1_0_0_1_n_n_wf : DotDims.WF S5000x16 S16x128 S5000x128 [1] [0] [0] [1] [] []
  scatter_S50000x128_S500000x1_S500000x128_1_0_0_1_wf : ScatterDims.WF S50000x128 S500000x1 S500000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S500000x1_S500000x256_1_0_n_n_0_1_1256_wf : GatherDims.WF S50000x256 S500000x1 S500000x256 [1] [0] [] [0] [] 1 ![1, 256]
  dot_S5000x16_S16x256_S5000x256_1_0_0_1_n_n_wf : DotDims.WF S5000x16 S16x256 S5000x256 [1] [0] [0] [1] [] []
  scatter_S50000x256_S500000x1_S500000x256_1_0_0_1_wf : ScatterDims.WF S50000x256 S500000x1 S500000x256 [1] [0] [0] 1
  scatter_S2048x256_S50000x1_S50000x256_1_0_0_1_wf : ScatterDims.WF S2048x256 S50000x1 S50000x256 [1] [0] [0] 1
  dot_S512x256_S256x256_S512x256_1_0_0_1_n_n_wf : DotDims.WF S512x256 S256x256 S512x256 [1] [0] [0] [1] [] []
  dot_S512x256_S256x2_S512x2_1_0_0_1_n_n_wf : DotDims.WF S512x256 S256x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S500000x16.size a
  hwx0_0 : ∀ i : grid0.Coords, EltTy.bits .f32 = 32 ∨ (Rect.block (s := S500000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S500000x128.size a
  hwx0_3 : ∀ i : grid0.Coords, EltTy.bits .f32 = 32 ∨ (Rect.block (s := S500000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S500000x128.size a
  hwx0_4 : ∀ i : grid0.Coords, EltTy.bits .f32 = 32 ∨ (Rect.block (s := S500000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S500000x16.size a
  hwx2_0 : ∀ i : grid2.Coords, EltTy.bits .f32 = 32 ∨ (Rect.block (s := S500000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x256.size a ≤ S16x256.size a
  hwx2_1 : ∀ i : grid2.Coords, EltTy.bits .f32 = 32 ∨ (Rect.block (s := S16x256) S16x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S500000x256.size a
  hwx2_3 : ∀ i : grid2.Coords, EltTy.bits .f32 = 32 ∨ (Rect.block (s := S500000x256) S5000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x256.size a ≤ S500000x256.size a
  hwx2_4 : ∀ i : grid2.Coords, EltTy.bits .f32 = 32 ∨ (Rect.block (s := S500000x256) S5000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S500000x16.size a
  hwx4_0 : ∀ i : grid4.Coords, EltTy.bits .f32 = 32 ∨ (Rect.block (s := S500000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x256.size a ≤ S16x256.size a
  hwx4_1 : ∀ i : grid4.Coords, EltTy.bits .f32 = 32 ∨ (Rect.block (s := S16x256) S16x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S500000x256.size a
  hwx4_3 : ∀ i : grid4.Coords, EltTy.bits .f32 = 32 ∨ (Rect.block (s := S500000x256) S5000x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x256.size a ≤ S500000x256.size a
  hwx4_4 : ∀ i : grid4.Coords, EltTy.bits .f32 = 32 ∨ (Rect.block (s := S500000x256) S5000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S2048x256.size a
  hwx6_0 : ∀ i : grid6.Coords, EltTy.bits .f32 = 32 ∨ (Rect.block (s := S2048x256) S512x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x2.size a ≤ S256x2.size a
  hwx6_3 : ∀ i : grid6.Coords, EltTy.bits .f32 = 32 ∨ (Rect.block (s := S256x2) S256x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S512x2.size a ≤ S2048x2.size a
  hwx6_5 : ∀ i : grid6.Coords, EltTy.bits .f32 = 32 ∨ (Rect.block (s := S2048x2) S512x2.size (cc6_transform_5 i) (hinb6_5 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S5000x16_S16x256_S5000x256_1_0_0_1_n_n : DotDims S5000x16 S16x256 S5000x256 where
  lhsContracting := [1]
  rhsContracting := [0]
  lhsNonContracting := [0]
  rhsNonContracting := [1]
  lhsBatch := []
  rhsBatch := []
  wf := dot_S5000x16_S16x256_S5000x256_1_0_0_1_n_n_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S2048x256_S50000x1_S50000x256_1_0_0_1 : ScatterDims S2048x256 S50000x1 S50000x256 where
  updateWindowDims := [1]
  insertedWindowDims := [0]
  scatterDimsToOperandDims := [0]
  indexVectorDim := 1
  wf := scatter_S2048x256_S50000x1_S50000x256_1_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x2_S512x2_1_0_0_1_n_n : DotDims S512x256 S256x2 S512x2 where
  lhsContracting := [1]
  rhsContracting := [0]
  lhsNonContracting := [0]
  rhsNonContracting := [1]
  lhsBatch := []
  rhsBatch := []
  wf := dot_S512x256_S256x2_S512x2_1_0_0_1_n_n_wf

abbrev win0_0 : Pipeline.Window sig grid0 :=
  Pipeline.Window.ofSpec (Memref.whole main_arg1) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S16x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S5000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20) S5000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v31) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg1) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S16x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S5000x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v34) S5000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v42) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg18) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg20) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v44) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v45) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v48) S512x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v51) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v57) S256x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v62) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v63) S512x2.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S500000x16 : Shape := ⟨2, ![500000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1 : Shape := ⟨1, ![1]⟩
abbrev S16x256 : Shape := ⟨2, ![16, 256]⟩
abbrev S256x2 : Shape := ⟨2, ![256, 2]⟩
abbrev S2 : Shape := ⟨1, ![2]⟩
abbrev S2x500000 : Shape := ⟨2, ![2, 500000]⟩
abbrev S50000 : Shape := ⟨1, ![50000]⟩
abbrev S1x500000 : Shape := ⟨2, ![1, 500000]⟩
abbrev S500000 : Shape := ⟨1, ![500000]⟩
abbrev S500000x128 : Shape := ⟨2, ![500000, 128]⟩
abbrev S1x128 : Shape := ⟨2, ![1, 128]⟩
abbrev S_ : Shape := ⟨0, ![]⟩
abbrev S500000x1 : Shape := ⟨2, ![500000, 1]⟩
abbrev S50000x256 : Shape := ⟨2, ![50000, 256]⟩
abbrev S1x256 : Shape := ⟨2, ![1, 256]⟩
abbrev S500000x256 : Shape := ⟨2, ![500000, 256]⟩
abbrev S2048x256 : Shape := ⟨2, ![2048, 256]⟩
abbrev S50000x1 : Shape := ⟨2, ![50000, 1]⟩
abbrev S2048x2 : Shape := ⟨2, ![2048, 2]⟩
abbrev S1x2 : Shape := ⟨2, ![1, 2]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S500000x16, .f32⟩
  | 2 => ⟨S16x128, .f32⟩
  | 3 => ⟨S128, .f32⟩
  | 4 => ⟨S128x256, .f32⟩
  | 5 => ⟨S256, .f32⟩
  | 6 => ⟨S256x256, .f32⟩
  | 7 => ⟨S256, .f32⟩
  | 8 => ⟨S1, .f32⟩
  | 9 => ⟨S16x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S1, .f32⟩
  | 16 => ⟨S16x256, .f32⟩
  | 17 => ⟨S256, .f32⟩
  | 18 => ⟨S256x256, .f32⟩
  | 19 => ⟨S256, .f32⟩
  | 20 => ⟨S256x256, .f32⟩
  | 21 => ⟨S256, .f32⟩
  | 22 => ⟨S1, .f32⟩
  | 23 => ⟨S256x256, .f32⟩
  | 24 => ⟨S256x256, .f32⟩
  | 25 => ⟨S256, .f32⟩
  | 26 => ⟨S256, .f32⟩
  | 27 => ⟨S256x2, .f32⟩
  | 28 => ⟨S256x2, .f32⟩
  | 29 => ⟨S2, .f32⟩
  | 30 => ⟨S2, .f32⟩
  | 31 => ⟨S256x256, .f32⟩
  | 32 => ⟨S256, .f32⟩
  | 33 => ⟨S256x2, .f32⟩
  | 34 => ⟨S2, .f32⟩
  | 35 => ⟨S2x500000, .i32⟩
  | 36 => ⟨S50000, .i32⟩
  | 37 => ⟨S1x500000, .i32⟩
  | 38 => ⟨S500000, .i32⟩
  | 39 => ⟨S1x500000, .i32⟩
  | 40 => ⟨S500000, .i32⟩
  | 41 => ⟨S500000x128, .f32⟩
  | 42 => ⟨S1x128, .f32⟩
  | 43 => ⟨S500000x128, .f32⟩
  | 44 => ⟨S500000x128, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x128, .f32⟩
  | 54 => ⟨S500000x128, .f32⟩
  | 55 => ⟨S_, .f32⟩
  | 56 => ⟨S500000x128, .f32⟩
  | 57 => ⟨S500000x128, .f32⟩
  | 58 => ⟨S_, .f32⟩
  | 59 => ⟨S50000x128, .f32⟩
  | 60 => ⟨S500000x1, .i32⟩
  | 61 => ⟨S50000x128, .f32⟩
  | 62 => ⟨S_, .f32⟩
  | 63 => ⟨S_, .f32⟩
  | 64 => ⟨S_, .f32⟩
  | 65 => ⟨S50000x128, .f32⟩
  | 66 => ⟨S50000x128, .f32⟩
  | 67 => ⟨S50000x128, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S_, .f32⟩
  | 80 => ⟨S50000x256, .f32⟩
  | 81 => ⟨S50000x256, .f32⟩
  | 82 => ⟨S500000x256, .f32⟩
  | 83 => ⟨S1x256, .f32⟩
  | 84 => ⟨S500000x256, .f32⟩
  | 85 => ⟨S500000x256, .f32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x256, .f32⟩
  | 95 => ⟨S500000x256, .f32⟩
  | 96 => ⟨S_, .f32⟩
  | 97 => ⟨S500000x256, .f32⟩
  | 98 => ⟨S500000x256, .f32⟩
  | 99 => ⟨S_, .f32⟩
  | 100 => ⟨S50000x256, .f32⟩
  | 101 => ⟨S500000x1, .i32⟩
  | 102 => ⟨S50000x256, .f32⟩
  | 103 => ⟨S_, .f32⟩
  | 104 => ⟨S_, .f32⟩
  | 105 => ⟨S_, .f32⟩
  | 106 => ⟨S50000x256, .f32⟩
  | 107 => ⟨S50000x256, .f32⟩
  | 108 => ⟨S50000x256, .f32⟩
  | 109 => ⟨S50000x256, .f32⟩
  | 110 => ⟨S1x256, .f32⟩
  | 111 => ⟨S50000x256, .f32⟩
  | 112 => ⟨S50000x256, .f32⟩
  | 113 => ⟨S_, .f32⟩
  | 114 => ⟨S50000x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S500000x256, .f32⟩
  | 124 => ⟨S1x256, .f32⟩
  | 125 => ⟨S500000x256, .f32⟩
  | 126 => ⟨S500000x256, .f32⟩
  | 127 => ⟨S_, .i32⟩
  | _ => ⟨S50000x128, .f32⟩

abbrev hbmTy0_1 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S500000x256, .f32⟩
  | 8 => ⟨S500000x256, .f32⟩
  | 9 => ⟨S_, .f32⟩
  | 10 => ⟨S500000x256, .f32⟩
  | 11 => ⟨S500000x256, .f32⟩
  | 12 => ⟨S_, .f32⟩
  | 13 => ⟨S50000x256, .f32⟩
  | 14 => ⟨S500000x1, .i32⟩
  | 15 => ⟨S50000x256, .f32⟩
  | 16 => ⟨S_, .f32⟩
  | 17 => ⟨S_, .f32⟩
  | 18 => ⟨S_, .f32⟩
  | 19 => ⟨S50000x256, .f32⟩
  | 20 => ⟨S50000x256, .f32⟩
  | 21 => ⟨S50000x256, .f32⟩
  | 22 => ⟨S50000x256, .f32⟩
  | 23 => ⟨S1x256, .f32⟩
  | 24 => ⟨S50000x256, .f32⟩
  | 25 => ⟨S50000x256, .f32⟩
  | 26 => ⟨S_, .f32⟩
  | 27 => ⟨S50000x256, .f32⟩
  | 28 => ⟨S50000x256, .f32⟩
  | 29 => ⟨S50000x256, .f32⟩
  | 30 => ⟨S1x256, .f32⟩
  | 31 => ⟨S50000x256, .f32⟩
  | 32 => ⟨S50000x256, .f32⟩
  | 33 => ⟨S_, .f32⟩
  | 34 => ⟨S50000x256, .f32⟩
  | 35 => ⟨S50000x256, .f32⟩
  | 36 => ⟨S_, .f32⟩
  | 37 => ⟨S2048x256, .f32⟩
  | 38 => ⟨S50000x1, .i32⟩
  | 39 => ⟨S2048x256, .f32⟩
  | 40 => ⟨S256x256, .f32⟩
  | 41 => ⟨S256x256, .f32⟩
  | 42 => ⟨S256x256, .f32⟩
  | 43 => ⟨S256, .f32⟩
  | 44 => ⟨S256, .f32⟩
  | 45 => ⟨S256, .f32⟩
  | 46 => ⟨S2048x256, .f32⟩
  | 47 => ⟨S1x256, .f32⟩
  | 48 => ⟨S2048x256, .f32⟩
  | 49 => ⟨S2048x256, .f32⟩
  | 50 => ⟨S2048x256, .f32⟩
  | 51 => ⟨S2048x256, .f32⟩
  | 52 => ⟨S_, .f32⟩
  | 53 => ⟨S2048x256, .f32⟩
  | 54 => ⟨S2048x256, .f32⟩
  | 55 => ⟨S_, .f32⟩
  | 56 => ⟨S2048x256, .f32⟩
  | 57 => ⟨S2048x256, .f32⟩
  | 58 => ⟨S2048x256, .f32⟩
  | 59 => ⟨S256x2, .f32⟩
  | 60 => ⟨S256x2, .f32⟩
  | 61 => ⟨S256x2, .f32⟩
  | 62 => ⟨S2, .f32⟩
  | 63 => ⟨S2, .f32⟩
  | 64 => ⟨S2, .f32⟩
  | 65 => ⟨S2048x2, .f32⟩
  | 66 => ⟨S1x2, .f32⟩
  | 67 => ⟨S2048x2, .f32⟩
  | 68 => ⟨S2048x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_c : Ref sig .tc := ⟨.hbm, 45, rfl⟩
abbrev main_v8 : Ref sig .tc := ⟨.hbm, 46, rfl⟩
abbrev main_v9 : Ref sig .tc := ⟨.hbm, 47, rfl⟩
abbrev main_c_0 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_call0_cst : Ref sig .tc := ⟨.hbm, 55, rfl⟩
abbrev main_call0_v0 : Ref sig .tc := ⟨.hbm, 56, rfl⟩
abbrev main_v16 : Ref sig .tc := ⟨.hbm, 57, rfl⟩
abbrev main_cst : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_1 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_call1_cst : Ref sig .tc := ⟨.hbm, 72, rfl⟩
abbrev main_call1_v0 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_call2_cst : Ref sig .tc := ⟨.hbm, 79, rfl⟩
abbrev main_call2_v0 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_c_2 : Ref sig .tc := ⟨.hbm, 86, rfl⟩
abbrev main_v39 : Ref sig .tc := ⟨.hbm, 87, rfl⟩
abbrev main_v40 : Ref sig .tc := ⟨.hbm, 88, rfl⟩
abbrev main_c_3 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_call3_cst : Ref sig .tc := ⟨.hbm, 96, rfl⟩
abbrev main_call3_v0 : Ref sig .tc := ⟨.hbm, 97, rfl⟩
abbrev main_v47 : Ref sig .tc := ⟨.hbm, 98, rfl⟩
abbrev main_cst_4 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_cst_5 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_call4_cst : Ref sig .tc := ⟨.hbm, 113, rfl⟩
abbrev main_call4_v0 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_call5_cst : Ref sig .tc := ⟨.hbm, 120, rfl⟩
abbrev main_call5_v0 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_c_6 : Ref sig .tc := ⟨.hbm, 127, rfl⟩
abbrev main_v70 : Ref sig .tc := ⟨.hbm, 128, rfl⟩
abbrev main_v71 : Ref sig .tc := ⟨.hbm, 129, rfl⟩
abbrev main_c_7 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_call6_cst : Ref sig .tc := ⟨.hbm, 137, rfl⟩
abbrev main_call6_v0 : Ref sig .tc := ⟨.hbm, 138, rfl⟩
abbrev main_v78 : Ref sig .tc := ⟨.hbm, 139, rfl⟩
abbrev main_cst_8 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_9 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_call7_cst : Ref sig .tc := ⟨.hbm, 154, rfl⟩
abbrev main_call7_v0 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_call8_cst : Ref sig .tc := ⟨.hbm, 161, rfl⟩
abbrev main_call8_v0 : Ref sig .tc := ⟨.hbm, 162, rfl⟩
abbrev main_v96 : Ref sig .tc := ⟨.hbm, 163, rfl⟩
abbrev main_cst_10 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_call9_v0 : Ref sig .tc := ⟨.hbm, 178, rfl⟩
abbrev main_call9_v1 : Ref sig .tc := ⟨.hbm, 179, rfl⟩
abbrev main_call9_cst : Ref sig .tc := ⟨.hbm, 180, rfl⟩
abbrev main_call9_v2 : Ref sig .tc := ⟨.hbm, 181, rfl⟩
abbrev main_call9_v3 : Ref sig .tc := ⟨.hbm, 182, rfl⟩
abbrev main_call9_cst_0 : Ref sig .tc := ⟨.hbm, 183, rfl⟩
abbrev main_call9_v4 : Ref sig .tc := ⟨.hbm, 184, rfl⟩
abbrev main_call9_v5 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S_S50000x128 : S_.BroadcastsInDim S50000x128 (![] : Fin 0 → Fin S50000x128.rank)
  shapeCasts_S1_S_ : S1.ShapeCasts S_
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S_S2048x256 : S_.BroadcastsInDim S2048x256 (![] : Fin 0 → Fin S2048x256.rank)
  bcast_S50000_S50000x1_0 : S50000.BroadcastsInDim S50000x1 (![0] : Fin 1 → Fin S50000x1.rank)
  bcast_S1x256_S2048x256_0_1 : S1x256.BroadcastsInDim S2048x256 (![0, 1] : Fin 2 → Fin S2048x256.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  dot_S500000x16_S16x128_S500000x128_1_0_0_1_n_n_wf : DotDims.WF S500000x16 S16x128 S500000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  dot_S500000x16_S16x256_S500000x256_1_0_0_1_n_n_wf : DotDims.WF S500000x16 S16x256 S500000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  scatter_S2048x256_S50000x1_S50000x256_1_0_0_1_wf : ScatterDims.WF S2048x256 S50000x1 S50000x256 [1] [0] [0] 1
  dot_S2048x256_S256x256_S2048x256_1_0_0_1_n_n_wf : DotDims.WF S2048x256 S256x256 S2048x256 [1] [0] [0] [1] [] []
  dot_S2048x256_S256x2_S2048x2_1_0_0_1_n_n_wf : DotDims.WF S2048x256 S256x2 S2048x2 [1] [0] [0] [1] [] []

variable [Facts₀]

def dot_S500000x16_S16x128_S500000x128_1_0_0_1_n_n : DotDims S500000x16 S16x128 S500000x128 where
  lhsContracting := [1]
  rhsContracting := [0]
  lhsNonContracting := [0]
  rhsNonContracting := [1]
  lhsBatch := []
  rhsBatch := []
  wf := dot_S500000x16_S16x128_S500000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S500000x16_S16x256_S500000x256_1_0_0_1_n_n : DotDims S500000x16 S16x256 S500000x256 where
  lhsContracting := [1]
  rhsContracting := [0]
  lhsNonContracting := [0]
  rhsNonContracting := [1]
  lhsBatch := []
  rhsBatch := []
  wf := dot_S500000x16_S16x256_S500000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S2048x256_S50000x1_S50000x256_1_0_0_1 : ScatterDims S2048x256 S50000x1 S50000x256 where
  updateWindowDims := [1]
  insertedWindowDims := [0]
  scatterDimsToOperandDims := [0]
  indexVectorDim := 1
  wf := scatter_S2048x256_S50000x1_S50000x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf

class Facts : Prop extends Facts₀ where

variable [Facts]
-- ==== Proof.Stages.lean ====
/-
  The network both programs compute, stage by stage, as whole-array functions of the stages' operands: three
  message-passing layers (gather the source rows, add the projected edge attributes, cut at zero, sum the messages per
  destination node, add (1 + eps) times the node's own features, apply a two-layer perceptron), a sum of the node rows
  per graph, and a two-layer head with the activation x · 1/(1 + e^(-x)) whose weights are mu + e^(log sigma) · noise.
  Biases enter the edge, perceptron and head stages already as one-row matrices.
-/
import proofs.«408536_j9234179687244_1_alg».proof.ReferenceIdeal
import proofs.«408536_j9234179687244_1_alg».proof.Proof.Gen.ReferenceIdeal

noncomputable section

namespace Cert.Stages

open Cert.ReferenceIdeal Cert.ReferenceIdeal.Gen Idealize.ShloMosaic Idealize.ShloMosaic.TcCoe Idealize.SL.Sem Idealize.ShloMosaic.StableHlo

variable {F : FTy → Type} [FloatOps F]

/-- The edge list's row of source nodes. -/
def srcOf (ei : (⟨S2x500000, .i32⟩ : BufTy).Contents (Elt F)) : (⟨S500000, .i32⟩ : BufTy).Contents (Elt F) :=
  shapeCast _ (extractStridedSlice S1x500000 ![0, 0] ei slices_S2x500000_S1x500000_0_0) shapeCasts_S1x500000_S500000
/-- The edge list's row of destination nodes. -/
def dstOf (ei : (⟨S2x500000, .i32⟩ : BufTy).Contents (Elt F)) : (⟨S500000, .i32⟩ : BufTy).Contents (Elt F) :=
  shapeCast _ (extractStridedSlice S1x500000 ![1, 0] ei slices_S2x500000_S1x500000_1_0) shapeCasts_S1x500000_S500000
/-- A negative node number counts from the end: 50000 is added to it. -/
def wrapIdx (s : (⟨S500000, .i32⟩ : BufTy).Contents (Elt F)) : (⟨S500000, .i32⟩ : BufTy).Contents (Elt F) :=
  select (cmpi .slt s (broadcastInDim S500000 ![] bcast_S_S500000 (constantI S_ 32 0#32))) (addi s (broadcastInDim S500000 ![] bcast_S_S500000 (constantI S_ 32 50000#32))) s
/-- The wrapped node numbers as a column. -/
def idxCol (s : (⟨S500000, .i32⟩ : BufTy).Contents (Elt F)) : (⟨S500000x1, .i32⟩ : BufTy).Contents (Elt F) :=
  broadcastInDim S500000x1 ![0] bcast_S500000_S500000x1_0 (wrapIdx s)
/-- A vector as a one-row matrix. -/
def row128 (b : (⟨S128, .f32⟩ : BufTy).Contents (Elt F)) : (⟨S1x128, .f32⟩ : BufTy).Contents (Elt F) := broadcastInDim S1x128 ![1] bcast_S128_S1x128_1 b
def row256 (b : (⟨S256, .f32⟩ : BufTy).Contents (Elt F)) : (⟨S1x256, .f32⟩ : BufTy).Contents (Elt F) := broadcastInDim S1x256 ![1] bcast_S256_S1x256_1 b
def row2 (b : (⟨S2, .f32⟩ : BufTy).Contents (Elt F)) : (⟨S1x2, .f32⟩ : BufTy).Contents (Elt F) := broadcastInDim S1x2 ![1] bcast_S2_S1x2_1 b

/-- An edge's message: the source node's gathered features plus the edge's projected attributes and bias, cut at zero. -/
def edge128 (ea : (⟨S500000x16, .f32⟩ : BufTy).Contents (Elt F)) (We : (⟨S16x128, .f32⟩ : BufTy).Contents (Elt F)) (ber : (⟨S1x128, .f32⟩ : BufTy).Contents (Elt F)) (g : (⟨S500000x128, .f32⟩ : BufTy).Contents (Elt F)) : (⟨S500000x128, .f32⟩ : BufTy).Contents (Elt F) :=
  maximumf (addf g (addf (Host.dotGeneral dot_S500000x16_S16x128_S500000x128_1_0_0_1_n_n none ea We) (broadcastInDim S500000x128 ![0, 1] bcast_S1x128_S500000x128_0_1 ber))) (broadcastInDim S500000x128 ![] bcast_S_S500000x128 (constant S_ .f32 0x00000000#32))
/-- The source rows of a node-feature matrix, one per edge (the row number wrapped when negative, then clamped by the gather). -/
def gather128 (h : (⟨S50000x128, .f32⟩ : BufTy).Contents (Elt F)) (s : (⟨S500000, .i32⟩ : BufTy).Contents (Elt F)) : (⟨S500000x128, .f32⟩ : BufTy).Contents (Elt F) :=
  Host.gather gather_S50000x128_S500000x1_S500000x128_1_0_n_n_0_1_1128 h (idxCol s)
/-- The node update's input: (1 + eps) times the node's features plus the sum of the messages arriving at it. -/
def glue128 (h : (⟨S50000x128, .f32⟩ : BufTy).Contents (Elt F)) (eps : (⟨S1, .f32⟩ : BufTy).Contents (Elt F)) (dst : (⟨S500000, .i32⟩ : BufTy).Contents (Elt F)) (msg : (⟨S500000x128, .f32⟩ : BufTy).Contents (Elt F)) : (⟨S50000x128, .f32⟩ : BufTy).Contents (Elt F) :=
  addf (mulf (broadcastInDim S50000x128 ![] bcast_S_S50000x128 (addf (constant S_ .f32 0x3F800000#32) (shapeCast _ eps shapeCasts_S1_S_))) h) (Host.scatterAdd scatter_S50000x128_S500000x1_S500000x128_1_0_0_1 (broadcastInDim S50000x128 ![] bcast_S_S50000x128 (constant S_ .f32 0x00000000#32)) (broadcastInDim S500000x1 ![0] bcast_S500000_S500000x1_0 dst) msg)
/-- The node update: two affine maps, each followed by a cut at zero. -/
def mlp128 (z : (⟨S50000x128, .f32⟩ : BufTy).Contents (Elt F)) (W1 : (⟨S128x256, .f32⟩ : BufTy).Contents (Elt F)) (b1r : (⟨S1x256, .f32⟩ : BufTy).Contents (Elt F)) (W2 : (⟨S256x256, .f32⟩ : BufTy).Contents (Elt F)) (b2r : (⟨S1x256, .f32⟩ : BufTy).Contents (Elt F)) : (⟨S50000x256, .f32⟩ : BufTy).Contents (Elt F) :=
  maximumf (addf (Host.dotGeneral dot_S50000x256_S256x256_S50000x256_1_0_0_1_n_n none (maximumf (addf (Host.dotGeneral dot_S50000x128_S128x256_S50000x256_1_0_0_1_n_n none z W1) (broadcastInDim S50000x256 ![0, 1] bcast_S1x256_S50000x256_0_1 b1r)) (broadcastInDim S50000x256 ![] bcast_S_S50000x256 (constant S_ .f32 0x00000000#32))) W2) (broadcastInDim S50000x256 ![0, 1] bcast_S1x256_S50000x256_0_1 b2r)) (broadcastInDim S50000x256 ![] bcast_S_S50000x256 (constant S_ .f32 0x00000000#32))
/-- One message-passing layer on 128-wide node features. -/
def layer128 (h : (⟨S50000x128, .f32⟩ : BufTy).Contents (Elt F)) (ea : (⟨S500000x16, .f32⟩ : BufTy).Contents (Elt F)) (We : (⟨S16x128, .f32⟩ : BufTy).Contents (Elt F)) (be : (⟨S128, .f32⟩ : BufTy).Contents (Elt F)) (W1 : (⟨S128x256, .f32⟩ : BufTy).Contents (Elt F)) (b1 : (⟨S256, .f32⟩ : BufTy).Contents (Elt F)) (W2 : (⟨S256x256, .f32⟩ : BufTy).Contents (Elt F)) (b2 : (⟨S256, .f32⟩ : BufTy).Contents (Elt F)) (eps : (⟨S1, .f32⟩ : BufTy).Contents (Elt F)) (s dst : (⟨S500000, .i32⟩ : BufTy).Contents (Elt F)) : (⟨S50000x256, .f32⟩ : BufTy).Contents (Elt F) :=
  mlp128 (glue128 h eps dst (edge128 ea We (row128 be) (gather128 h s))) W1 (row256 b1) W2 (row256 b2)

/-- An edge's message: the source node's gathered features plus the edge's projected attributes and bias, cut at zero. -/
def edge256 (ea : (⟨S500000x16, .f32⟩ : BufTy).Contents (Elt F)) (We : (⟨S16x256, .f32⟩ : BufTy).Contents (Elt F)) (ber : (⟨S1x256, .f32⟩ : BufTy).Contents (Elt F)) (g : (⟨S500000x256, .f32⟩ : BufTy).Contents (Elt F)) : (⟨S500000x256, .f32⟩ : BufTy).Contents (Elt F) :=
  maximumf (addf g (addf (Host.dotGeneral dot_S500000x16_S16x256_S500000x256_1_0_0_1_n_n none ea We) (broadcastInDim S500000x256 ![0, 1] bcast_S1x256_S500000x256_0_1 ber))) (broadcastInDim S500000x256 ![] bcast_S_S500000x256 (constant S_ .f32 0x00000000#32))
/-- The source rows of a node-feature matrix, one per edge (the row number wrapped when negative, then clamped by the gather). -/
def gather256 (h : (⟨S50000x256, .f32⟩ : BufTy).Contents (Elt F)) (s : (⟨S500000, .i32⟩ : BufTy).Contents (Elt F)) : (⟨S500000x256, .f32⟩ : BufTy).Contents (Elt F) :=
  Host.gather gather_S50000x256_S500000x1_S500000x256_1_0_n_n_0_1_1256 h (idxCol s)
/-- The node update's input: (1 + eps) times the node's features plus the sum of the messages arriving at it. -/
def glue256 (h : (⟨S50000x256, .f32⟩ : BufTy).Contents (Elt F)) (eps : (⟨S1, .f32⟩ : BufTy).Contents (Elt F)) (dst : (⟨S500000, .i32⟩ : BufTy).Contents (Elt F)) (msg : (⟨S500000x256, .f32⟩ : BufTy).Contents (Elt F)) : (⟨S50000x256, .f32⟩ : BufTy).Contents (Elt F) :=
  addf (mulf (broadcastInDim S50000x256 ![] bcast_S_S50000x256 (addf (constant S_ .f32 0x3F800000#32) (shapeCast _ eps shapeCasts_S1_S_))) h) (Host.scatterAdd scatter_S50000x256_S500000x1_S500000x256_1_0_0_1 (broadcastInDim S50000x256 ![] bcast_S_S50000x256 (constant S_ .f32 0x00000000#32)) (broadcastInDim S500000x1 ![0] bcast_S500000_S500000x1_0 dst) msg)
/-- The node update: two affine maps, each followed by a cut at zero. -/
def mlp256 (z : (⟨S50000x256, .f32⟩ : BufTy).Contents (Elt F)) (W1 : (⟨S256x256, .f32⟩ : BufTy).Contents (Elt F)) (b1r : (⟨S1x256, .f32⟩ : BufTy).Contents (Elt F)) (W2 : (⟨S256x256, .f32⟩ : BufTy).Contents (Elt F)) (b2r : (⟨S1x256, .f32⟩ : BufTy).Contents (Elt F)) : (⟨S50000x256, .f32⟩ : BufTy).Contents (Elt F) :=
  maximumf (addf (Host.dotGeneral dot_S50000x256_S256x256_S50000x256_1_0_0_1_n_n none (maximumf (addf (Host.dotGeneral dot_S50000x256_S256x256_S50000x256_1_0_0_1_n_n none z W1) (broadcastInDim S50000x256 ![0, 1] bcast_S1x256_S50000x256_0_1 b1r)) (broadcastInDim S50000x256 ![] bcast_S_S50000x256 (constant S_ .f32 0x00000000#32))) W2) (broadcastInDim S50000x256 ![0, 1] bcast_S1x256_S50000x256_0_1 b2r)) (broadcastInDim S50000x256 ![] bcast_S_S50000x256 (constant S_ .f32 0x00000000#32))
/-- One message-passing layer on 256-wide node features. -/
def layer256 (h : (⟨S50000x256, .f32⟩ : BufTy).Contents (Elt F)) (ea : (⟨S500000x16, .f32⟩ : BufTy).Contents (Elt F)) (We : (⟨S16x256, .f32⟩ : BufTy).Contents (Elt F)) (be : (⟨S256, .f32⟩ : BufTy).Contents (Elt F)) (W1 : (⟨S256x256, .f32⟩ : BufTy).Contents (Elt F)) (b1 : (⟨S256, .f32⟩ : BufTy).Contents (Elt F)) (W2 : (⟨S256x256, .f32⟩ : BufTy).Contents (Elt F)) (b2 : (⟨S256, .f32⟩ : BufTy).Contents (Elt F)) (eps : (⟨S1, .f32⟩ : BufTy).Contents (Elt F)) (s dst : (⟨S500000, .i32⟩ : BufTy).Contents (Elt F)) : (⟨S50000x256, .f32⟩ : BufTy).Contents (Elt F) :=
  mlp256 (glue256 h eps dst (edge256 ea We (row256 be) (gather256 h s))) W1 (row256 b1) W2 (row256 b2)

/-- The node rows summed per graph. -/
def pool (h : (⟨S50000x256, .f32⟩ : BufTy).Contents (Elt F)) (batch : (⟨S50000, .i32⟩ : BufTy).Contents (Elt F)) : (⟨S2048x256, .f32⟩ : BufTy).Contents (Elt F) :=
  Host.scatterAdd scatter_S2048x256_S50000x1_S50000x256_1_0_0_1 (broadcastInDim S2048x256 ![] bcast_S_S2048x256 (constant S_ .f32 0x00000000#32)) (broadcastInDim S50000x1 ![0] bcast_S50000_S50000x1_0 batch) h
/-- A sampled weight: mu + e^(log sigma) · noise. -/
def mix {s : Shape} (mu ls ep : FVec F s .f32) : FVec F s .f32 := addf mu (mulf (Host.exp ls) ep)
/-- The head's hidden pre-activation. -/
def headPre (hg : (⟨S2048x256, .f32⟩ : BufTy).Contents (Elt F)) (w1 : (⟨S256x256, .f32⟩ : BufTy).Contents (Elt F)) (b1r : (⟨S1x256, .f32⟩ : BufTy).Contents (Elt F)) : (⟨S2048x256, .f32⟩ : BufTy).Contents (Elt F) :=
  addf (Host.dotGeneral dot_S2048x256_S256x256_S2048x256_1_0_0_1_n_n none hg w1) (broadcastInDim S2048x256 ![0, 1] bcast_S1x256_S2048x256_0_1 b1r)
/-- The head: an affine map, the activation t · 1/(1 + e^(-t)), an affine map. -/
def head (hg : (⟨S2048x256, .f32⟩ : BufTy).Contents (Elt F)) (w1 : (⟨S256x256, .f32⟩ : BufTy).Contents (Elt F)) (b1r : (⟨S1x256, .f32⟩ : BufTy).Contents (Elt F)) (w2 : (⟨S256x2, .f32⟩ : BufTy).Contents (Elt F)) (b2r : (⟨S1x2, .f32⟩ : BufTy).Contents (Elt F)) : (⟨S2048x2, .f32⟩ : BufTy).Contents (Elt F) :=
  addf (Host.dotGeneral dot_S2048x256_S256x2_S2048x2_1_0_0_1_n_n none (mulf (headPre hg w1 b1r) (Host.divf (broadcastInDim S2048x256 ![] bcast_S_S2048x256 (constant S_ .f32 0x3F800000#32)) (addf (broadcastInDim S2048x256 ![] bcast_S_S2048x256 (constant S_ .f32 0x3F800000#32)) (Host.exp (Host.negf (headPre hg w1 b1r)))))) w2) (broadcastInDim S2048x2 ![0, 1] bcast_S1x2_S2048x2_0_1 b2r)

/-- The whole network, of the 37 arguments in the programs' order. -/
def net (x : (⟨S50000x128, .f32⟩ : BufTy).Contents (Elt F)) (ea : (⟨S500000x16, .f32⟩ : BufTy).Contents (Elt F)) (We0 : (⟨S16x128, .f32⟩ : BufTy).Contents (Elt F)) (be0 : (⟨S128, .f32⟩ : BufTy).Contents (Elt F)) (W10 : (⟨S128x256, .f32⟩ : BufTy).Contents (Elt F)) (b10 : (⟨S256, .f32⟩ : BufTy).Contents (Elt F)) (W20 : (⟨S256x256, .f32⟩ : BufTy).Contents (Elt F)) (b20 : (⟨S256, .f32⟩ : BufTy).Contents (Elt F)) (eps0 : (⟨S1, .f32⟩ : BufTy).Contents (Elt F)) (We1 : (⟨S16x256, .f32⟩ : BufTy).Contents (Elt F)) (be1 : (⟨S256, .f32⟩ : BufTy).Contents (Elt F)) (W11 : (⟨S256x256, .f32⟩ : BufTy).Contents (Elt F)) (b11 : (⟨S256, .f32⟩ : BufTy).Contents (Elt F)) (W21 : (⟨S256x256, .f32⟩ : BufTy).Contents (Elt F)) (b21 : (⟨S256, .f32⟩ : BufTy).Contents (Elt F)) (eps1 : (⟨S1, .f32⟩ : BufTy).Contents (Elt F)) (We2 : (⟨S16x256, .f32⟩ : BufTy).Contents (Elt F)) (be2 : (⟨S256, .f32⟩ : BufTy).Contents (Elt F)) (W12 : (⟨S256x256, .f32⟩ : BufTy).Contents (Elt F)) (b12 : (⟨S256, .f32⟩ : BufTy).Contents (Elt F)) (W22 : (⟨S256x256, .f32⟩ : BufTy).Contents (Elt F)) (b22 : (⟨S256, .f32⟩ : BufTy).Contents (Elt F)) (eps2 : (⟨S1, .f32⟩ : BufTy).Contents (Elt F)) (wmu1 : (⟨S256x256, .f32⟩ : BufTy).Contents (Elt F)) (wls1 : (⟨S256x256, .f32⟩ : BufTy).Contents (Elt F)) (bmu1 : (⟨S256, .f32⟩ : BufTy).Contents (Elt F)) (bls1 : (⟨S256, .f32⟩ : BufTy).Contents (Elt F)) (wmu2 : (⟨S256x2, .f32⟩ : BufTy).Contents (Elt F)) (wls2 : (⟨S256x2, .f32⟩ : BufTy).Contents (Elt F)) (bmu2 : (⟨S2, .f32⟩ : BufTy).Contents (Elt F)) (bls2 : (⟨S2, .f32⟩ : BufTy).Contents (Elt F)) (nw1 : (⟨S256x256, .f32⟩ : BufTy).Contents (Elt F)) (nb1 : (⟨S256, .f32⟩ : BufTy).Contents (Elt F)) (nw2 : (⟨S256x2, .f32⟩ : BufTy).Contents (Elt F)) (nb2 : (⟨S2, .f32⟩ : BufTy).Contents (Elt F)) (ei : (⟨S2x500000, .i32⟩ : BufTy).Contents (Elt F)) (batch : (⟨S50000, .i32⟩ : BufTy).Contents (Elt F)) : (⟨S2048x2, .f32⟩ : BufTy).Contents (Elt F) :=
  head (pool (layer256 (layer256 (layer128 x ea We0 be0 W10 b10 W20 b20 eps0 (srcOf ei) (dstOf ei)) ea We1 be1 W11 b11 W21 b21 eps1 (srcOf ei) (dstOf ei)) ea We2 be2 W12 b12 W22 b22 eps2 (srcOf ei) (dstOf ei)) batch)
    (mix wmu1 wls1 nw1) (row256 (mix bmu1 bls1 nb1)) (mix wmu2 wls2 nw2) (row2 (mix bmu2 bls2 nb2))

end Cert.Stages

end
-- ==== Proof.StagesK.lean ====
/-
  The stages of the network as the kernel program spells them where that differs from the reference: a bias becomes a
  one-row matrix by a reshape, and the source rows are gathered with a mask (a row number outside the matrix reads a
  fill value instead of a clamped row).
-/
import proofs.«408536_j9234179687244_1_alg».proof.KernelIdeal
import proofs.«408536_j9234179687244_1_alg».proof.Proof.Gen.KernelIdeal
import proofs.«408536_j9234179687244_1_alg».proof.Proof.Stages

noncomputable section

namespace Cert.KernelIdeal.StagesK

open Cert.KernelIdeal Cert.KernelIdeal.Gen Idealize.ShloMosaic Idealize.ShloMosaic.TcCoe Idealize.SL.Sem Idealize.ShloMosaic.StableHlo

variable {F : FTy → Type} [FloatOps F]

/-- A vector as a one-row matrix, by a reshape. -/
def rowK128 (b : (⟨S128, .f32⟩ : BufTy).Contents (Elt F)) : (⟨S1x128, .f32⟩ : BufTy).Contents (Elt F) := shapeCast _ b shapeCasts_S128_S1x128
def rowK256 (b : (⟨S256, .f32⟩ : BufTy).Contents (Elt F)) : (⟨S1x256, .f32⟩ : BufTy).Contents (Elt F) := shapeCast _ b shapeCasts_S256_S1x256
def rowK2 (b : (⟨S2, .f32⟩ : BufTy).Contents (Elt F)) : (⟨S1x2, .f32⟩ : BufTy).Contents (Elt F) := shapeCast _ b shapeCasts_S2_S1x2
/-- The edge list's rows. -/
def srcK (ei : (⟨S2x500000, .i32⟩ : BufTy).Contents (Elt F)) : (⟨S500000, .i32⟩ : BufTy).Contents (Elt F) :=
  shapeCast _ (extractStridedSlice S1x500000 ![0, 0] ei slices_S2x500000_S1x500000_0_0) shapeCasts_S1x500000_S500000
def dstK (ei : (⟨S2x500000, .i32⟩ : BufTy).Contents (Elt F)) : (⟨S500000, .i32⟩ : BufTy).Contents (Elt F) :=
  shapeCast _ (extractStridedSlice S1x500000 ![1, 0] ei slices_S2x500000_S1x500000_1_0) shapeCasts_S1x500000_S500000
/-- The wrapped node numbers as a column. -/
def idxColK (s : (⟨S500000, .i32⟩ : BufTy).Contents (Elt F)) : (⟨S500000x1, .i32⟩ : BufTy).Contents (Elt F) :=
  broadcastInDim S500000x1 ![0] bcast_S500000_S500000x1_0 (select (cmpi .slt s (broadcastInDim S500000 ![] bcast_S_S500000 (constantI S_ 32 0#32))) (addi s (broadcastInDim S500000 ![] bcast_S_S500000 (constantI S_ 32 50000#32))) s)
/-- Per edge: is the wrapped source node number a row of the node matrix, 0 ≤ · ≤ 49999? -/
def inRange (s : (⟨S500000, .i32⟩ : BufTy).Contents (Elt F)) : (⟨S500000, .i1⟩ : BufTy).Contents (Elt F) :=
  Host.reduce IntOp.andi (andi (cmpi .sge (idxColK s) (broadcastInDim S500000x1 ![] bcast_S_S500000x1 (constantI S_ 32 0#32))) (cmpi .sle (idxColK s) (broadcastInDim S500000x1 ![0, 1] bcast_S1x1_S500000x1_0_1 (broadcastInDim S1x1 ![1] bcast_S1_S1x1_1 (constantI S1 32 49999#32))))) (constantI S_ 1 1#1) reducesTo_S500000x1_S500000_d1 h_S_
/-- The kernel's gather of source rows: the gathered row where the wrapped node number is a row of the matrix, the fill
    value elsewhere. -/
def takeK128 (h : (⟨S50000x128, .f32⟩ : BufTy).Contents (Elt F)) (s : (⟨S500000, .i32⟩ : BufTy).Contents (Elt F)) : (⟨S500000x128, .f32⟩ : BufTy).Contents (Elt F) :=
  select (broadcastInDim S500000x128 ![0] bcast_S500000_S500000x128_0 (inRange s))
    (Host.gather gather_S50000x128_S500000x1_S500000x128_1_0_n_n_0_1_1128 h (idxColK s))
    (broadcastInDim S500000x128 ![] bcast_S_S500000x128 (constant S_ .f32 0x7FC00000#32))
/-- One message-passing layer as the kernel program computes it. -/
def layerK128 (h : (⟨S50000x128, .f32⟩ : BufTy).Contents (Elt F)) (ea : (⟨S500000x16, .f32⟩ : BufTy).Contents (Elt F)) (We : (⟨S16x128, .f32⟩ : BufTy).Contents (Elt F)) (be : (⟨S128, .f32⟩ : BufTy).Contents (Elt F)) (W1 : (⟨S128x256, .f32⟩ : BufTy).Contents (Elt F)) (b1 : (⟨S256, .f32⟩ : BufTy).Contents (Elt F)) (W2 : (⟨S256x256, .f32⟩ : BufTy).Contents (Elt F)) (b2 : (⟨S256, .f32⟩ : BufTy).Contents (Elt F)) (eps : (⟨S1, .f32⟩ : BufTy).Contents (Elt F)) (s dst : (⟨S500000, .i32⟩ : BufTy).Contents (Elt F)) : (⟨S50000x256, .f32⟩ : BufTy).Contents (Elt F) :=
  Cert.Stages.mlp128 (Cert.Stages.glue128 h eps dst (Cert.Stages.edge128 ea We (rowK128 be) (takeK128 h s))) W1 (rowK256 b1) W2 (rowK256 b2)

/-- The kernel's gather of source rows: the gathered row where the wrapped node number is a row of the matrix, the fill
    value elsewhere. -/
def takeK256 (h : (⟨S50000x256, .f32⟩ : BufTy).Contents (Elt F)) (s : (⟨S500000, .i32⟩ : BufTy).Contents (Elt F)) : (⟨S500000x256, .f32⟩ : BufTy).Contents (Elt F) :=
  select (broadcastInDim S500000x256 ![0] bcast_S500000_S500000x256_0 (inRange s))
    (Host.gather gather_S50000x256_S500000x1_S500000x256_1_0_n_n_0_1_1256 h (idxColK s))
    (broadcastInDim S500000x256 ![] bcast_S_S500000x256 (constant S_ .f32 0x7FC00000#32))
/-- One message-passing layer as the kernel program computes it. -/
def layerK256 (h : (⟨S50000x256, .f32⟩ : BufTy).Contents (Elt F)) (ea : (⟨S500000x16, .f32⟩ : BufTy).Contents (Elt F)) (We : (⟨S16x256, .f32⟩ : BufTy).Contents (Elt F)) (be : (⟨S256, .f32⟩ : BufTy).Contents (Elt F)) (W1 : (⟨S256x256, .f32⟩ : BufTy).Contents (Elt F)) (b1 : (⟨S256, .f32⟩ : BufTy).Contents (Elt F)) (W2 : (⟨S256x256, .f32⟩ : BufTy).Contents (Elt F)) (b2 : (⟨S256, .f32⟩ : BufTy).Contents (Elt F)) (eps : (⟨S1, .f32⟩ : BufTy).Contents (Elt F)) (s dst : (⟨S500000, .i32⟩ : BufTy).Contents (Elt F)) : (⟨S50000x256, .f32⟩ : BufTy).Contents (Elt F) :=
  Cert.Stages.mlp256 (Cert.Stages.glue256 h eps dst (Cert.Stages.edge256 ea We (rowK256 be) (takeK256 h s))) W1 (rowK256 b1) W2 (rowK256 b2)

/-- The whole network as the kernel program computes it, of the 37 arguments in the programs' order. -/
def netK (x : (⟨S50000x128, .f32⟩ : BufTy).Contents (Elt F)) (ea : (⟨S500000x16, .f32⟩ : BufTy).Contents (Elt F)) (We0 : (⟨S16x128, .f32⟩ : BufTy).Contents (Elt F)) (be0 : (⟨S128, .f32⟩ : BufTy).Contents (Elt F)) (W10 : (⟨S128x256, .f32⟩ : BufTy).Contents (Elt F)) (b10 : (⟨S256, .f32⟩ : BufTy).Contents (Elt F)) (W20 : (⟨S256x256, .f32⟩ : BufTy).Contents (Elt F)) (b20 : (⟨S256, .f32⟩ : BufTy).Contents (Elt F)) (eps0 : (⟨S1, .f32⟩ : BufTy).Contents (Elt F)) (We1 : (⟨S16x256, .f32⟩ : BufTy).Contents (Elt F)) (be1 : (⟨S256, .f32⟩ : BufTy).Contents (Elt F)) (W11 : (⟨S256x256, .f32⟩ : BufTy).Contents (Elt F)) (b11 : (⟨S256, .f32⟩ : BufTy).Contents (Elt F)) (W21 : (⟨S256x256, .f32⟩ : BufTy).Contents (Elt F)) (b21 : (⟨S256, .f32⟩ : BufTy).Contents (Elt F)) (eps1 : (⟨S1, .f32⟩ : BufTy).Contents (Elt F)) (We2 : (⟨S16x256, .f32⟩ : BufTy).Contents (Elt F)) (be2 : (⟨S256, .f32⟩ : BufTy).Contents (Elt F)) (W12 : (⟨S256x256, .f32⟩ : BufTy).Contents (Elt F)) (b12 : (⟨S256, .f32⟩ : BufTy).Contents (Elt F)) (W22 : (⟨S256x256, .f32⟩ : BufTy).Contents (Elt F)) (b22 : (⟨S256, .f32⟩ : BufTy).Contents (Elt F)) (eps2 : (⟨S1, .f32⟩ : BufTy).Contents (Elt F)) (wmu1 : (⟨S256x256, .f32⟩ : BufTy).Contents (Elt F)) (wls1 : (⟨S256x256, .f32⟩ : BufTy).Contents (Elt F)) (bmu1 : (⟨S256, .f32⟩ : BufTy).Contents (Elt F)) (bls1 : (⟨S256, .f32⟩ : BufTy).Contents (Elt F)) (wmu2 : (⟨S256x2, .f32⟩ : BufTy).Contents (Elt F)) (wls2 : (⟨S256x2, .f32⟩ : BufTy).Contents (Elt F)) (bmu2 : (⟨S2, .f32⟩ : BufTy).Contents (Elt F)) (bls2 : (⟨S2, .f32⟩ : BufTy).Contents (Elt F)) (nw1 : (⟨S256x256, .f32⟩ : BufTy).Contents (Elt F)) (nb1 : (⟨S256, .f32⟩ : BufTy).Contents (Elt F)) (nw2 : (⟨S256x2, .f32⟩ : BufTy).Contents (Elt F)) (nb2 : (⟨S2, .f32⟩ : BufTy).Contents (Elt F)) (ei : (⟨S2x500000, .i32⟩ : BufTy).Contents (Elt F)) (batch : (⟨S50000, .i32⟩ : BufTy).Contents (Elt F)) : (⟨S2048x2, .f32⟩ : BufTy).Contents (Elt F) :=
  Cert.Stages.head (Cert.Stages.pool (layerK256 (layerK256 (layerK128 x ea We0 be0 W10 b10 W20 b20 eps0 (srcK ei) (dstK ei)) ea We1 be1 W11 b11 W21 b21 eps1 (srcK ei) (dstK ei)) ea We2 be2 W12 b12 W22 b22 eps2 (srcK ei) (dstK ei)) batch)
    (Cert.Stages.mix wmu1 wls1 nw1) (rowK256 (Cert.Stages.mix bmu1 bls1 nb1)) (Cert.Stages.mix wmu2 wls2 nw2) (rowK2 (Cert.Stages.mix bmu2 bls2 nb2))

end Cert.KernelIdeal.StagesK

end
-- ==== Proof.Region0.lean ====
import proofs.«408536_j9234179687244_1_alg».proof.Proof.Gen.KernelIdeal.Frame
import proofs.«408536_j9234179687244_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

/-! ## One entry of the edge-message array

Entry (e, j) of the message array is max(g(e, j) + (Σ_k ea(e, k) · We(k, j) + b(0, j)), 0): the gathered source row's
entry, plus the edge's sixteen attributes projected onto column j, plus the bias row's entry of that column, cut at zero. -/

/-- The edge-attribute entry the k-th product of message entry `i` reads: the edge's row, attribute `k`. -/
abbrev attrIx (i : S500000x128.Idx) (k : Fin 16) : S500000x16.Idx := fun a => match a with
  | ⟨0, _⟩ => ⟨(i 0).val, (i 0).isLt⟩
  | ⟨1, _⟩ => ⟨k.val, k.isLt⟩
/-- The projection-matrix entry that product reads: row `k`, the message entry's column. -/
abbrev projIx (i : S500000x128.Idx) (k : Fin 16) : S16x128.Idx := fun a => match a with
  | ⟨0, _⟩ => ⟨k.val, k.isLt⟩
  | ⟨1, _⟩ => ⟨(i 1).val, (i 1).isLt⟩
/-- The bias row's entry of the message entry's column. -/
abbrev biasIx (i : S500000x128.Idx) : S1x128.Idx := fun a => match a with
  | ⟨0, _⟩ => ⟨0, Nat.one_pos⟩
  | ⟨1, _⟩ => ⟨(i 1).val, (i 1).isLt⟩

/-- The message array, entry by entry. -/
def msg (ea : (⟨S500000x16, .f32⟩ : BufTy).Contents (Elt Ideal)) (We : (⟨S16x128, .f32⟩ : BufTy).Contents (Elt Ideal))
    (ber : (⟨S1x128, .f32⟩ : BufTy).Contents (Elt Ideal)) (g : (⟨S500000x128, .f32⟩ : BufTy).Contents (Elt Ideal)) :
    (⟨S500000x128, .f32⟩ : BufTy).Contents (Elt Ideal) :=
  fun i => max (g i + ((∑ k : Fin 16, ea (attrIx i k) * We (projIx i k)) + ber (biasIx i))) 0

/-! ## The stage function, entry by entry -/

/-- The left operand's row index in the whole-array product is the output entry's row … -/
theorem lhs_arr_0 (i : S500000x128.Idx) (q : Cert.ReferenceIdeal.dot_S500000x16_S16x128_S500000x128_1_0_0_1_n_n.contr.Idx) :
    (Cert.ReferenceIdeal.dot_S500000x16_S16x128_S500000x128_1_0_0_1_n_n.lhsIdx i q 0).val = (i 0).val := by
  unfold DotDims.lhsIdx
  rw [dif_neg (show ¬(0 : Fin S500000x16.rank) ∈ Cert.ReferenceIdeal.dot_S500000x16_S16x128_S500000x128_1_0_0_1_n_n.lhsBatch by decide), dif_pos (show (0 : Fin S500000x16.rank) ∈ Cert.ReferenceIdeal.dot_S500000x16_S16x128_S500000x128_1_0_0_1_n_n.lhsNonContracting by decide)]
  rfl
/-- … its column index the summation index; -/
theorem lhs_arr_1 (i : S500000x128.Idx) (q : Cert.ReferenceIdeal.dot_S500000x16_S16x128_S500000x128_1_0_0_1_n_n.contr.Idx) :
    (Cert.ReferenceIdeal.dot_S500000x16_S16x128_S500000x128_1_0_0_1_n_n.lhsIdx i q 1).val = (q ⟨0, by decide⟩).val :=
  Cert.ReferenceIdeal.dot_S500000x16_S16x128_S500000x128_1_0_0_1_n_n.lhsIdx_val_of_single rfl i q
/-- the right operand's row index is the summation index … -/
theorem rhs_arr_0 (i : S500000x128.Idx) (q : Cert.ReferenceIdeal.dot_S500000x16_S16x128_S500000x128_1_0_0_1_n_n.contr.Idx) :
    (Cert.ReferenceIdeal.dot_S500000x16_S16x128_S500000x128_1_0_0_1_n_n.rhsIdx i q 0).val = (q ⟨0, by decide⟩).val :=
  Cert.ReferenceIdeal.dot_S500000x16_S16x128_S500000x128_1_0_0_1_n_n.rhsIdx_val_of_single rfl i q
/-- … and its column index the output entry's column. -/
theorem rhs_arr_1 (i : S500000x128.Idx) (q : Cert.ReferenceIdeal.dot_S500000x16_S16x128_S500000x128_1_0_0_1_n_n.contr.Idx) :
    (Cert.ReferenceIdeal.dot_S500000x16_S16x128_S500000x128_1_0_0_1_n_n.rhsIdx i q 1).val = (i 1).val := by
  unfold DotDims.rhsIdx
  rw [dif_neg (show ¬(1 : Fin S16x128.rank) ∈ Cert.ReferenceIdeal.dot_S500000x16_S16x128_S500000x128_1_0_0_1_n_n.rhsBatch by decide), dif_pos (show (1 : Fin S16x128.rank) ∈ Cert.ReferenceIdeal.dot_S500000x16_S16x128_S500000x128_1_0_0_1_n_n.rhsNonContracting by decide)]
  rfl

/-- The whole-array product of the edge attributes with the projection matrix, at an entry: the sum over the sixteen attributes. -/
theorem proj_arr_apply (ea : (⟨S500000x16, .f32⟩ : BufTy).Contents (Elt Ideal)) (We : (⟨S16x128, .f32⟩ : BufTy).Contents (Elt Ideal)) (i : S500000x128.Idx) :
    Host.dotGeneral (F := Ideal) (φ₁ := .f32) (φ₂ := .f32) Cert.ReferenceIdeal.dot_S500000x16_S16x128_S500000x128_1_0_0_1_n_n none ea We i = ∑ k : Fin 16, ea (attrIx i k) * We (projIx i k) := by
  simp only [Host.dotGeneral]
  rw [Ideal.dotGeneral_apply, ← Equiv.sum_comp (ValueIdx.contrEquiv1 Cert.ReferenceIdeal.dot_S500000x16_S16x128_S500000x128_1_0_0_1_n_n 16 rfl rfl).symm]
  refine Finset.sum_congr rfl fun k _ => ?_
  have hk := ValueIdx.contrEquiv1_symm_val Cert.ReferenceIdeal.dot_S500000x16_S16x128_S500000x128_1_0_0_1_n_n 16 rfl rfl k
  have el : Cert.ReferenceIdeal.dot_S500000x16_S16x128_S500000x128_1_0_0_1_n_n.lhsIdx i ((ValueIdx.contrEquiv1 Cert.ReferenceIdeal.dot_S500000x16_S16x128_S500000x128_1_0_0_1_n_n 16 rfl rfl).symm k) = attrIx i k := funext fun a => Fin.ext (by
    match a with
    | ⟨0, _⟩ => exact lhs_arr_0 _ _
    | ⟨1, _⟩ => exact (lhs_arr_1 _ _).trans hk)
  have er : Cert.ReferenceIdeal.dot_S500000x16_S16x128_S500000x128_1_0_0_1_n_n.rhsIdx i ((ValueIdx.contrEquiv1 Cert.ReferenceIdeal.dot_S500000x16_S16x128_S500000x128_1_0_0_1_n_n 16 rfl rfl).symm k) = projIx i k := funext fun a => Fin.ext (by
    match a with
    | ⟨0, _⟩ => exact (rhs_arr_0 _ _).trans hk
    | ⟨1, _⟩ => exact rhs_arr_1 _ _)
  rw [el, er]

/-- The bias row repeated down the rows, at an entry: the row's entry of that column. -/
theorem bias_arr_apply (ber : (⟨S1x128, .f32⟩ : BufTy).Contents (Elt Ideal)) (i : S500000x128.Idx) :
    broadcastInDim S500000x128 ![0, 1] Cert.ReferenceIdeal.Gen.bcast_S1x128_S500000x128_0_1 ber i = ber (biasIx i) :=
  broadcastInDim_apply _ Cert.ReferenceIdeal.Gen.bcast_S1x128_S500000x128_0_1 ber i (biasIx i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- The zero splat, at an entry: zero. -/
theorem zero_arr_apply (i : S500000x128.Idx) :
    broadcastInDim S500000x128 ![] Cert.ReferenceIdeal.Gen.bcast_S_S500000x128 (constant (F := Ideal) Cert.ReferenceIdeal.S_ .f32 0x00000000#32) i = (0 : EReal) := by
  refine (broadcastInDim_apply _ Cert.ReferenceIdeal.Gen.bcast_S_S500000x128 (constant (F := Ideal) Cert.ReferenceIdeal.S_ .f32 0x00000000#32) i (fun a => a.elim0) (fun a => a.elim0)).trans ?_
  exact Ideal.ofBits_zero_f32

/-- The edge-message stage function is `msg`. -/
theorem stage_eq (ea : (⟨S500000x16, .f32⟩ : BufTy).Contents (Elt Ideal)) (We : (⟨S16x128, .f32⟩ : BufTy).Contents (Elt Ideal))
    (ber : (⟨S1x128, .f32⟩ : BufTy).Contents (Elt Ideal)) (g : (⟨S500000x128, .f32⟩ : BufTy).Contents (Elt Ideal)) :
    Cert.Stages.edge128 (F := Ideal) ea We ber g = msg ea We ber g := by
  funext i
  unfold Cert.Stages.edge128 msg
  rw [ValueIdx.maximumf_apply, ValueIdx.addf_apply, ValueIdx.addf_apply, proj_arr_apply, bias_arr_apply, zero_arr_apply]

/-! ## The body's arithmetic at an entry of a block

On a block of 5000 edges the body computes the same expression of its four loaded blocks. -/

/-- The attribute-block entry the k-th product of block entry `y` reads. -/
abbrev attrB (y : S5000x128.Idx) (k : Fin 16) : S5000x16.Idx := fun a => match a with
  | ⟨0, _⟩ => ⟨(y 0).val, (y 0).isLt⟩
  | ⟨1, _⟩ => ⟨k.val, k.isLt⟩
/-- The projection-matrix entry that product reads. -/
abbrev projB (y : S5000x128.Idx) (k : Fin 16) : S16x128.Idx := fun a => match a with
  | ⟨0, _⟩ => ⟨k.val, k.isLt⟩
  | ⟨1, _⟩ => ⟨(y 1).val, (y 1).isLt⟩
/-- The bias row's entry of the block entry's column. -/
abbrev biasB (y : S5000x128.Idx) : S1x128.Idx := fun a => match a with
  | ⟨0, _⟩ => ⟨0, Nat.one_pos⟩
  | ⟨1, _⟩ => ⟨(y 1).val, (y 1).isLt⟩

/-- The left operand's row index in the block product is the output entry's row … -/
theorem lhs_blk_0 (y : S5000x128.Idx) (q : dot_S5000x16_S16x128_S5000x128_1_0_0_1_n_n.contr.Idx) :
    (dot_S5000x16_S16x128_S5000x128_1_0_0_1_n_n.lhsIdx y q 0).val = (y 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
/-- … its column index the summation index; -/
theorem lhs_blk_1 (y : S5000x128.Idx) (q : dot_S5000x16_S16x128_S5000x128_1_0_0_1_n_n.contr.Idx) :
    (dot_S5000x16_S16x128_S5000x128_1_0_0_1_n_n.lhsIdx y q 1).val = (q ⟨0, by decide⟩).val :=
  dot_S5000x16_S16x128_S5000x128_1_0_0_1_n_n.lhsIdx_val_of_single rfl y q
/-- the right operand's row index is the summation index … -/
theorem rhs_blk_0 (y : S5000x128.Idx) (q : dot_S5000x16_S16x128_S5000x128_1_0_0_1_n_n.contr.Idx) :
    (dot_S5000x16_S16x128_S5000x128_1_0_0_1_n_n.rhsIdx y q 0).val = (q ⟨0, by decide⟩).val :=
  dot_S5000x16_S16x128_S5000x128_1_0_0_1_n_n.rhsIdx_val_of_single rfl y q
/-- … and its column index the output entry's column. -/
theorem rhs_blk_1 (y : S5000x128.Idx) (q : dot_S5000x16_S16x128_S5000x128_1_0_0_1_n_n.contr.Idx) :
    (dot_S5000x16_S16x128_S5000x128_1_0_0_1_n_n.rhsIdx y q 1).val = (y 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-- The block product accumulated into zero, at an entry: the sum over the sixteen attributes. -/
theorem proj_blk_apply (x0 : Vec Ideal S5000x16 .f32) (x1 : Vec Ideal S16x128 .f32) (y : S5000x128.Idx) :
    matmul (F := Ideal) (φ₁ := .f32) (φ₂ := .f32) dot_S5000x16_S16x128_S5000x128_1_0_0_1_n_n none x0 x1 (constant S5000x128 .f32 0x00000000#32) y
      = ∑ k : Fin 16, x0 (attrB y k) * x1 (projB y k) := by
  simp only [matmul]
  rw [Ideal.matmul_constant_zero_apply, ← Equiv.sum_comp (ValueIdx.contrEquiv1 dot_S5000x16_S16x128_S5000x128_1_0_0_1_n_n 16 rfl rfl).symm]
  refine Finset.sum_congr rfl fun k _ => ?_
  have hk := ValueIdx.contrEquiv1_symm_val dot_S5000x16_S16x128_S5000x128_1_0_0_1_n_n 16 rfl rfl k
  have el : dot_S5000x16_S16x128_S5000x128_1_0_0_1_n_n.lhsIdx y ((ValueIdx.contrEquiv1 dot_S5000x16_S16x128_S5000x128_1_0_0_1_n_n 16 rfl rfl).symm k) = attrB y k := funext fun a => Fin.ext (by
    match a with
    | ⟨0, _⟩ => exact lhs_blk_0 _ _
    | ⟨1, _⟩ => exact (lhs_blk_1 _ _).trans hk)
  have er : dot_S5000x16_S16x128_S5000x128_1_0_0_1_n_n.rhsIdx y ((ValueIdx.contrEquiv1 dot_S5000x16_S16x128_S5000x128_1_0_0_1_n_n 16 rfl rfl).symm k) = projB y k := funext fun a => Fin.ext (by
    match a with
    | ⟨0, _⟩ => exact (rhs_blk_0 _ _).trans hk
    | ⟨1, _⟩ => exact rhs_blk_1 _ _)
  rw [el, er]

/-- The bias row repeated down the block's rows, at an entry: the row's entry of that column. -/
theorem bias_blk_apply (x2 : Vec Ideal S1x128 .f32) (y : S5000x128.Idx) :
    broadcastTo S5000x128 (shapeCast S1x128 x2 shapeCasts_S1x128_S1x128) broadcasts_S1x128_S5000x128 y = x2 (biasB y) := by
  rw [shapeCast_self]
  exact broadcastTo_apply x2 broadcasts_S1x128_S5000x128 y (biasB y) (fun a => match a with
    | ⟨0, _⟩ => by show 0 = if (1 : Nat) = 1 then 0 else (y 0).val; rw [if_pos rfl]
    | ⟨1, _⟩ => by show (y 1).val = if (128 : Nat) = 1 then 0 else (y 1).val; rw [if_neg (by decide)])

/-- The body's result at an entry of the block. -/
theorem pay_apply (x0 : Vec Ideal S5000x16 .f32) (x1 : Vec Ideal S16x128 .f32) (x2 : Vec Ideal S1x128 .f32) (x3 : Vec Ideal S5000x128 .f32) (y : S5000x128.Idx) :
    k0_pay1 (F := Ideal) x0 x1 x2 x3 y = max (x3 y + ((∑ k : Fin 16, x0 (attrB y k) * x1 (projB y k)) + x2 (biasB y))) 0 := by
  unfold k0_pay1
  rw [ValueIdx.maximumf_apply, ValueIdx.addf_apply, ValueIdx.addf_apply, shapeCast_self, proj_blk_apply, bias_blk_apply, ValueIdx.broadcast_apply]
  exact congrArg (max _) Ideal.ofBits_zero_f32

/-! ## From the blocks to the array

Point `t` of the grid works on edges 5000·t … 5000·t + 4999: the attribute, gathered-row and output windows sit at block-row `t`,
the projection matrix and the bias row are read whole. -/

theorem hz : (![0, 0] : Fin 2 → Nat) = fun _ => 0 := funext fun a => by fin_cases a <;> rfl

/-- The block indices of the five windows at every point of the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

section Reads
variable (V : (c : Dev nD) → (b : Ref sig .tc) → Buf (Elt Ideal) ((c : Thread nD τ).loc b))

/-- The attribute block at point `t` is rows 5000·t … of the attribute array. -/
theorem attr_read (c : Dev nD) (t : Fin cfg0.N) (x : S5000x16.Idx) (k : S500000x16.Idx)
    (h0 : (k 0).val = 5000 * t.val + (x 0).val) (h1 : (k 1).val = (x 1).val) :
    (iblk0 V c 0 t : Vec Ideal S5000x16 .f32) x = (V c main_arg1 : S500000x16.Idx → Elt Ideal .f32) k := by
  obtain ⟨e0, e1, -⟩ := idx_facts t
  unfold iblk0
  rw [View.read_apply]
  show V c main_arg1 _ = V c main_arg1 _
  refine congrArg _ (funext fun a => Fin.ext ?_)
  match a with
  | ⟨0, _⟩ => show win0_0.index t (0 : Fin 2) * 5000 + 1 * (x 0).val = (k 0).val; omega
  | ⟨1, _⟩ => show win0_0.index t (1 : Fin 2) * 16 + 1 * (x 1).val = (k 1).val; omega

/-- The projection-matrix block at every point is the whole matrix. -/
theorem proj_read (c : Dev nD) (t : Fin cfg0.N) (x : S16x128.Idx) :
    (iblk0 V c 1 t : Vec Ideal S16x128 .f32) x = (V c main_arg2 : S16x128.Idx → Elt Ideal .f32) x := by
  obtain ⟨-, -, e0, e1, -⟩ := idx_facts t
  unfold iblk0
  rw [View.read_apply]
  show V c main_arg2 _ = V c main_arg2 _
  refine congrArg _ (funext fun a => Fin.ext ?_)
  match a with
  | ⟨0, _⟩ => show win0_1.index t (0 : Fin 2) * 16 + 1 * (x 0).val = (x 0).val; omega
  | ⟨1, _⟩ => show win0_1.index t (1 : Fin 2) * 128 + 1 * (x 1).val = (x 1).val; omega

/-- The bias block at every point is the whole bias row. -/
theorem bias_read (c : Dev nD) (t : Fin cfg0.N) (x : S1x128.Idx) :
    (iblk0 V c 2 t : Vec Ideal S1x128 .f32) x = (V c main_v5 : S1x128.Idx → Elt Ideal .f32) x := by
  obtain ⟨-, -, -, -, e0, e1, -⟩ := idx_facts t
  unfold iblk0
  rw [View.read_apply]
  show V c main_v5 _ = V c main_v5 _
  refine congrArg _ (funext fun a => Fin.ext ?_)
  match a with
  | ⟨0, _⟩ => show win0_2.index t (0 : Fin 2) * 1 + 1 * (x 0).val = (x 0).val; omega
  | ⟨1, _⟩ => show win0_2.index t (1 : Fin 2) * 128 + 1 * (x 1).val = (x 1).val; omega

/-- The gathered-row block at point `t` is rows 5000·t … of the gathered array. -/
theorem rows_read (c : Dev nD) (t : Fin cfg0.N) (x : S5000x128.Idx) (k : S500000x128.Idx)
    (h0 : (k 0).val = 5000 * t.val + (x 0).val) (h1 : (k 1).val = (x 1).val) :
    (iblk0 V c 3 t : Vec Ideal S5000x128 .f32) x = (V c main_v4 : S500000x128.Idx → Elt Ideal .f32) k := by
  obtain ⟨-, -, -, -, -, -, e0, e1, -⟩ := idx_facts t
  unfold iblk0
  rw [View.read_apply]
  show V c main_v4 _ = V c main_v4 _
  refine congrArg _ (funext fun a => Fin.ext ?_)
  match a with
  | ⟨0, _⟩ => show win0_3.index t (0 : Fin 2) * 5000 + 1 * (x 0).val = (k 0).val; omega
  | ⟨1, _⟩ => show win0_3.index t (1 : Fin 2) * 128 + 1 * (x 1).val = (k 1).val; omega

end Reads

section Blocks
variable (V : (c : Dev nD) → (b : Ref sig .tc) → Buf (Elt Ideal) ((c : Thread nD τ).loc b))

/-- Two message entries whose projected sums agree are equal. -/
theorem cut_congr {g b s s' : EReal} (h : s = s') : max (g + (s + b)) 0 = max (g + (s' + b)) 0 := by rw [h]

/-- The body's result at entry `y` of point `t`'s block is `msg` of the arrays at the entry of row 5000·t + (y's row), y's column. -/
theorem msg_blk (c : Dev nD) (t : Fin cfg0.N) (y : S5000x128.Idx) (i : S500000x128.Idx)
    (h0 : (i 0).val = 5000 * t.val + (y 0).val) (h1 : (i 1).val = (y 1).val) :
    k0_pay1 (F := Ideal) (iblk0 V c 0 t) (iblk0 V c 1 t) (iblk0 V c 2 t) (iblk0 V c 3 t) y
      = msg (V c main_arg1) (V c main_arg2) (V c main_v5) (V c main_v4) i := by
  refine (pay_apply (iblk0 V c 0 t) (iblk0 V c 1 t) (iblk0 V c 2 t) (iblk0 V c 3 t) y).trans ?_
  have eb : biasB y = biasIx i := funext fun a => Fin.ext (by
    match a with
    | ⟨0, _⟩ => rfl
    | ⟨1, _⟩ => exact h1.symm)
  have ep : ∀ k, projB y k = projIx i k := fun k => funext fun a => Fin.ext (by
    match a with
    | ⟨0, _⟩ => rfl
    | ⟨1, _⟩ => exact h1.symm)
  unfold msg
  rw [rows_read V c t y i h0 h1, bias_read V c t (biasB y), eb]
  refine cut_congr (Finset.sum_congr rfl fun k _ => ?_)
  rw [attr_read V c t (attrB y k) (attrIx i k) h0 rfl, proj_read V c t (projB y k), ep k]

/-- What point `t` writes back is block `t` of `msg` of the arrays as the region finds them. -/
theorem flushed_eq (c : Dev nD) (t : Fin cfg0.N) :
    (dat0 (F := Ideal) V c).flushed 4 t
      = ((cfg0.win 4).blk t).view.read (Elt Ideal) (msg (V c main_arg1) (V c main_arg2) (V c main_v5) (V c main_v4)) := by
  show (cfg0.win 4).cut (grid0.coords t) ((dat0 V c).after 4 t) = _
  rw [after0_4]
  unfold out0_4
  rw [View.canon_unit_zero hz]
  simp only [View.ld_unit_zero (S := S5000x16) hz, View.ld_unit_zero (S := S16x128) hz, View.ld_unit_zero (S := S1x128) hz, View.ld_unit_zero (S := S5000x128) hz]
  obtain ⟨-, -, -, -, -, -, -, -, e0, e1⟩ := idx_facts t
  funext y
  show k0_pay1 (F := Ideal) (iblk0 V c 0 t) (iblk0 V c 1 t) (iblk0 V c 2 t) (iblk0 V c 3 t) y
    = msg (V c main_arg1) (V c main_arg2) (V c main_v5) (V c main_v4) (((cfg0.win 4).blk t).view.emb y)
  refine msg_blk V c t y _ ?_ ?_
  · show win0_4.index t (0 : Fin 2) * 5000 + 1 * (y 0).val = 5000 * t.val + (y 0).val; omega
  · show win0_4.index t (1 : Fin 2) * 128 + 1 * (y 1).val = (y 1).val; omega

end Blocks

/-- An entry of the message array is in point `t`'s output block iff each coordinate is in the block's range on its axis. -/
theorem mem_blk (t : Fin cfg0.N) (i : S500000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v6).slice (win0_4.rect t)).set ↔ _
  rw [View.set_slice_whole, Rect.mem_set_unit]
  exact Iff.rfl

/-- Every entry of the message array is written back by the point of its edge's block: row r by point r / 5000. -/
theorem covered (i : S500000x128.Idx) : ∃ t : Fin cfg0.N, (cfg0.win 4).flush t = true ∧ i ∈ ((cfg0.win 4).blk t).view.set := by
  have hi0 : (i 0).val < 500000 := (i 0).isLt
  have hi1 : (i 1).val < 128 := (i 1).isLt
  obtain ⟨t, ht⟩ : ∃ t : Fin cfg0.N, t.val = (i 0).val / 5000 := ⟨⟨(i 0).val / 5000, lt_of_lt_of_eq (by omega) N_0.symm⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The first edge region's output array: the edge-message stage of the edge attributes, the projection matrix, the one-row bias and the gathered source rows. It holds whatever the buffers contain when the region is entered. -/
theorem arr (V : (c : Dev nD) → (b : Ref sig .tc) → Buf (Elt Ideal) ((c : Thread nD τ).loc b)) (c : Dev nD) :
    (dat0 (F := Ideal) V c).arrAt 4 cfg0.N = Cert.Stages.edge128 (F := Ideal) (V c main_arg1) (V c main_arg2) (V c main_v5) (V c main_v4) :=
  ((dat0 (F := Ideal) V c).arrAt_eq_of_cover 4 (msg (V c main_arg1) (V c main_arg2) (V c main_v5) (V c main_v4))
    (fun t _ => flushed_eq V c t) covered).trans (stage_eq _ _ _ _).symm

end Cert.KernelIdeal.Region0

end
-- ==== Proof.Region1.lean ====
import proofs.«408536_j9234179687244_1_alg».proof.Proof.Gen.KernelIdeal.Frame
import proofs.«408536_j9234179687244_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The node update, entry by entry -/

/-- One hidden unit for one node: the node's feature row against column `k` of the first weight matrix, plus the first
    bias, cut at zero. -/
def hidden (row : Fin 128 → EReal) (W1 : FVec Ideal S128x256 .f32) (b1 : FVec Ideal S1x256 .f32) (k : Fin 256) : EReal :=
  max ((∑ j : Fin 128, row j * W1 (ix2 j k)) + b1 (ix2 0 k)) 0

/-- One output unit for one node: the node's hidden row against column `q` of the second weight matrix, plus the second
    bias, cut at zero. -/
def unit (row : Fin 128 → EReal) (W1 : FVec Ideal S128x256 .f32) (b1 : FVec Ideal S1x256 .f32) (W2 : FVec Ideal S256x256 .f32)
    (b2 : FVec Ideal S1x256 .f32) (q : Fin 256) : EReal :=
  max ((∑ k : Fin 256, hidden row W1 b1 k * W2 (ix2 k q)) + b2 (ix2 0 q)) 0

/-- The node update of the whole node array: entry (p, q) is output unit `q` of node `p`'s feature row. -/
def G (z : FVec Ideal S50000x128 .f32) (W1 : FVec Ideal S128x256 .f32) (b1 : FVec Ideal S1x256 .f32) (W2 : FVec Ideal S256x256 .f32)
    (b2 : FVec Ideal S1x256 .f32) : FVec Ideal S50000x256 .f32 :=
  fun i => unit (fun j => z (ix2 (i 0) j)) W1 b1 W2 b2 (i 1)

/-! ## The whole-array matrix products read at an entry -/

theorem lhs_arrFirst_0 (i : S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin S50000x128.rank) ∈ Cert.ReferenceIdeal.dot_S50000x128_S128x256_S50000x256_1_0_0_1_n_n.lhsBatch by decide), dif_pos (show (0 : Fin S50000x128.rank) ∈ Cert.ReferenceIdeal.dot_S50000x128_S128x256_S50000x256_1_0_0_1_n_n.lhsNonContracting by decide)]
  rfl
theorem lhs_arrFirst_1 (i : S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem rhs_arrFirst_0 (i : S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem rhs_arrFirst_1 (i : S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin S128x256.rank) ∈ Cert.ReferenceIdeal.dot_S50000x128_S128x256_S50000x256_1_0_0_1_n_n.rhsBatch by decide), dif_pos (show (1 : Fin S128x256.rank) ∈ Cert.ReferenceIdeal.dot_S50000x128_S128x256_S50000x256_1_0_0_1_n_n.rhsNonContracting by decide)]
  rfl

/-- Entry (p, q) of the whole-array first product is the sum over the 128 input features. -/
theorem arrFirst_apply (x : FVec Ideal S50000x128 .f32) (w : FVec Ideal S128x256 .f32) (p : Fin 50000) (q : Fin 256) :
    Host.dotGeneral (F := Ideal) Cert.ReferenceIdeal.dot_S50000x128_S128x256_S50000x256_1_0_0_1_n_n none x w (ix2 p q) = ∑ j : Fin 128, x (ix2 p j) * w (ix2 j q) := by
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  have hk := contrEquiv1_symm_val Cert.ReferenceIdeal.dot_S50000x128_S128x256_S50000x256_1_0_0_1_n_n 128 rfl rfl k
  have el : Cert.ReferenceIdeal.dot_S50000x128_S128x256_S50000x256_1_0_0_1_n_n.lhsIdx (ix2 p q) ((contrEquiv1 Cert.ReferenceIdeal.dot_S50000x128_S128x256_S50000x256_1_0_0_1_n_n 128 rfl rfl).symm k) = ix2 p k := funext fun a => Fin.ext (by
    match a with
    | ⟨0, _⟩ => exact lhs_arrFirst_0 _ _
    | ⟨1, _⟩ => exact (lhs_arrFirst_1 _ _).trans hk)
  have er : Cert.ReferenceIdeal.dot_S50000x128_S128x256_S50000x256_1_0_0_1_n_n.rhsIdx (ix2 p q) ((contrEquiv1 Cert.ReferenceIdeal.dot_S50000x128_S128x256_S50000x256_1_0_0_1_n_n 128 rfl rfl).symm k) = ix2 k q := funext fun a => Fin.ext (by
    match a with
    | ⟨0, _⟩ => exact (rhs_arrFirst_0 _ _).trans hk
    | ⟨1, _⟩ => exact rhs_arrFirst_1 _ _)
  rw [el, er]

theorem lhs_arrSecond_0 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin S50000x256.rank) ∈ Cert.ReferenceIdeal.dot_S50000x256_S256x256_S50000x256_1_0_0_1_n_n.lhsBatch by decide), dif_pos (show (0 : Fin S50000x256.rank) ∈ Cert.ReferenceIdeal.dot_S50000x256_S256x256_S50000x256_1_0_0_1_n_n.lhsNonContracting by decide)]
  rfl
theorem lhs_arrSecond_1 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem rhs_arrSecond_0 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem rhs_arrSecond_1 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin S256x256.rank) ∈ Cert.ReferenceIdeal.dot_S50000x256_S256x256_S50000x256_1_0_0_1_n_n.rhsBatch by decide), dif_pos (show (1 : Fin S256x256.rank) ∈ Cert.ReferenceIdeal.dot_S50000x256_S256x256_S50000x256_1_0_0_1_n_n.rhsNonContracting by decide)]
  rfl

/-- Entry (p, q) of the whole-array second product is the sum over the 256 hidden units. -/
theorem arrSecond_apply (x : FVec Ideal S50000x256 .f32) (w : FVec Ideal S256x256 .f32) (p : Fin 50000) (q : Fin 256) :
    Host.dotGeneral (F := Ideal) Cert.ReferenceIdeal.dot_S50000x256_S256x256_S50000x256_1_0_0_1_n_n none x w (ix2 p q) = ∑ k : Fin 256, x (ix2 p k) * w (ix2 k q) := by
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 p q) ((contrEquiv1 Cert.ReferenceIdeal.dot_S50000x256_S256x256_S50000x256_1_0_0_1_n_n 256 rfl rfl).symm k) = ix2 p k := funext fun a => Fin.ext (by
    match a with
    | ⟨0, _⟩ => exact lhs_arrSecond_0 _ _
    | ⟨1, _⟩ => exact (lhs_arrSecond_1 _ _).trans hk)
  have er : Cert.ReferenceIdeal.dot_S50000x256_S256x256_S50000x256_1_0_0_1_n_n.rhsIdx (ix2 p q) ((contrEquiv1 Cert.ReferenceIdeal.dot_S50000x256_S256x256_S50000x256_1_0_0_1_n_n 256 rfl rfl).symm k) = ix2 k q := funext fun a => Fin.ext (by
    match a with
    | ⟨0, _⟩ => exact (rhs_arrSecond_0 _ _).trans hk
    | ⟨1, _⟩ => exact rhs_arrSecond_1 _ _)
  rw [el, er]

/-- A one-row matrix stretched over all the rows reads its own entry of the same column. -/
theorem arrBias_apply (b : FVec Ideal S1x256 .f32) (p : Fin 50000) (q : Fin 256) :
    broadcastInDim Cert.ReferenceIdeal.S50000x256 ![0, 1] Cert.ReferenceIdeal.Gen.bcast_S1x256_S50000x256_0_1 b (ix2 p q) = b (ix2 0 q) :=
  broadcastInDim_apply _ Cert.ReferenceIdeal.Gen.bcast_S1x256_S50000x256_0_1 b (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The stretched scalar zero reads zero at every entry. -/
theorem arrZero_apply (i : S50000x256.Idx) :
    broadcastInDim Cert.ReferenceIdeal.S50000x256 ![] Cert.ReferenceIdeal.Gen.bcast_S_S50000x256 (constant (F := Ideal) Cert.ReferenceIdeal.S_ .f32 0x00000000#32) i = 0 :=
  (broadcastInDim_apply _ Cert.ReferenceIdeal.Gen.bcast_S_S50000x256 (constant (F := Ideal) Cert.ReferenceIdeal.S_ .f32 0x00000000#32) i (fun a => a.elim0) (fun a => a.elim0)).trans
    Ideal.ofBits_zero_f32

/-- The first affine map cut at zero, at an entry, is the hidden unit of that node's row. -/
theorem arrHidden_apply (z : FVec Ideal S50000x128 .f32) (W1 : FVec Ideal S128x256 .f32) (b1 : FVec Ideal S1x256 .f32) (p : Fin 50000) (k : Fin 256) :
    maximumf (addf (Host.dotGeneral (F := Ideal) Cert.ReferenceIdeal.dot_S50000x128_S128x256_S50000x256_1_0_0_1_n_n none z W1) (broadcastInDim Cert.ReferenceIdeal.S50000x256 ![0, 1] Cert.ReferenceIdeal.Gen.bcast_S1x256_S50000x256_0_1 b1))
      (broadcastInDim Cert.ReferenceIdeal.S50000x256 ![] Cert.ReferenceIdeal.Gen.bcast_S_S50000x256 (constant (F := Ideal) Cert.ReferenceIdeal.S_ .f32 0x00000000#32)) (ix2 p k)
      = hidden (fun j => z (ix2 p j)) W1 b1 k := by
  rw [maximumf_apply, addf_apply, arrFirst_apply, arrBias_apply, arrZero_apply]
  rfl

/-- The stage function is the entry-by-entry node update. -/
theorem stage_eq (z : FVec Ideal S50000x128 .f32) (W1 : FVec Ideal S128x256 .f32) (b1 : FVec Ideal S1x256 .f32) (W2 : FVec Ideal S256x256 .f32)
    (b2 : FVec Ideal S1x256 .f32) : Cert.Stages.mlp128 (F := Ideal) z W1 b1 W2 b2 = G z W1 b1 W2 b2 := by
  funext i
  obtain ⟨p, q, rfl⟩ : ∃ (p : Fin 50000) (q : Fin 256), i = ix2 p q := ⟨i 0, i 1, eq_ix2 i⟩
  unfold Cert.Stages.mlp128
  rw [maximumf_apply, addf_apply, arrSecond_apply, arrBias_apply, arrZero_apply]
  unfold G unit
  refine congrArg (fun s => max (s + b2 (ix2 0 q)) 0) (Finset.sum_congr rfl fun k _ => ?_)
  rw [arrHidden_apply]

/-! ## The block's matrix products read at an entry -/

theorem lhs_blkFirst_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_blkFirst_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_blkFirst_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_blkFirst_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry (p, q) of a block's first product (accumulated onto zero) is the sum over the 128 input features. -/
theorem blkFirst_apply (x : FVec Ideal S2000x128 .f32) (w : FVec Ideal S128x256 .f32) (p : Fin 2000) (q : Fin 256) :
    matmul dot_S2000x128_S128x256_S2000x256_1_0_0_1_n_n none x w (constant S2000x256 .f32 0x00000000#32) (ix2 p q) = ∑ j : Fin 128, x (ix2 p j) * w (ix2 j q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_blkFirst_0 _ _
    | ⟨1, _⟩ => exact (lhs_blkFirst_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_blkFirst_0 _ _).trans hk
    | ⟨1, _⟩ => exact rhs_blkFirst_1 _ _)
  rw [el, er]

theorem lhs_blkSecond_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_blkSecond_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_blkSecond_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_blkSecond_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of a block's second product (accumulated onto zero) is the sum over the 256 hidden units. -/
theorem blkSecond_apply (x : FVec Ideal S2000x256 .f32) (w : FVec Ideal S256x256 .f32) (p : Fin 2000) (q : Fin 256) :
    matmul dot_S2000x256_S256x256_S2000x256_1_0_0_1_n_n none x w (constant S2000x256 .f32 0x00000000#32) (ix2 p q) = ∑ k : Fin 256, x (ix2 p k) * w (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_blkSecond_0 _ _
    | ⟨1, _⟩ => exact (lhs_blkSecond_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_blkSecond_0 _ _).trans hk
    | ⟨1, _⟩ => exact rhs_blkSecond_1 _ _)
  rw [el, er]

/-- A one-row matrix stretched over the block's rows reads its own entry of the same column. -/
theorem blkBias_apply (b : FVec Ideal S1x256 .f32) (h : S1x256.Broadcasts S2000x256) (p : Fin 2000) (q : Fin 256) :
    broadcastTo S2000x256 b h (ix2 p q) = b (ix2 0 q) :=
  broadcastTo_apply b h (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The splat of the scalar zero reads zero at every entry. -/
theorem blkZero_apply (i : S2000x256.Idx) :
    broadcast S2000x256 (Scalar.ofBits (F := Ideal) .f32 0x00000000#32) i = 0 :=
  Ideal.ofBits_zero_f32

/-- The block's first affine map cut at zero, at an entry, is the hidden unit of that row of the block. -/
theorem blkHidden_apply (x0 : FVec Ideal S2000x128 .f32) (x1 : FVec Ideal S128x256 .f32) (x2 : FVec Ideal S1x256 .f32) (h : S1x256.Broadcasts S2000x256)
    (p : Fin 2000) (k : Fin 256) :
    maximumf (addf (matmul dot_S2000x128_S128x256_S2000x256_1_0_0_1_n_n none x0 x1 (constant S2000x256 .f32 0x00000000#32)) (broadcastTo S2000x256 x2 h))
      (broadcast S2000x256 (Scalar.ofBits (F := Ideal) .f32 0x00000000#32)) (ix2 p k)
      = hidden (fun j => x0 (ix2 p j)) x1 x2 k := by
  rw [maximumf_apply, addf_apply, blkFirst_apply, blkBias_apply, blkZero_apply]
  rfl

/-- The body's arithmetic at an entry of the block: the output unit of that row of the input block. -/
theorem pay_apply (x0 : Vec Ideal S2000x128 .f32) (x1 : Vec Ideal S128x256 .f32) (x2 : Vec Ideal S1x256 .f32) (x3 : Vec Ideal S256x256 .f32)
    (x4 : Vec Ideal S1x256 .f32) (p : Fin 2000) (q : Fin 256) :
    k1_pay1 (F := Ideal) x0 x1 x2 x3 x4 (ix2 p q) = unit (fun j => x0 (ix2 p j)) x1 x2 x3 x4 q := by
  unfold k1_pay1
  simp only [shapeCast_self]
  rw [maximumf_apply, addf_apply, blkSecond_apply, blkBias_apply, blkZero_apply]
  unfold unit
  refine congrArg (fun s => max (s + x4 (ix2 0 q)) 0) (Finset.sum_congr rfl fun k _ => ?_)
  rw [blkHidden_apply]

section Blocks

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node-row window and the output window sit at block row `t`, the weight and bias
    windows at block zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the node-row block at point `t` is row `2000 t + p` of the node array. -/
theorem blk0_apply (c : Dev nD) (t : Fin cfg1.N) (p : Fin 2000) (j : Fin 128) (r : Fin 50000) (hr : r.val = 2000 * t.val + p.val) :
    (iblk1 (F := Ideal) V c 0 t : Vec Ideal S2000x128 .f32) (ix2 p j) = (V c main_v14 : FVec Ideal S50000x128 .f32) (ix2 r j) := by
  obtain ⟨e0, e1, -⟩ := idx_facts t
  unfold iblk1
  rw [View.read_apply]
  show V c main_v14 _ = V c main_v14 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * j.val = j.val; rw [e1]; omega

/-- Window 1's block is at block index zero and as large as its array: it is the whole first weight matrix. -/
theorem blk1_eq (c : Dev nD) (t : Fin cfg1.N) :
    (iblk1 (F := Ideal) V c 1 t : Vec Ideal S128x256 .f32) = (V c main_arg4 : FVec Ideal S128x256 .f32) := by
  obtain ⟨-, -, e0, e1, -⟩ := idx_facts t
  funext x
  unfold iblk1
  rw [View.read_apply]
  show V c main_arg4 _ = V c main_arg4 x
  congr 1
  funext a
  apply Fin.ext
  match a with
  | ⟨0, _⟩ => show win1_1.index t (0 : Fin 2) * 128 + 1 * (x 0).val = (x 0).val; rw [e0]; omega
  | ⟨1, _⟩ => show win1_1.index t (1 : Fin 2) * 256 + 1 * (x 1).val = (x 1).val; rw [e1]; omega

/-- Window 2's block is at block index zero and as large as its array: it is the whole first bias row. -/
theorem blk2_eq (c : Dev nD) (t : Fin cfg1.N) :
    (iblk1 (F := Ideal) V c 2 t : Vec Ideal S1x256 .f32) = (V c main_v15 : FVec Ideal S1x256 .f32) := by
  obtain ⟨-, -, -, -, e0, e1, -⟩ := idx_facts t
  funext x
  unfold iblk1
  rw [View.read_apply]
  show V c main_v15 _ = V c main_v15 x
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 256 + 1 * (x 1).val = (x 1).val; rw [e1]; omega

/-- Window 3's block is at block index zero and as large as its array: it is the whole second weight matrix. -/
theorem blk3_eq (c : Dev nD) (t : Fin cfg1.N) :
    (iblk1 (F := Ideal) V c 3 t : Vec Ideal S256x256 .f32) = (V c main_arg6 : FVec Ideal S256x256 .f32) := by
  obtain ⟨-, -, -, -, -, -, e0, e1, -⟩ := idx_facts t
  funext x
  unfold iblk1
  rw [View.read_apply]
  show V c main_arg6 _ = V c main_arg6 x
  congr 1
  funext a
  apply Fin.ext
  match a with
  | ⟨0, _⟩ => show win1_3.index t (0 : Fin 2) * 256 + 1 * (x 0).val = (x 0).val; rw [e0]; omega
  | ⟨1, _⟩ => show win1_3.index t (1 : Fin 2) * 256 + 1 * (x 1).val = (x 1).val; rw [e1]; omega

/-- Window 4's block is at block index zero and as large as its array: it is the whole second bias row. -/
theorem blk4_eq (c : Dev nD) (t : Fin cfg1.N) :
    (iblk1 (F := Ideal) V c 4 t : Vec Ideal S1x256 .f32) = (V c main_v16 : FVec Ideal S1x256 .f32) := by
  obtain ⟨-, -, -, -, -, -, -, -, e0, e1, -⟩ := idx_facts t
  funext x
  unfold iblk1
  rw [View.read_apply]
  show V c main_v16 _ = V c main_v16 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 256 + 1 * (x 1).val = (x 1).val; rw [e1]; omega

/-- The output unit depends only on the row, the weights, the biases and the column. -/
theorem unit_congr {row row' : Fin 128 → EReal} {W1 W1' : FVec Ideal S128x256 .f32} {b1 b1' : FVec Ideal S1x256 .f32} {W2 W2' : FVec Ideal S256x256 .f32}
    {b2 b2' : FVec Ideal S1x256 .f32} {q q' : Fin 256} (h0 : row = row') (h1 : W1 = W1') (h2 : b1 = b1') (h3 : W2 = W2') (h4 : b2 = b2') (hq : q = q') :
    unit row W1 b1 W2 b2 q = unit row' W1' b1' W2' b2' q' := by
  subst h0 h1 h2 h3 h4 hq; rfl

/-- What point `t` writes back is block `t` of the node update of the arrays the region finds. -/
theorem flushed_eq (c : Dev nD) (t : Fin cfg1.N) :
    (dat1 (F := Ideal) V c).flushed 5 t = ((cfg1.win 5).blk t).view.read (Elt Ideal) (G (V c main_v14) (V c main_arg4) (V c main_v15) (V c main_arg6) (V c main_v16)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x256) hz, View.ld_unit_zero (S := S1x256) hz, View.ld_unit_zero (S := S256x256) hz]
  funext y
  have hN : cfg1.N = 25 := N_1
  obtain ⟨p, hp⟩ : ∃ p : Fin 2000, p.val = (y 0).val := ⟨⟨(y 0).val, (y 0).isLt⟩, rfl⟩
  obtain ⟨q, hq⟩ : ∃ q : Fin 256, q.val = (y 1).val := ⟨⟨(y 1).val, (y 1).isLt⟩, rfl⟩
  obtain ⟨r, hr⟩ : ∃ r : Fin 50000, r.val = 2000 * t.val + p.val :=
    ⟨⟨2000 * t.val + p.val, by have := t.isLt; have := p.isLt; omega⟩, rfl⟩
  obtain ⟨-, -, -, -, -, -, -, -, -, -, e0, e1⟩ := idx_facts t
  have hy : (cfg1.win 5).xinj (grid1.coords t) y = (ix2 p q : S2000x256.Idx) := funext fun a => Fin.ext (by
    match a with
    | ⟨0, _⟩ => exact hp.symm
    | ⟨1, _⟩ => exact hq.symm)
  have hi : ((cfg1.win 5).blk t).view.emb y = (ix2 r q : S50000x256.Idx) := funext fun a => Fin.ext (by
    match a with
    | ⟨0, _⟩ => show win1_5.index t (0 : Fin 2) * 2000 + 1 * (y 0).val = r.val; rw [e0, hr, hp]; omega
    | ⟨1, _⟩ => show win1_5.index t (1 : Fin 2) * 256 + 1 * (y 1).val = q.val; rw [e1, hq]; omega)
  show k1_pay1 (F := Ideal) (iblk1 V c 0 t) (iblk1 V c 1 t) (iblk1 V c 2 t) (iblk1 V c 3 t) (iblk1 V c 4 t) ((cfg1.win 5).xinj (grid1.coords t) y)
      = G (V c main_v14) (V c main_arg4) (V c main_v15) (V c main_arg6) (V c main_v16) (((cfg1.win 5).blk t).view.emb y)
  rw [hy, hi]
  refine (pay_apply (iblk1 V c 0 t) (iblk1 V c 1 t) (iblk1 V c 2 t) (iblk1 V c 3 t) (iblk1 V c 4 t) p q).trans ?_
  exact unit_congr (funext fun j => blk0_apply V c t p j r hr) (blk1_eq V c t) (blk2_eq V c t) (blk3_eq V c t) (blk4_eq V c t) rfl

/-- An entry of the array lies in point `t`'s block exactly when each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v17).slice (win1_5.rect t)).set ↔ _
  rw [View.set_slice_whole, Rect.mem_set_unit]
  exact Iff.rfl

/-- Every entry of the array is in the block of the point its row falls in: row `r` belongs to point `r / 2000`. -/
theorem cover (i : S50000x256.Idx) : ∃ t : Fin cfg1.N, (cfg1.win 5).flush t = true ∧ i ∈ ((cfg1.win 5).blk t).view.set := by
  have hN : cfg1.N = 25 := N_1
  have h0 : (i 0).val < 50000 := (i 0).isLt
  have h1 : (i 1).val < 256 := (i 1).isLt
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 256 ≤ (i 1).val ∧ (i 1).val < win1_5.index t (1 : Fin 2) * 256 + 256
    rw [e1]; omega

/-- The region's output array after the whole grid is the node update of the arrays the region finds. -/
theorem final (c : Dev nD) :
    (dat1 (F := Ideal) V c).arrAt 5 cfg1.N = G (V c main_v14) (V c main_arg4) (V c main_v15) (V c main_arg6) (V c main_v16) :=
  (dat1 (F := Ideal) V c).arrAt_eq_of_cover 5 (G (V c main_v14) (V c main_arg4) (V c main_v15) (V c main_arg6) (V c main_v16))
    (fun t _ => flushed_eq V c t) cover

end Blocks

/-- The first node-update region's output array: the two-layer perceptron stage of its input rows, the two weight matrices and the two one-row biases. It holds whatever the buffers contain when the region is entered. -/
theorem arr (V : (c : Dev nD) → (b : Ref sig .tc) → Buf (Elt Ideal) ((c : Thread nD τ).loc b)) (c : Dev nD) :
    (dat1 (F := Ideal) V c).arrAt 5 cfg1.N = Cert.Stages.mlp128 (F := Ideal) (V c main_v14) (V c main_arg4) (V c main_v15) (V c main_arg6) (V c main_v16) :=
  (final V c).trans (stage_eq (V c main_v14) (V c main_arg4) (V c main_v15) (V c main_arg6) (V c main_v16)).symm

end Cert.KernelIdeal.Region1

end
-- ==== Proof.Chain0.lean ====
import proofs.«408536_j9234179687244_1_alg».proof.Proof.Gen.KernelIdeal.Frame
import proofs.«408536_j9234179687244_1_alg».proof.Proof.StagesK
import proofs.«408536_j9234179687244_1_alg».proof.Proof.Region0
import proofs.«408536_j9234179687244_1_alg».proof.Proof.Region1
import Idealize.ShloMosaic.Lib.StableHlo.Run

set_option maxRecDepth 16384

noncomputable section

namespace Cert.KernelIdeal.Chain0

open Cert.KernelIdeal Cert.KernelIdeal.Gen
open Idealize.ShloMosaic Idealize.ShloMosaic.TcCoe Idealize.SL.Sem
open Idealize.ShloMosaic.Pipeline (Dat Cfg Window)

open Cert.KernelIdeal.StagesK

variable (m : (ℓ : Loc nD τ sig) → Buf (Elt Ideal) ℓ) (ρ : Dev nD → PrngReg)

/-! ## A buffer no operation writes

A stretch of host operations rewrites only its operations' result buffers; a kernel region rewrites only its output
array. Every other buffer holds after the segment what it held before. -/

/-- A buffer that no operation of the named host stretch writes holds after the stretch what it held before: each
    operation's result buffer is a different reference. -/
local macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The launch arguments where the first layer reads them

No segment writes an argument, so at the boundary where a stage reads it an argument still holds the launch memory's
contents. -/

/-- The node features, where the source rows are gathered. -/
theorem x_W1 (c : Dev nD) : W1 (F := Ideal) m ρ c (Proc.devRef .tc main_arg0) = m ((c : Thread nD τ).loc main_arg0) :=
  calc W1 (F := Ideal) m ρ c (Proc.devRef .tc main_arg0)
    _ = W0 m ρ c (Proc.devRef .tc main_arg0) := by host_keeps hostOps0
    _ = m ((c : Thread nD τ).loc main_arg0) := rfl

/-- The node features, where the node update's input is formed. -/
theorem x_W4 (c : Dev nD) : W4 (F := Ideal) m ρ c (Proc.devRef .tc main_arg0) = m ((c : Thread nD τ).loc main_arg0) :=
  calc W4 (F := Ideal) m ρ c (Proc.devRef .tc main_arg0)
    _ = W3 m ρ c (Proc.devRef .tc main_arg0) := W4_of_ne m ρ c main_arg0 (by decide)
    _ = W2 m ρ c (Proc.devRef .tc main_arg0) := by host_keeps hostOps0_2
    _ = W1 m ρ c (Proc.devRef .tc main_arg0) := by host_keeps hostOps0_1
    _ = m ((c : Thread nD τ).loc main_arg0) := x_W1 m ρ c

/-- The edge attributes, at the edge stage's entry. -/
theorem ea_W3 (c : Dev nD) : W3 (F := Ideal) m ρ c (Proc.devRef .tc main_arg1) = m ((c : Thread nD τ).loc main_arg1) :=
  calc W3 (F := Ideal) m ρ c (Proc.devRef .tc main_arg1)
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0
    _ = m ((c : Thread nD τ).loc main_arg1) := rfl

/-- The edge projection's weights, at the edge stage's entry. -/
theorem We_W3 (c : Dev nD) : W3 (F := Ideal) m ρ c (Proc.devRef .tc main_arg2) = m ((c : Thread nD τ).loc main_arg2) :=
  calc W3 (F := Ideal) m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

/-- The edge projection's bias, where it is reshaped to one row. -/
theorem be_W2 (c : Dev nD) : W2 (F := Ideal) m ρ c (Proc.devRef .tc main_arg3) = m ((c : Thread nD τ).loc main_arg3) :=
  calc W2 (F := Ideal) m ρ c (Proc.devRef .tc main_arg3)
    _ = W1 m ρ c (Proc.devRef .tc main_arg3) := by host_keeps hostOps0_1
    _ = W0 m ρ c (Proc.devRef .tc main_arg3) := by host_keeps hostOps0
    _ = m ((c : Thread nD τ).loc main_arg3) := rfl

/-- The node update's first weights, at the update stage's entry. -/
theorem W1_W5 (c : Dev nD) : W5 (F := Ideal) m ρ c (Proc.devRef .tc main_arg4) = m ((c : Thread nD τ).loc main_arg4) :=
  calc W5 (F := Ideal) m ρ c (Proc.devRef .tc main_arg4)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

/-- The node update's first bias, where it is reshaped to one row. -/
theorem b1_W4 (c : Dev nD) : W4 (F := Ideal) m ρ c (Proc.devRef .tc main_arg5) = m ((c : Thread nD τ).loc main_arg5) :=
  calc W4 (F := Ideal) m ρ c (Proc.devRef .tc main_arg5)
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

/-- The node update's second weights, at the update stage's entry. -/
theorem W2_W5 (c : Dev nD) : W5 (F := Ideal) m ρ c (Proc.devRef .tc main_arg6) = m ((c : Thread nD τ).loc main_arg6) :=
  calc W5 (F := Ideal) m ρ c (Proc.devRef .tc main_arg6)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

/-- The node update's second bias, where it is reshaped to one row. -/
theorem b2_W4 (c : Dev nD) : W4 (F := Ideal) m ρ c (Proc.devRef .tc main_arg7) = m ((c : Thread nD τ).loc main_arg7) :=
  calc W4 (F := Ideal) m ρ c (Proc.devRef .tc main_arg7)
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

/-- The self-weight eps, where the node update's input is formed. -/
theorem eps_W4 (c : Dev nD) : W4 (F := Ideal) m ρ c (Proc.devRef .tc main_arg8) = m ((c : Thread nD τ).loc main_arg8) :=
  calc W4 (F := Ideal) m ρ c (Proc.devRef .tc main_arg8)
    _ = W3 m ρ c (Proc.devRef .tc main_arg8) := W4_of_ne m ρ c main_arg8 (by decide)
    _ = W2 m ρ c (Proc.devRef .tc main_arg8) := by host_keeps hostOps0_2
    _ = W1 m ρ c (Proc.devRef .tc main_arg8) := by host_keeps hostOps0_1
    _ = W0 m ρ c (Proc.devRef .tc main_arg8) := by host_keeps hostOps0
    _ = m ((c : Thread nD τ).loc main_arg8) := rfl

/-! ## The edge list's two rows -/

/-- The source row, where the source rows of the node features are gathered: row 0 of the edge list, as a vector. -/
theorem src_W1 (c : Dev nD) :
    W1 (F := Ideal) m ρ c (Proc.devRef .tc main_v1) = srcK (F := Ideal) (m ((c : Thread nD τ).loc main_arg35)) := by
  show StableHlo.after hostOps0 (W0 m ρ c) (Proc.devRef .tc main_v1) = _
  after_results
  rfl

/-- The destination row when the first stretch has run: row 1 of the edge list, as a vector. -/
theorem dst_W1 (c : Dev nD) :
    W1 (F := Ideal) m ρ c (Proc.devRef .tc main_v3) = dstK (F := Ideal) (m ((c : Thread nD τ).loc main_arg35)) := by
  show StableHlo.after hostOps0 (W0 m ρ c) (Proc.devRef .tc main_v3) = _
  after_results
  rfl

/-- The destination row, where the messages are summed per destination node. -/
theorem dst_W4 (c : Dev nD) :
    W4 (F := Ideal) m ρ c (Proc.devRef .tc main_v3) = dstK (F := Ideal) (m ((c : Thread nD τ).loc main_arg35)) :=
  calc W4 (F := Ideal) m ρ c (Proc.devRef .tc main_v3)
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = dstK (F := Ideal) (m ((c : Thread nD τ).loc main_arg35)) := dst_W1 m ρ c

/-! ## The host stretches of the first layer, from any contents

Each stretch's result buffers as the stage functions of the buffers the stretch reads. -/

section AnyField
variable {F : FTy → Type} [FloatOps F]

/-- The masked gather's stretch: its result is the masked gather of the node-feature buffer at the source-row buffer. -/
theorem take_of (V : Valuation τ sig (Elt F)) :
    StableHlo.after hostOps0_1 V (Proc.devRef .tc main_v4)
      = takeK128 (F := F) (V (Proc.devRef .tc main_arg0)) (V (Proc.devRef .tc main_v1)) := by
  after_results_simp
  simp only [StableHlo.TRef.ofBuf, StableHlo.TRef.toBuf, cast_eq]
  rfl

/-- The reshape before the edge stage: the edge projection's bias as one row. -/
theorem ber_of (V : Valuation τ sig (Elt F)) :
    StableHlo.after hostOps0_2 V (Proc.devRef .tc main_v5) = rowK128 (F := F) (V (Proc.devRef .tc main_arg3)) := by
  after_results
  rfl

/-- The stretch between the two stages: the messages summed per destination node, plus (1 + eps) times the node
    features. -/
theorem glue_of (V : Valuation τ sig (Elt F)) :
    StableHlo.after hostOps1 V (Proc.devRef .tc main_v14)
      = Cert.Stages.glue128 (F := F) (V (Proc.devRef .tc main_arg0)) (V (Proc.devRef .tc main_arg8))
          (V (Proc.devRef .tc main_v3)) (V (Proc.devRef .tc main_v6)) := by
  after_results
  rfl

/-- The same stretch: the node update's first bias as one row. -/
theorem b1r_of (V : Valuation τ sig (Elt F)) :
    StableHlo.after hostOps1 V (Proc.devRef .tc main_v15) = rowK256 (F := F) (V (Proc.devRef .tc main_arg5)) := by
  after_results
  rfl

/-- The same stretch: the node update's second bias as one row. -/
theorem b2r_of (V : Valuation τ sig (Elt F)) :
    StableHlo.after hostOps1 V (Proc.devRef .tc main_v16) = rowK256 (F := F) (V (Proc.devRef .tc main_arg7)) := by
  after_results
  rfl

end AnyField

/-! ## The first layer's stages, innermost first -/

/-- The gathered source rows when the gather's stretch has run: the masked gather of the node features at the source
    row. -/
theorem take_W2 (c : Dev nD) :
    W2 (F := Ideal) m ρ c (Proc.devRef .tc main_v4)
      = takeK128 (F := Ideal) (m ((c : Thread nD τ).loc main_arg0)) (srcK (F := Ideal) (m ((c : Thread nD τ).loc main_arg35))) := by
  rw [← x_W1 m ρ c, ← src_W1 m ρ c]
  exact take_of (W1 m ρ c)

/-- The gathered source rows at the edge stage's entry. -/
theorem take_W3 (c : Dev nD) :
    W3 (F := Ideal) m ρ c (Proc.devRef .tc main_v4)
      = takeK128 (F := Ideal) (m ((c : Thread nD τ).loc main_arg0)) (srcK (F := Ideal) (m ((c : Thread nD τ).loc main_arg35))) :=
  calc W3 (F := Ideal) m ρ c (Proc.devRef .tc main_v4)
    _ = W2 m ρ c (Proc.devRef .tc main_v4) := by host_keeps hostOps0_2
    _ = _ := take_W2 m ρ c

/-- The edge projection's bias as one row, at the edge stage's entry. -/
theorem ber_W3 (c : Dev nD) :
    W3 (F := Ideal) m ρ c (Proc.devRef .tc main_v5) = rowK128 (F := Ideal) (m ((c : Thread nD τ).loc main_arg3)) := by
  rw [← be_W2 m ρ c]
  exact ber_of (W2 m ρ c)

/-- The messages at the edge stage's exit: the edge stage of the launch arguments and the masked gather. -/
theorem msg_W4 (c : Dev nD) :
    W4 (F := Ideal) m ρ c (Proc.devRef .tc main_v6)
      = Cert.Stages.edge128 (F := Ideal) (m ((c : Thread nD τ).loc main_arg1)) (m ((c : Thread nD τ).loc main_arg2))
          (rowK128 (F := Ideal) (m ((c : Thread nD τ).loc main_arg3)))
          (takeK128 (F := Ideal) (m ((c : Thread nD τ).loc main_arg0)) (srcK (F := Ideal) (m ((c : Thread nD τ).loc main_arg35)))) := by
  rw [← ea_W3 m ρ c, ← We_W3 m ρ c, ← ber_W3 m ρ c, ← take_W3 m ρ c]
  exact (W4_arr m ρ c 4).trans (Cert.KernelIdeal.Region0.arr (V3 m ρ) c)

/-- The node update's input at the update stage's entry. -/
theorem glue_W5 (c : Dev nD) :
    W5 (F := Ideal) m ρ c (Proc.devRef .tc main_v14)
      = Cert.Stages.glue128 (F := Ideal) (m ((c : Thread nD τ).loc main_arg0)) (m ((c : Thread nD τ).loc main_arg8))
          (dstK (F := Ideal) (m ((c : Thread nD τ).loc main_arg35)))
          (Cert.Stages.edge128 (F := Ideal) (m ((c : Thread nD τ).loc main_arg1)) (m ((c : Thread nD τ).loc main_arg2))
            (rowK128 (F := Ideal) (m ((c : Thread nD τ).loc main_arg3)))
            (takeK128 (F := Ideal) (m ((c : Thread nD τ).loc main_arg0)) (srcK (F := Ideal) (m ((c : Thread nD τ).loc main_arg35))))) := by
  rw [← msg_W4 m ρ c, ← dst_W4 m ρ c, ← eps_W4 m ρ c, ← x_W4 m ρ c]
  exact glue_of (W4 m ρ c)

/-- The node update's first bias as one row, at the update stage's entry. -/
theorem b1r_W5 (c : Dev nD) :
    W5 (F := Ideal) m ρ c (Proc.devRef .tc main_v15) = rowK256 (F := Ideal) (m ((c : Thread nD τ).loc main_arg5)) := by
  rw [← b1_W4 m ρ c]
  exact b1r_of (W4 m ρ c)

/-- The node update's second bias as one row, at the update stage's entry. -/
theorem b2r_W5 (c : Dev nD) :
    W5 (F := Ideal) m ρ c (Proc.devRef .tc main_v16) = rowK256 (F := Ideal) (m ((c : Thread nD τ).loc main_arg7)) := by
  rw [← b2_W4 m ρ c]
  exact b2r_of (W4 m ρ c)

/-- After the first layer's two regions the node-feature buffer holds the first layer of the launch arguments. -/
theorem h1 (c : Dev nD) :
    (W6 (F := Ideal) m ρ c (Proc.devRef .tc main_v17)) = layerK128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (srcK (m ((c : Thread nD τ).loc main_arg35))) (dstK (m ((c : Thread nD τ).loc main_arg35))) := by
  unfold layerK128
  rw [← glue_W5 m ρ c, ← W1_W5 m ρ c, ← b1r_W5 m ρ c, ← W2_W5 m ρ c, ← b2r_W5 m ρ c]
  exact (W6_arr m ρ c 5).trans (Cert.KernelIdeal.Region1.arr (V5 m ρ) c)

end Cert.KernelIdeal.Chain0

end
-- ==== Proof.Region2.lean ====
import proofs.«408536_j9234179687244_1_alg».proof.Proof.Gen.KernelIdeal.Frame
import proofs.«408536_j9234179687244_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)

/-! ## One entry of the edge-message array

Entry (e, j) of the message array is max(g(e, j) + (Σ_k ea(e, k) · We(k, j) + b(0, j)), 0): the gathered source row's
entry, plus the edge's sixteen attributes projected onto column j, plus the bias row's entry of that column, cut at zero. -/

/-- The edge-attribute entry the k-th product of message entry `i` reads: the edge's row, attribute `k`. -/
abbrev attrIx (i : S500000x256.Idx) (k : Fin 16) : S500000x16.Idx := fun a => match a with
  | ⟨0, _⟩ => ⟨(i 0).val, (i 0).isLt⟩
  | ⟨1, _⟩ => ⟨k.val, k.isLt⟩
/-- The projection-matrix entry that product reads: row `k`, the message entry's column. -/
abbrev projIx (i : S500000x256.Idx) (k : Fin 16) : S16x256.Idx := fun a => match a with
  | ⟨0, _⟩ => ⟨k.val, k.isLt⟩
  | ⟨1, _⟩ => ⟨(i 1).val, (i 1).isLt⟩
/-- The bias row's entry of the message entry's column. -/
abbrev biasIx (i : S500000x256.Idx) : S1x256.Idx := fun a => match a with
  | ⟨0, _⟩ => ⟨0, Nat.one_pos⟩
  | ⟨1, _⟩ => ⟨(i 1).val, (i 1).isLt⟩

/-- The message array, entry by entry. -/
def msg (ea : (⟨S500000x16, .f32⟩ : BufTy).Contents (Elt Ideal)) (We : (⟨S16x256, .f32⟩ : BufTy).Contents (Elt Ideal))
    (ber : (⟨S1x256, .f32⟩ : BufTy).Contents (Elt Ideal)) (g : (⟨S500000x256, .f32⟩ : BufTy).Contents (Elt Ideal)) :
    (⟨S500000x256, .f32⟩ : BufTy).Contents (Elt Ideal) :=
  fun i => max (g i + ((∑ k : Fin 16, ea (attrIx i k) * We (projIx i k)) + ber (biasIx i))) 0

/-! ## The stage function, entry by entry -/

/-- The left operand's row index in the whole-array product is the output entry's row … -/
theorem lhs_arr_0 (i : S500000x256.Idx) (q : Cert.ReferenceIdeal.dot_S500000x16_S16x256_S500000x256_1_0_0_1_n_n.contr.Idx) :
    (Cert.ReferenceIdeal.dot_S500000x16_S16x256_S500000x256_1_0_0_1_n_n.lhsIdx i q 0).val = (i 0).val := by
  unfold DotDims.lhsIdx
  rw [dif_neg (show ¬(0 : Fin S500000x16.rank) ∈ Cert.ReferenceIdeal.dot_S500000x16_S16x256_S500000x256_1_0_0_1_n_n.lhsBatch by decide), dif_pos (show (0 : Fin S500000x16.rank) ∈ Cert.ReferenceIdeal.dot_S500000x16_S16x256_S500000x256_1_0_0_1_n_n.lhsNonContracting by decide)]
  rfl
/-- … its column index the summation index; -/
theorem lhs_arr_1 (i : S500000x256.Idx) (q : Cert.ReferenceIdeal.dot_S500000x16_S16x256_S500000x256_1_0_0_1_n_n.contr.Idx) :
    (Cert.ReferenceIdeal.dot_S500000x16_S16x256_S500000x256_1_0_0_1_n_n.lhsIdx i q 1).val = (q ⟨0, by decide⟩).val :=
  Cert.ReferenceIdeal.dot_S500000x16_S16x256_S500000x256_1_0_0_1_n_n.lhsIdx_val_of_single rfl i q
/-- the right operand's row index is the summation index … -/
theorem rhs_arr_0 (i : S500000x256.Idx) (q : Cert.ReferenceIdeal.dot_S500000x16_S16x256_S500000x256_1_0_0_1_n_n.contr.Idx) :
    (Cert.ReferenceIdeal.dot_S500000x16_S16x256_S500000x256_1_0_0_1_n_n.rhsIdx i q 0).val = (q ⟨0, by decide⟩).val :=
  Cert.ReferenceIdeal.dot_S500000x16_S16x256_S500000x256_1_0_0_1_n_n.rhsIdx_val_of_single rfl i q
/-- … and its column index the output entry's column. -/
theorem rhs_arr_1 (i : S500000x256.Idx) (q : Cert.ReferenceIdeal.dot_S500000x16_S16x256_S500000x256_1_0_0_1_n_n.contr.Idx) :
    (Cert.ReferenceIdeal.dot_S500000x16_S16x256_S500000x256_1_0_0_1_n_n.rhsIdx i q 1).val = (i 1).val := by
  unfold DotDims.rhsIdx
  rw [dif_neg (show ¬(1 : Fin S16x256.rank) ∈ Cert.ReferenceIdeal.dot_S500000x16_S16x256_S500000x256_1_0_0_1_n_n.rhsBatch by decide), dif_pos (show (1 : Fin S16x256.rank) ∈ Cert.ReferenceIdeal.dot_S500000x16_S16x256_S500000x256_1_0_0_1_n_n.rhsNonContracting by decide)]
  rfl

/-- The whole-array product of the edge attributes with the projection matrix, at an entry: the sum over the sixteen attributes. -/
theorem proj_arr_apply (ea : (⟨S500000x16, .f32⟩ : BufTy).Contents (Elt Ideal)) (We : (⟨S16x256, .f32⟩ : BufTy).Contents (Elt Ideal)) (i : S500000x256.Idx) :
    Host.dotGeneral (F := Ideal) (φ₁ := .f32) (φ₂ := .f32) Cert.ReferenceIdeal.dot_S500000x16_S16x256_S500000x256_1_0_0_1_n_n none ea We i = ∑ k : Fin 16, ea (attrIx i k) * We (projIx i k) := by
  simp only [Host.dotGeneral]
  rw [Ideal.dotGeneral_apply, ← Equiv.sum_comp (ValueIdx.contrEquiv1 Cert.ReferenceIdeal.dot_S500000x16_S16x256_S500000x256_1_0_0_1_n_n 16 rfl rfl).symm]
  refine Finset.sum_congr rfl fun k _ => ?_
  have hk := ValueIdx.contrEquiv1_symm_val Cert.ReferenceIdeal.dot_S500000x16_S16x256_S500000x256_1_0_0_1_n_n 16 rfl rfl k
  have el : Cert.ReferenceIdeal.dot_S500000x16_S16x256_S500000x256_1_0_0_1_n_n.lhsIdx i ((ValueIdx.contrEquiv1 Cert.ReferenceIdeal.dot_S500000x16_S16x256_S500000x256_1_0_0_1_n_n 16 rfl rfl).symm k) = attrIx i k := funext fun a => Fin.ext (by
    match a with
    | ⟨0, _⟩ => exact lhs_arr_0 _ _
    | ⟨1, _⟩ => exact (lhs_arr_1 _ _).trans hk)
  have er : Cert.ReferenceIdeal.dot_S500000x16_S16x256_S500000x256_1_0_0_1_n_n.rhsIdx i ((ValueIdx.contrEquiv1 Cert.ReferenceIdeal.dot_S500000x16_S16x256_S500000x256_1_0_0_1_n_n 16 rfl rfl).symm k) = projIx i k := funext fun a => Fin.ext (by
    match a with
    | ⟨0, _⟩ => exact (rhs_arr_0 _ _).trans hk
    | ⟨1, _⟩ => exact rhs_arr_1 _ _)
  rw [el, er]

/-- The bias row repeated down the rows, at an entry: the row's entry of that column. -/
theorem bias_arr_apply (ber : (⟨S1x256, .f32⟩ : BufTy).Contents (Elt Ideal)) (i : S500000x256.Idx) :
    broadcastInDim S500000x256 ![0, 1] Cert.ReferenceIdeal.Gen.bcast_S1x256_S500000x256_0_1 ber i = ber (biasIx i) :=
  broadcastInDim_apply _ Cert.ReferenceIdeal.Gen.bcast_S1x256_S500000x256_0_1 ber i (biasIx i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

/-- The zero splat, at an entry: zero. -/
theorem zero_arr_apply (i : S500000x256.Idx) :
    broadcastInDim S500000x256 ![] Cert.ReferenceIdeal.Gen.bcast_S_S500000x256 (constant (F := Ideal) Cert.ReferenceIdeal.S_ .f32 0x00000000#32) i = (0 : EReal) := by
  refine (broadcastInDim_apply _ Cert.ReferenceIdeal.Gen.bcast_S_S500000x256 (constant (F := Ideal) Cert.ReferenceIdeal.S_ .f32 0x00000000#32) i (fun a => a.elim0) (fun a => a.elim0)).trans ?_
  exact Ideal.ofBits_zero_f32

/-- The edge-message stage function is `msg`. -/
theorem stage_eq (ea : (⟨S500000x16, .f32⟩ : BufTy).Contents (Elt Ideal)) (We : (⟨S16x256, .f32⟩ : BufTy).Contents (Elt Ideal))
    (ber : (⟨S1x256, .f32⟩ : BufTy).Contents (Elt Ideal)) (g : (⟨S500000x256, .f32⟩ : BufTy).Contents (Elt Ideal)) :
    Cert.Stages.edge256 (F := Ideal) ea We ber g = msg ea We ber g := by
  funext i
  unfold Cert.Stages.edge256 msg
  rw [ValueIdx.maximumf_apply, ValueIdx.addf_apply, ValueIdx.addf_apply, proj_arr_apply, bias_arr_apply, zero_arr_apply]

/-! ## The body's arithmetic at an entry of a block

On a block of 5000 edges the body computes the same expression of its four loaded blocks. -/

/-- The attribute-block entry the k-th product of block entry `y` reads. -/
abbrev attrB (y : S5000x256.Idx) (k : Fin 16) : S5000x16.Idx := fun a => match a with
  | ⟨0, _⟩ => ⟨(y 0).val, (y 0).isLt⟩
  | ⟨1, _⟩ => ⟨k.val, k.isLt⟩
/-- The projection-matrix entry that product reads. -/
abbrev projB (y : S5000x256.Idx) (k : Fin 16) : S16x256.Idx := fun a => match a with
  | ⟨0, _⟩ => ⟨k.val, k.isLt⟩
  | ⟨1, _⟩ => ⟨(y 1).val, (y 1).isLt⟩
/-- The bias row's entry of the block entry's column. -/
abbrev biasB (y : S5000x256.Idx) : S1x256.Idx := fun a => match a with
  | ⟨0, _⟩ => ⟨0, Nat.one_pos⟩
  | ⟨1, _⟩ => ⟨(y 1).val, (y 1).isLt⟩

/-- The left operand's row index in the block product is the output entry's row … -/
theorem lhs_blk_0 (y : S5000x256.Idx) (q : dot_S5000x16_S16x256_S5000x256_1_0_0_1_n_n.contr.Idx) :
    (dot_S5000x16_S16x256_S5000x256_1_0_0_1_n_n.lhsIdx y q 0).val = (y 0).val := by
  unfold DotDims.lhsIdx
  rw [dif_neg (show ¬(0 : Fin S5000x16.rank) ∈ dot_S5000x16_S16x256_S5000x256_1_0_0_1_n_n.lhsBatch by decide), dif_pos (show (0 : Fin S5000x16.rank) ∈ dot_S5000x16_S16x256_S5000x256_1_0_0_1_n_n.lhsNonContracting by decide)]
  rfl
/-- … its column index the summation index; -/
theorem lhs_blk_1 (y : S5000x256.Idx) (q : dot_S5000x16_S16x256_S5000x256_1_0_0_1_n_n.contr.Idx) :
    (dot_S5000x16_S16x256_S5000x256_1_0_0_1_n_n.lhsIdx y q 1).val = (q ⟨0, by decide⟩).val :=
  dot_S5000x16_S16x256_S5000x256_1_0_0_1_n_n.lhsIdx_val_of_single rfl y q
/-- the right operand's row index is the summation index … -/
theorem rhs_blk_0 (y : S5000x256.Idx) (q : dot_S5000x16_S16x256_S5000x256_1_0_0_1_n_n.contr.Idx) :
    (dot_S5000x16_S16x256_S5000x256_1_0_0_1_n_n.rhsIdx y q 0).val = (q ⟨0, by decide⟩).val :=
  dot_S5000x16_S16x256_S5000x256_1_0_0_1_n_n.rhsIdx_val_of_single rfl y q
/-- … and its column index the output entry's column. -/
theorem rhs_blk_1 (y : S5000x256.Idx) (q : dot_S5000x16_S16x256_S5000x256_1_0_0_1_n_n.contr.Idx) :
    (dot_S5000x16_S16x256_S5000x256_1_0_0_1_n_n.rhsIdx y q 1).val = (y 1).val := by
  unfold DotDims.rhsIdx
  rw [dif_neg (show ¬(1 : Fin S16x256.rank) ∈ dot_S5000x16_S16x256_S5000x256_1_0_0_1_n_n.rhsBatch by decide), dif_pos (show (1 : Fin S16x256.rank) ∈ dot_S5000x16_S16x256_S5000x256_1_0_0_1_n_n.rhsNonContracting by decide)]
  rfl

/-- The block product accumulated into zero, at an entry: the sum over the sixteen attributes. -/
theorem proj_blk_apply (x0 : Vec Ideal S5000x16 .f32) (x1 : Vec Ideal S16x256 .f32) (y : S5000x256.Idx) :
    matmul (F := Ideal) (φ₁ := .f32) (φ₂ := .f32) dot_S5000x16_S16x256_S5000x256_1_0_0_1_n_n none x0 x1 (constant S5000x256 .f32 0x00000000#32) y
      = ∑ k : Fin 16, x0 (attrB y k) * x1 (projB y k) := by
  simp only [matmul]
  rw [Ideal.matmul_constant_zero_apply, ← Equiv.sum_comp (ValueIdx.contrEquiv1 dot_S5000x16_S16x256_S5000x256_1_0_0_1_n_n 16 rfl rfl).symm]
  refine Finset.sum_congr rfl fun k _ => ?_
  have hk := ValueIdx.contrEquiv1_symm_val dot_S5000x16_S16x256_S5000x256_1_0_0_1_n_n 16 rfl rfl k
  have el : dot_S5000x16_S16x256_S5000x256_1_0_0_1_n_n.lhsIdx y ((ValueIdx.contrEquiv1 dot_S5000x16_S16x256_S5000x256_1_0_0_1_n_n 16 rfl rfl).symm k) = attrB y k := funext fun a => Fin.ext (by
    match a with
    | ⟨0, _⟩ => exact lhs_blk_0 _ _
    | ⟨1, _⟩ => exact (lhs_blk_1 _ _).trans hk)
  have er : dot_S5000x16_S16x256_S5000x256_1_0_0_1_n_n.rhsIdx y ((ValueIdx.contrEquiv1 dot_S5000x16_S16x256_S5000x256_1_0_0_1_n_n 16 rfl rfl).symm k) = projB y k := funext fun a => Fin.ext (by
    match a with
    | ⟨0, _⟩ => exact (rhs_blk_0 _ _).trans hk
    | ⟨1, _⟩ => exact rhs_blk_1 _ _)
  rw [el, er]

/-- The bias row repeated down the block's rows, at an entry: the row's entry of that column. -/
theorem bias_blk_apply (x2 : Vec Ideal S1x256 .f32) (y : S5000x256.Idx) :
    broadcastTo S5000x256 (shapeCast S1x256 x2 shapeCasts_S1x256_S1x256) broadcasts_S1x256_S5000x256 y = x2 (biasB y) := by
  rw [shapeCast_self]
  exact broadcastTo_apply x2 broadcasts_S1x256_S5000x256 y (biasB y) (fun a => match a with
    | ⟨0, _⟩ => by show 0 = if (1 : Nat) = 1 then 0 else (y 0).val; rw [if_pos rfl]
    | ⟨1, _⟩ => by show (y 1).val = if (256 : Nat) = 1 then 0 else (y 1).val; rw [if_neg (by decide)])

/-- The body's result at an entry of the block. -/
theorem pay_apply (x0 : Vec Ideal S5000x16 .f32) (x1 : Vec Ideal S16x256 .f32) (x2 : Vec Ideal S1x256 .f32) (x3 : Vec Ideal S5000x256 .f32) (y : S5000x256.Idx) :
    k2_pay1 (F := Ideal) x0 x1 x2 x3 y = max (x3 y + ((∑ k : Fin 16, x0 (attrB y k) * x1 (projB y k)) + x2 (biasB y))) 0 := by
  unfold k2_pay1
  rw [ValueIdx.maximumf_apply, ValueIdx.addf_apply, ValueIdx.addf_apply, shapeCast_self, proj_blk_apply, bias_blk_apply, ValueIdx.broadcast_apply]
  exact congrArg (max _) Ideal.ofBits_zero_f32

/-! ## From the blocks to the array

Point `t` of the grid works on edges 5000·t … 5000·t + 4999: the attribute, gathered-row and output windows sit at block-row `t`,
the projection matrix and the bias row are read whole. -/

theorem hz : (![0, 0] : Fin 2 → Nat) = fun _ => 0 := funext fun a => by fin_cases a <;> rfl

/-- The block indices of the five windows at every point of the grid. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

section Reads
variable (V : (c : Dev nD) → (b : Ref sig .tc) → Buf (Elt Ideal) ((c : Thread nD τ).loc b))

/-- The attribute block at point `t` is rows 5000·t … of the attribute array. -/
theorem attr_read (c : Dev nD) (t : Fin cfg2.N) (x : S5000x16.Idx) (k : S500000x16.Idx)
    (h0 : (k 0).val = 5000 * t.val + (x 0).val) (h1 : (k 1).val = (x 1).val) :
    (iblk2 V c 0 t : Vec Ideal S5000x16 .f32) x = (V c main_arg1 : S500000x16.Idx → Elt Ideal .f32) k := by
  obtain ⟨e0, e1, -⟩ := idx_facts t
  unfold iblk2
  rw [View.read_apply]
  show V c main_arg1 _ = V c main_arg1 _
  refine congrArg _ (funext fun a => Fin.ext ?_)
  match a with
  | ⟨0, _⟩ => show win2_0.index t (0 : Fin 2) * 5000 + 1 * (x 0).val = (k 0).val; omega
  | ⟨1, _⟩ => show win2_0.index t (1 : Fin 2) * 16 + 1 * (x 1).val = (k 1).val; omega

/-- The projection-matrix block at every point is the whole matrix. -/
theorem proj_read (c : Dev nD) (t : Fin cfg2.N) (x : S16x256.Idx) :
    (iblk2 V c 1 t : Vec Ideal S16x256 .f32) x = (V c main_arg9 : S16x256.Idx → Elt Ideal .f32) x := by
  obtain ⟨-, -, e0, e1, -⟩ := idx_facts t
  unfold iblk2
  rw [View.read_apply]
  show V c main_arg9 _ = V c main_arg9 _
  refine congrArg _ (funext fun a => Fin.ext ?_)
  match a with
  | ⟨0, _⟩ => show win2_1.index t (0 : Fin 2) * 16 + 1 * (x 0).val = (x 0).val; omega
  | ⟨1, _⟩ => show win2_1.index t (1 : Fin 2) * 256 + 1 * (x 1).val = (x 1).val; omega

/-- The bias block at every point is the whole bias row. -/
theorem bias_read (c : Dev nD) (t : Fin cfg2.N) (x : S1x256.Idx) :
    (iblk2 V c 2 t : Vec Ideal S1x256 .f32) x = (V c main_v19 : S1x256.Idx → Elt Ideal .f32) x := by
  obtain ⟨-, -, -, -, e0, e1, -⟩ := idx_facts t
  unfold iblk2
  rw [View.read_apply]
  show V c main_v19 _ = V c main_v19 _
  refine congrArg _ (funext fun a => Fin.ext ?_)
  match a with
  | ⟨0, _⟩ => show win2_2.index t (0 : Fin 2) * 1 + 1 * (x 0).val = (x 0).val; omega
  | ⟨1, _⟩ => show win2_2.index t (1 : Fin 2) * 256 + 1 * (x 1).val = (x 1).val; omega

/-- The gathered-row block at point `t` is rows 5000·t … of the gathered array. -/
theorem rows_read (c : Dev nD) (t : Fin cfg2.N) (x : S5000x256.Idx) (k : S500000x256.Idx)
    (h0 : (k 0).val = 5000 * t.val + (x 0).val) (h1 : (k 1).val = (x 1).val) :
    (iblk2 V c 3 t : Vec Ideal S5000x256 .f32) x = (V c main_v18 : S500000x256.Idx → Elt Ideal .f32) k := by
  obtain ⟨-, -, -, -, -, -, e0, e1, -⟩ := idx_facts t
  unfold iblk2
  rw [View.read_apply]
  show V c main_v18 _ = V c main_v18 _
  refine congrArg _ (funext fun a => Fin.ext ?_)
  match a with
  | ⟨0, _⟩ => show win2_3.index t (0 : Fin 2) * 5000 + 1 * (x 0).val = (k 0).val; omega
  | ⟨1, _⟩ => show win2_3.index t (1 : Fin 2) * 256 + 1 * (x 1).val = (k 1).val; omega

end Reads

section Blocks
variable (V : (c : Dev nD) → (b : Ref sig .tc) → Buf (Elt Ideal) ((c : Thread nD τ).loc b))

/-- Two message entries whose projected sums agree are equal. -/
theorem cut_congr {g b s s' : EReal} (h : s = s') : max (g + (s + b)) 0 = max (g + (s' + b)) 0 := by rw [h]

/-- The body's result at entry `y` of point `t`'s block is `msg` of the arrays at the entry of row 5000·t + (y's row), y's column. -/
theorem msg_blk (c : Dev nD) (t : Fin cfg2.N) (y : S5000x256.Idx) (i : S500000x256.Idx)
    (h0 : (i 0).val = 5000 * t.val + (y 0).val) (h1 : (i 1).val = (y 1).val) :
    k2_pay1 (F := Ideal) (iblk2 V c 0 t) (iblk2 V c 1 t) (iblk2 V c 2 t) (iblk2 V c 3 t) y
      = msg (V c main_arg1) (V c main_arg9) (V c main_v19) (V c main_v18) i := by
  refine (pay_apply (iblk2 V c 0 t) (iblk2 V c 1 t) (iblk2 V c 2 t) (iblk2 V c 3 t) y).trans ?_
  have eb : biasB y = biasIx i := funext fun a => Fin.ext (by
    match a with
    | ⟨0, _⟩ => rfl
    | ⟨1, _⟩ => exact h1.symm)
  have ep : ∀ k, projB y k = projIx i k := fun k => funext fun a => Fin.ext (by
    match a with
    | ⟨0, _⟩ => rfl
    | ⟨1, _⟩ => exact h1.symm)
  unfold msg
  rw [rows_read V c t y i h0 h1, bias_read V c t (biasB y), eb]
  refine cut_congr (Finset.sum_congr rfl fun k _ => ?_)
  rw [attr_read V c t (attrB y k) (attrIx i k) h0 rfl, proj_read V c t (projB y k), ep k]

/-- What point `t` writes back is block `t` of `msg` of the arrays as the region finds them. -/
theorem flushed_eq (c : Dev nD) (t : Fin cfg2.N) :
    (dat2 (F := Ideal) V c).flushed 4 t
      = ((cfg2.win 4).blk t).view.read (Elt Ideal) (msg (V c main_arg1) (V c main_arg9) (V c main_v19) (V c main_v18)) := by
  show (cfg2.win 4).cut (grid2.coords t) ((dat2 V c).after 4 t) = _
  rw [after2_4]
  unfold out2_4
  rw [View.canon_unit_zero hz]
  simp only [View.ld_unit_zero (S := S5000x16) hz, View.ld_unit_zero (S := S16x256) hz, View.ld_unit_zero (S := S1x256) hz, View.ld_unit_zero (S := S5000x256) hz]
  obtain ⟨-, -, -, -, -, -, -, -, e0, e1⟩ := idx_facts t
  funext y
  show k2_pay1 (F := Ideal) (iblk2 V c 0 t) (iblk2 V c 1 t) (iblk2 V c 2 t) (iblk2 V c 3 t) y
    = msg (V c main_arg1) (V c main_arg9) (V c main_v19) (V c main_v18) (((cfg2.win 4).blk t).view.emb y)
  refine msg_blk V c t y _ ?_ ?_
  · show win2_4.index t (0 : Fin 2) * 5000 + 1 * (y 0).val = 5000 * t.val + (y 0).val; omega
  · show win2_4.index t (1 : Fin 2) * 256 + 1 * (y 1).val = (y 1).val; omega

end Blocks

/-- An entry of the message array is in point `t`'s output block iff each coordinate is in the block's range on its axis. -/
theorem mem_blk (t : Fin cfg2.N) (i : S500000x256.Idx) :
    i ∈ ((cfg2.win 4).blk t).view.set ↔ ∀ a : Fin 2, win2_4.index t a * S5000x256.size a ≤ (i a).val ∧ (i a).val < win2_4.index t a * S5000x256.size a + S5000x256.size a := by
  show i ∈ ((View.whole main_v20).slice (win2_4.rect t)).set ↔ _
  rw [View.set_slice_whole, Rect.mem_set_unit]
  exact Iff.rfl

/-- Every entry of the message array is written back by the point of its edge's block: row r by point r / 5000. -/
theorem covered (i : S500000x256.Idx) : ∃ t : Fin cfg2.N, (cfg2.win 4).flush t = true ∧ i ∈ ((cfg2.win 4).blk t).view.set := by
  have hi0 : (i 0).val < 500000 := (i 0).isLt
  have hi1 : (i 1).val < 256 := (i 1).isLt
  obtain ⟨t, ht⟩ : ∃ t : Fin cfg2.N, t.val = (i 0).val / 5000 := ⟨⟨(i 0).val / 5000, lt_of_lt_of_eq (by omega) N_2.symm⟩, rfl⟩
  obtain ⟨-, -, -, -, -, -, -, -, e0, e1⟩ := idx_facts t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 256 ≤ (i 1).val ∧ (i 1).val < win2_4.index t (1 : Fin 2) * 256 + 256; omega

/-- The second edge region's output array: the edge-message stage of the edge attributes, the projection matrix, the one-row bias and the gathered source rows. It holds whatever the buffers contain when the region is entered. -/
theorem arr (V : (c : Dev nD) → (b : Ref sig .tc) → Buf (Elt Ideal) ((c : Thread nD τ).loc b)) (c : Dev nD) :
    (dat2 (F := Ideal) V c).arrAt 4 cfg2.N = Cert.Stages.edge256 (F := Ideal) (V c main_arg1) (V c main_arg9) (V c main_v19) (V c main_v18) :=
  ((dat2 (F := Ideal) V c).arrAt_eq_of_cover 4 (msg (V c main_arg1) (V c main_arg9) (V c main_v19) (V c main_v18))
    (fun t _ => flushed_eq V c t) covered).trans (stage_eq _ _ _ _).symm

end Cert.KernelIdeal.Region2

end
-- ==== Proof.Region3.lean ====
import proofs.«408536_j9234179687244_1_alg».proof.Proof.Gen.KernelIdeal.Frame
import proofs.«408536_j9234179687244_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The node update, entry by entry -/

/-- One hidden unit for one node: the node's feature row against column `k` of the first weight matrix, plus the first
    bias, cut at zero. -/
def hidden (row : Fin 256 → EReal) (W1 : FVec Ideal S256x256 .f32) (b1 : FVec Ideal S1x256 .f32) (k : Fin 256) : EReal :=
  max ((∑ j : Fin 256, row j * W1 (ix2 j k)) + b1 (ix2 0 k)) 0

/-- One output unit for one node: the node's hidden row against column `q` of the second weight matrix, plus the second
    bias, cut at zero. -/
def unit (row : Fin 256 → EReal) (W1 : FVec Ideal S256x256 .f32) (b1 : FVec Ideal S1x256 .f32) (W2 : FVec Ideal S256x256 .f32)
    (b2 : FVec Ideal S1x256 .f32) (q : Fin 256) : EReal :=
  max ((∑ k : Fin 256, hidden row W1 b1 k * W2 (ix2 k q)) + b2 (ix2 0 q)) 0

/-- The node update of the whole node array: entry (p, q) is output unit `q` of node `p`'s feature row. -/
def G (z : FVec Ideal S50000x256 .f32) (W1 : FVec Ideal S256x256 .f32) (b1 : FVec Ideal S1x256 .f32) (W2 : FVec Ideal S256x256 .f32)
    (b2 : FVec Ideal S1x256 .f32) : FVec Ideal S50000x256 .f32 :=
  fun i => unit (fun j => z (ix2 (i 0) j)) W1 b1 W2 b2 (i 1)

/-! ## The whole-array matrix products read at an entry -/

theorem lhs_arrFirst_0 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin S50000x256.rank) ∈ Cert.ReferenceIdeal.dot_S50000x256_S256x256_S50000x256_1_0_0_1_n_n.lhsBatch by decide), dif_pos (show (0 : Fin S50000x256.rank) ∈ Cert.ReferenceIdeal.dot_S50000x256_S256x256_S50000x256_1_0_0_1_n_n.lhsNonContracting by decide)]
  rfl
theorem lhs_arrFirst_1 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem rhs_arrFirst_0 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem rhs_arrFirst_1 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin S256x256.rank) ∈ Cert.ReferenceIdeal.dot_S50000x256_S256x256_S50000x256_1_0_0_1_n_n.rhsBatch by decide), dif_pos (show (1 : Fin S256x256.rank) ∈ Cert.ReferenceIdeal.dot_S50000x256_S256x256_S50000x256_1_0_0_1_n_n.rhsNonContracting by decide)]
  rfl

/-- Entry (p, q) of the whole-array first product is the sum over the 256 input features. -/
theorem arrFirst_apply (x : FVec Ideal S50000x256 .f32) (w : FVec Ideal S256x256 .f32) (p : Fin 50000) (q : Fin 256) :
    Host.dotGeneral (F := Ideal) Cert.ReferenceIdeal.dot_S50000x256_S256x256_S50000x256_1_0_0_1_n_n none x w (ix2 p q) = ∑ j : Fin 256, x (ix2 p j) * w (ix2 j q) := by
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 p q) ((contrEquiv1 Cert.ReferenceIdeal.dot_S50000x256_S256x256_S50000x256_1_0_0_1_n_n 256 rfl rfl).symm k) = ix2 p k := funext fun a => Fin.ext (by
    match a with
    | ⟨0, _⟩ => exact lhs_arrFirst_0 _ _
    | ⟨1, _⟩ => exact (lhs_arrFirst_1 _ _).trans hk)
  have er : Cert.ReferenceIdeal.dot_S50000x256_S256x256_S50000x256_1_0_0_1_n_n.rhsIdx (ix2 p q) ((contrEquiv1 Cert.ReferenceIdeal.dot_S50000x256_S256x256_S50000x256_1_0_0_1_n_n 256 rfl rfl).symm k) = ix2 k q := funext fun a => Fin.ext (by
    match a with
    | ⟨0, _⟩ => exact (rhs_arrFirst_0 _ _).trans hk
    | ⟨1, _⟩ => exact rhs_arrFirst_1 _ _)
  rw [el, er]

theorem lhs_arrSecond_0 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin S50000x256.rank) ∈ Cert.ReferenceIdeal.dot_S50000x256_S256x256_S50000x256_1_0_0_1_n_n.lhsBatch by decide), dif_pos (show (0 : Fin S50000x256.rank) ∈ Cert.ReferenceIdeal.dot_S50000x256_S256x256_S50000x256_1_0_0_1_n_n.lhsNonContracting by decide)]
  rfl
theorem lhs_arrSecond_1 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem rhs_arrSecond_0 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem rhs_arrSecond_1 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin S256x256.rank) ∈ Cert.ReferenceIdeal.dot_S50000x256_S256x256_S50000x256_1_0_0_1_n_n.rhsBatch by decide), dif_pos (show (1 : Fin S256x256.rank) ∈ Cert.ReferenceIdeal.dot_S50000x256_S256x256_S50000x256_1_0_0_1_n_n.rhsNonContracting by decide)]
  rfl

/-- Entry (p, q) of the whole-array second product is the sum over the 256 hidden units. -/
theorem arrSecond_apply (x : FVec Ideal S50000x256 .f32) (w : FVec Ideal S256x256 .f32) (p : Fin 50000) (q : Fin 256) :
    Host.dotGeneral (F := Ideal) Cert.ReferenceIdeal.dot_S50000x256_S256x256_S50000x256_1_0_0_1_n_n none x w (ix2 p q) = ∑ k : Fin 256, x (ix2 p k) * w (ix2 k q) := by
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 p q) ((contrEquiv1 Cert.ReferenceIdeal.dot_S50000x256_S256x256_S50000x256_1_0_0_1_n_n 256 rfl rfl).symm k) = ix2 p k := funext fun a => Fin.ext (by
    match a with
    | ⟨0, _⟩ => exact lhs_arrSecond_0 _ _
    | ⟨1, _⟩ => exact (lhs_arrSecond_1 _ _).trans hk)
  have er : Cert.ReferenceIdeal.dot_S50000x256_S256x256_S50000x256_1_0_0_1_n_n.rhsIdx (ix2 p q) ((contrEquiv1 Cert.ReferenceIdeal.dot_S50000x256_S256x256_S50000x256_1_0_0_1_n_n 256 rfl rfl).symm k) = ix2 k q := funext fun a => Fin.ext (by
    match a with
    | ⟨0, _⟩ => exact (rhs_arrSecond_0 _ _).trans hk
    | ⟨1, _⟩ => exact rhs_arrSecond_1 _ _)
  rw [el, er]

/-- A one-row matrix stretched over all the rows reads its own entry of the same column. -/
theorem arrBias_apply (b : FVec Ideal S1x256 .f32) (p : Fin 50000) (q : Fin 256) :
    broadcastInDim Cert.ReferenceIdeal.S50000x256 ![0, 1] Cert.ReferenceIdeal.Gen.bcast_S1x256_S50000x256_0_1 b (ix2 p q) = b (ix2 0 q) :=
  broadcastInDim_apply _ Cert.ReferenceIdeal.Gen.bcast_S1x256_S50000x256_0_1 b (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The stretched scalar zero reads zero at every entry. -/
theorem arrZero_apply (i : S50000x256.Idx) :
    broadcastInDim Cert.ReferenceIdeal.S50000x256 ![] Cert.ReferenceIdeal.Gen.bcast_S_S50000x256 (constant (F := Ideal) Cert.ReferenceIdeal.S_ .f32 0x00000000#32) i = 0 :=
  (broadcastInDim_apply _ Cert.ReferenceIdeal.Gen.bcast_S_S50000x256 (constant (F := Ideal) Cert.ReferenceIdeal.S_ .f32 0x00000000#32) i (fun a => a.elim0) (fun a => a.elim0)).trans
    Ideal.ofBits_zero_f32

/-- The first affine map cut at zero, at an entry, is the hidden unit of that node's row. -/
theorem arrHidden_apply (z : FVec Ideal S50000x256 .f32) (W1 : FVec Ideal S256x256 .f32) (b1 : FVec Ideal S1x256 .f32) (p : Fin 50000) (k : Fin 256) :
    maximumf (addf (Host.dotGeneral (F := Ideal) Cert.ReferenceIdeal.dot_S50000x256_S256x256_S50000x256_1_0_0_1_n_n none z W1) (broadcastInDim Cert.ReferenceIdeal.S50000x256 ![0, 1] Cert.ReferenceIdeal.Gen.bcast_S1x256_S50000x256_0_1 b1))
      (broadcastInDim Cert.ReferenceIdeal.S50000x256 ![] Cert.ReferenceIdeal.Gen.bcast_S_S50000x256 (constant (F := Ideal) Cert.ReferenceIdeal.S_ .f32 0x00000000#32)) (ix2 p k)
      = hidden (fun j => z (ix2 p j)) W1 b1 k := by
  rw [maximumf_apply, addf_apply, arrFirst_apply, arrBias_apply, arrZero_apply]
  rfl

/-- The stage function is the entry-by-entry node update. -/
theorem stage_eq (z : FVec Ideal S50000x256 .f32) (W1 : FVec Ideal S256x256 .f32) (b1 : FVec Ideal S1x256 .f32) (W2 : FVec Ideal S256x256 .f32)
    (b2 : FVec Ideal S1x256 .f32) : Cert.Stages.mlp256 (F := Ideal) z W1 b1 W2 b2 = G z W1 b1 W2 b2 := by
  funext i
  obtain ⟨p, q, rfl⟩ : ∃ (p : Fin 50000) (q : Fin 256), i = ix2 p q := ⟨i 0, i 1, eq_ix2 i⟩
  unfold Cert.Stages.mlp256
  rw [maximumf_apply, addf_apply, arrSecond_apply, arrBias_apply, arrZero_apply]
  unfold G unit
  refine congrArg (fun s => max (s + b2 (ix2 0 q)) 0) (Finset.sum_congr rfl fun k _ => ?_)
  rw [arrHidden_apply]

/-! ## The block's matrix products read at an entry -/

theorem lhs_blkFirst_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_blkFirst_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_blkFirst_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_blkFirst_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of a block's first product (accumulated onto zero) is the sum over the 256 input features. -/
theorem blkFirst_apply (x : FVec Ideal S2000x256 .f32) (w : FVec Ideal S256x256 .f32) (p : Fin 2000) (q : Fin 256) :
    matmul dot_S2000x256_S256x256_S2000x256_1_0_0_1_n_n none x w (constant S2000x256 .f32 0x00000000#32) (ix2 p q) = ∑ j : Fin 256, x (ix2 p j) * w (ix2 j q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_blkFirst_0 _ _
    | ⟨1, _⟩ => exact (lhs_blkFirst_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_blkFirst_0 _ _).trans hk
    | ⟨1, _⟩ => exact rhs_blkFirst_1 _ _)
  rw [el, er]

theorem lhs_blkSecond_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_blkSecond_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_blkSecond_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_blkSecond_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of a block's second product (accumulated onto zero) is the sum over the 256 hidden units. -/
theorem blkSecond_apply (x : FVec Ideal S2000x256 .f32) (w : FVec Ideal S256x256 .f32) (p : Fin 2000) (q : Fin 256) :
    matmul dot_S2000x256_S256x256_S2000x256_1_0_0_1_n_n none x w (constant S2000x256 .f32 0x00000000#32) (ix2 p q) = ∑ k : Fin 256, x (ix2 p k) * w (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_blkSecond_0 _ _
    | ⟨1, _⟩ => exact (lhs_blkSecond_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_blkSecond_0 _ _).trans hk
    | ⟨1, _⟩ => exact rhs_blkSecond_1 _ _)
  rw [el, er]

/-- A one-row matrix stretched over the block's rows reads its own entry of the same column. -/
theorem blkBias_apply (b : FVec Ideal S1x256 .f32) (h : S1x256.Broadcasts S2000x256) (p : Fin 2000) (q : Fin 256) :
    broadcastTo S2000x256 b h (ix2 p q) = b (ix2 0 q) :=
  broadcastTo_apply b h (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The splat of the scalar zero reads zero at every entry. -/
theorem blkZero_apply (i : S2000x256.Idx) :
    broadcast S2000x256 (Scalar.ofBits (F := Ideal) .f32 0x00000000#32) i = 0 :=
  Ideal.ofBits_zero_f32

/-- The block's first affine map cut at zero, at an entry, is the hidden unit of that row of the block. -/
theorem blkHidden_apply (x0 : FVec Ideal S2000x256 .f32) (x1 : FVec Ideal S256x256 .f32) (x2 : FVec Ideal S1x256 .f32) (h : S1x256.Broadcasts S2000x256)
    (p : Fin 2000) (k : Fin 256) :
    maximumf (addf (matmul dot_S2000x256_S256x256_S2000x256_1_0_0_1_n_n none x0 x1 (constant S2000x256 .f32 0x00000000#32)) (broadcastTo S2000x256 x2 h))
      (broadcast S2000x256 (Scalar.ofBits (F := Ideal) .f32 0x00000000#32)) (ix2 p k)
      = hidden (fun j => x0 (ix2 p j)) x1 x2 k := by
  rw [maximumf_apply, addf_apply, blkFirst_apply, blkBias_apply, blkZero_apply]
  rfl

/-- The body's arithmetic at an entry of the block: the output unit of that row of the input block. -/
theorem pay_apply (x0 : Vec Ideal S2000x256 .f32) (x1 : Vec Ideal S256x256 .f32) (x2 : Vec Ideal S1x256 .f32) (x3 : Vec Ideal S256x256 .f32)
    (x4 : Vec Ideal S1x256 .f32) (p : Fin 2000) (q : Fin 256) :
    k3_pay1 (F := Ideal) x0 x1 x2 x3 x4 (ix2 p q) = unit (fun j => x0 (ix2 p j)) x1 x2 x3 x4 q := by
  unfold k3_pay1
  simp only [shapeCast_self]
  rw [maximumf_apply, addf_apply, blkSecond_apply, blkBias_apply, blkZero_apply]
  unfold unit
  refine congrArg (fun s => max (s + x4 (ix2 0 q)) 0) (Finset.sum_congr rfl fun k _ => ?_)
  rw [blkHidden_apply]

section Blocks

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node-row window and the output window sit at block row `t`, the weight and bias
    windows at block zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the node-row block at point `t` is row `2000 t + p` of the node array. -/
theorem blk0_apply (c : Dev nD) (t : Fin cfg3.N) (p : Fin 2000) (j : Fin 256) (r : Fin 50000) (hr : r.val = 2000 * t.val + p.val) :
    (iblk3 (F := Ideal) V c 0 t : Vec Ideal S2000x256 .f32) (ix2 p j) = (V c main_v28 : FVec Ideal S50000x256 .f32) (ix2 r j) := by
  obtain ⟨e0, e1, -⟩ := idx_facts t
  unfold iblk3
  rw [View.read_apply]
  show V c main_v28 _ = V c main_v28 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 256 + 1 * j.val = j.val; rw [e1]; omega

/-- Window 1's block is at block index zero and as large as its array: it is the whole first weight matrix. -/
theorem blk1_eq (c : Dev nD) (t : Fin cfg3.N) :
    (iblk3 (F := Ideal) V c 1 t : Vec Ideal S256x256 .f32) = (V c main_arg11 : FVec Ideal S256x256 .f32) := by
  obtain ⟨-, -, e0, e1, -⟩ := idx_facts t
  funext x
  unfold iblk3
  rw [View.read_apply]
  show V c main_arg11 _ = V c main_arg11 x
  congr 1
  funext a
  apply Fin.ext
  match a with
  | ⟨0, _⟩ => show win3_1.index t (0 : Fin 2) * 256 + 1 * (x 0).val = (x 0).val; rw [e0]; omega
  | ⟨1, _⟩ => show win3_1.index t (1 : Fin 2) * 256 + 1 * (x 1).val = (x 1).val; rw [e1]; omega

/-- Window 2's block is at block index zero and as large as its array: it is the whole first bias row. -/
theorem blk2_eq (c : Dev nD) (t : Fin cfg3.N) :
    (iblk3 (F := Ideal) V c 2 t : Vec Ideal S1x256 .f32) = (V c main_v29 : FVec Ideal S1x256 .f32) := by
  obtain ⟨-, -, -, -, e0, e1, -⟩ := idx_facts t
  funext x
  unfold iblk3
  rw [View.read_apply]
  show V c main_v29 _ = V c main_v29 x
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 256 + 1 * (x 1).val = (x 1).val; rw [e1]; omega

/-- Window 3's block is at block index zero and as large as its array: it is the whole second weight matrix. -/
theorem blk3_eq (c : Dev nD) (t : Fin cfg3.N) :
    (iblk3 (F := Ideal) V c 3 t : Vec Ideal S256x256 .f32) = (V c main_arg13 : FVec Ideal S256x256 .f32) := by
  obtain ⟨-, -, -, -, -, -, e0, e1, -⟩ := idx_facts t
  funext x
  unfold iblk3
  rw [View.read_apply]
  show V c main_arg13 _ = V c main_arg13 x
  congr 1
  funext a
  apply Fin.ext
  match a with
  | ⟨0, _⟩ => show win3_3.index t (0 : Fin 2) * 256 + 1 * (x 0).val = (x 0).val; rw [e0]; omega
  | ⟨1, _⟩ => show win3_3.index t (1 : Fin 2) * 256 + 1 * (x 1).val = (x 1).val; rw [e1]; omega

/-- Window 4's block is at block index zero and as large as its array: it is the whole second bias row. -/
theorem blk4_eq (c : Dev nD) (t : Fin cfg3.N) :
    (iblk3 (F := Ideal) V c 4 t : Vec Ideal S1x256 .f32) = (V c main_v30 : FVec Ideal S1x256 .f32) := by
  obtain ⟨-, -, -, -, -, -, -, -, e0, e1, -⟩ := idx_facts t
  funext x
  unfold iblk3
  rw [View.read_apply]
  show V c main_v30 _ = V c main_v30 x
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 256 + 1 * (x 1).val = (x 1).val; rw [e1]; omega

/-- The output unit depends only on the row, the weights, the biases and the column. -/
theorem unit_congr {row row' : Fin 256 → EReal} {W1 W1' : FVec Ideal S256x256 .f32} {b1 b1' : FVec Ideal S1x256 .f32} {W2 W2' : FVec Ideal S256x256 .f32}
    {b2 b2' : FVec Ideal S1x256 .f32} {q q' : Fin 256} (h0 : row = row') (h1 : W1 = W1') (h2 : b1 = b1') (h3 : W2 = W2') (h4 : b2 = b2') (hq : q = q') :
    unit row W1 b1 W2 b2 q = unit row' W1' b1' W2' b2' q' := by
  subst h0 h1 h2 h3 h4 hq; rfl

/-- What point `t` writes back is block `t` of the node update of the arrays the region finds. -/
theorem flushed_eq (c : Dev nD) (t : Fin cfg3.N) :
    (dat3 (F := Ideal) V c).flushed 5 t = ((cfg3.win 5).blk t).view.read (Elt Ideal) (G (V c main_v28) (V c main_arg11) (V c main_v29) (V c main_arg13) (V c main_v30)) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x256) hz, View.ld_unit_zero (S := S1x256) hz, View.ld_unit_zero (S := S256x256) hz]
  funext y
  have hN : cfg3.N = 25 := N_3
  obtain ⟨p, hp⟩ : ∃ p : Fin 2000, p.val = (y 0).val := ⟨⟨(y 0).val, (y 0).isLt⟩, rfl⟩
  obtain ⟨q, hq⟩ : ∃ q : Fin 256, q.val = (y 1).val := ⟨⟨(y 1).val, (y 1).isLt⟩, rfl⟩
  obtain ⟨r, hr⟩ : ∃ r : Fin 50000, r.val = 2000 * t.val + p.val :=
    ⟨⟨2000 * t.val + p.val, by have := t.isLt; have := p.isLt; omega⟩, rfl⟩
  obtain ⟨-, -, -, -, -, -, -, -, -, -, e0, e1⟩ := idx_facts t
  have hy : (cfg3.win 5).xinj (grid3.coords t) y = (ix2 p q : S2000x256.Idx) := funext fun a => Fin.ext (by
    match a with
    | ⟨0, _⟩ => exact hp.symm
    | ⟨1, _⟩ => exact hq.symm)
  have hi : ((cfg3.win 5).blk t).view.emb y = (ix2 r q : S50000x256.Idx) := funext fun a => Fin.ext (by
    match a with
    | ⟨0, _⟩ => show win3_5.index t (0 : Fin 2) * 2000 + 1 * (y 0).val = r.val; rw [e0, hr, hp]; omega
    | ⟨1, _⟩ => show win3_5.index t (1 : Fin 2) * 256 + 1 * (y 1).val = q.val; rw [e1, hq]; omega)
  show k3_pay1 (F := Ideal) (iblk3 V c 0 t) (iblk3 V c 1 t) (iblk3 V c 2 t) (iblk3 V c 3 t) (iblk3 V c 4 t) ((cfg3.win 5).xinj (grid3.coords t) y)
      = G (V c main_v28) (V c main_arg11) (V c main_v29) (V c main_arg13) (V c main_v30) (((cfg3.win 5).blk t).view.emb y)
  rw [hy, hi]
  refine (pay_apply (iblk3 V c 0 t) (iblk3 V c 1 t) (iblk3 V c 2 t) (iblk3 V c 3 t) (iblk3 V c 4 t) p q).trans ?_
  exact unit_congr (funext fun j => blk0_apply V c t p j r hr) (blk1_eq V c t) (blk2_eq V c t) (blk3_eq V c t) (blk4_eq V c t) rfl

/-- An entry of the array lies in point `t`'s block exactly when each coordinate is in the block's range on its axis. -/
theorem mem_blk (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v31).slice (win3_5.rect t)).set ↔ _
  rw [View.set_slice_whole, Rect.mem_set_unit]
  exact Iff.rfl

/-- Every entry of the array is in the block of the point its row falls in: row `r` belongs to point `r / 2000`. -/
theorem cover (i : S50000x256.Idx) : ∃ t : Fin cfg3.N, (cfg3.win 5).flush t = true ∧ i ∈ ((cfg3.win 5).blk t).view.set := by
  have hN : cfg3.N = 25 := N_3
  have h0 : (i 0).val < 50000 := (i 0).isLt
  have h1 : (i 1).val < 256 := (i 1).isLt
  obtain ⟨t, ht⟩ : ∃ t : Fin cfg3.N, t.val = (i 0).val / 2000 := ⟨⟨(i 0).val / 2000, by rw [hN]; omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 2000 ≤ (i 0).val ∧ (i 0).val < win3_5.index t (0 : Fin 2) * 2000 + 2000
    rw [e0, ht]; omega
  | ⟨1, _⟩ =>
    show win3_5.index t (1 : Fin 2) * 256 ≤ (i 1).val ∧ (i 1).val < win3_5.index t (1 : Fin 2) * 256 + 256
    rw [e1]; omega

/-- The region's output array after the whole grid is the node update of the arrays the region finds. -/
theorem final (c : Dev nD) :
    (dat3 (F := Ideal) V c).arrAt 5 cfg3.N = G (V c main_v28) (V c main_arg11) (V c main_v29) (V c main_arg13) (V c main_v30) :=
  (dat3 (F := Ideal) V c).arrAt_eq_of_cover 5 (G (V c main_v28) (V c main_arg11) (V c main_v29) (V c main_arg13) (V c main_v30))
    (fun t _ => flushed_eq V c t) cover

end Blocks

/-- The second node-update region's output array: the two-layer perceptron stage of its input rows, the two weight matrices and the two one-row biases. It holds whatever the buffers contain when the region is entered. -/
theorem arr (V : (c : Dev nD) → (b : Ref sig .tc) → Buf (Elt Ideal) ((c : Thread nD τ).loc b)) (c : Dev nD) :
    (dat3 (F := Ideal) V c).arrAt 5 cfg3.N = Cert.Stages.mlp256 (F := Ideal) (V c main_v28) (V c main_arg11) (V c main_v29) (V c main_arg13) (V c main_v30) :=
  (final V c).trans (stage_eq (V c main_v28) (V c main_arg11) (V c main_v29) (V c main_arg13) (V c main_v30)).symm

end Cert.KernelIdeal.Region3

end
-- ==== Proof.Chain1.lean ====
import proofs.«408536_j9234179687244_1_alg».proof.Proof.Gen.KernelIdeal.Frame
import proofs.«408536_j9234179687244_1_alg».proof.Proof.StagesK
import proofs.«408536_j9234179687244_1_alg».proof.Proof.Region2
import proofs.«408536_j9234179687244_1_alg».proof.Proof.Region3
import Idealize.ShloMosaic.Lib.StableHlo.Run

set_option maxRecDepth 16384

noncomputable section

namespace Cert.KernelIdeal.Chain1

open Cert.KernelIdeal Cert.KernelIdeal.Gen
open Idealize.ShloMosaic Idealize.ShloMosaic.TcCoe Idealize.SL.Sem
open Idealize.ShloMosaic.Pipeline (Dat Cfg Window)

open Cert.KernelIdeal.StagesK

variable (m : (ℓ : Loc nD τ sig) → Buf (Elt Ideal) ℓ) (ρ : Dev nD → PrngReg)

/-! ## A buffer no operation writes

A stretch of host operations rewrites only its operations' result buffers; a kernel region rewrites only its output
array. Every other buffer holds after the segment what it held before. -/

/-- A buffer that no operation of the named host stretch writes holds after the stretch what it held before: each
    operation's result buffer is a different reference. -/
local macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The launch arguments where the second layer reads them

No host operation writes an argument, and a region that reads one through an input window leaves the array as it
entered; so at the boundary where a stage reads it an argument still holds the launch memory's contents. -/

/-- The edge attributes, at the edge stage's entry. -/
theorem ea_W8 (c : Dev nD) : W8 (F := Ideal) m ρ c (Proc.devRef .tc main_arg1) = m ((c : Thread nD τ).loc main_arg1) :=
  calc W8 (F := Ideal) m ρ c (Proc.devRef .tc main_arg1)
    _ = W7 m ρ c (Proc.devRef .tc main_arg1) := by host_keeps hostOps2_1
    _ = W6 m ρ c (Proc.devRef .tc main_arg1) := by host_keeps hostOps2
    _ = W5 m ρ c (Proc.devRef .tc main_arg1) := W6_of_ne m ρ c main_arg1 (by decide)
    _ = W4 m ρ c (Proc.devRef .tc main_arg1) := by host_keeps hostOps1
    _ = W3 m ρ c (Proc.devRef .tc main_arg1) := (W4_arr m ρ c 0).trans (((dat0 (V3 m ρ) c).arrAt_in 0 rfl _).trans (A_eq0 (V3 m ρ) c 0))
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0
    _ = m ((c : Thread nD τ).loc main_arg1) := rfl

/-- The edge projection's weights, at the edge stage's entry. -/
theorem We_W8 (c : Dev nD) : W8 (F := Ideal) m ρ c (Proc.devRef .tc main_arg9) = m ((c : Thread nD τ).loc main_arg9) :=
  calc W8 (F := Ideal) m ρ c (Proc.devRef .tc main_arg9)
    _ = W7 m ρ c (Proc.devRef .tc main_arg9) := by host_keeps hostOps2_1
    _ = W6 m ρ c (Proc.devRef .tc main_arg9) := by host_keeps hostOps2
    _ = W5 m ρ c (Proc.devRef .tc main_arg9) := W6_of_ne m ρ c main_arg9 (by decide)
    _ = W4 m ρ c (Proc.devRef .tc main_arg9) := by host_keeps hostOps1
    _ = W3 m ρ c (Proc.devRef .tc main_arg9) := W4_of_ne m ρ c main_arg9 (by decide)
    _ = W2 m ρ c (Proc.devRef .tc main_arg9) := by host_keeps hostOps0_2
    _ = W1 m ρ c (Proc.devRef .tc main_arg9) := by host_keeps hostOps0_1
    _ = W0 m ρ c (Proc.devRef .tc main_arg9) := by host_keeps hostOps0
    _ = m ((c : Thread nD τ).loc main_arg9) := rfl

/-- The edge projection's bias, where it is reshaped to one row. -/
theorem be_W7 (c : Dev nD) : W7 (F := Ideal) m ρ c (Proc.devRef .tc main_arg10) = m ((c : Thread nD τ).loc main_arg10) :=
  calc W7 (F := Ideal) m ρ c (Proc.devRef .tc main_arg10)
    _ = W6 m ρ c (Proc.devRef .tc main_arg10) := by host_keeps hostOps2
    _ = W5 m ρ c (Proc.devRef .tc main_arg10) := W6_of_ne m ρ c main_arg10 (by decide)
    _ = W4 m ρ c (Proc.devRef .tc main_arg10) := by host_keeps hostOps1
    _ = W3 m ρ c (Proc.devRef .tc main_arg10) := W4_of_ne m ρ c main_arg10 (by decide)
    _ = W2 m ρ c (Proc.devRef .tc main_arg10) := by host_keeps hostOps0_2
    _ = W1 m ρ c (Proc.devRef .tc main_arg10) := by host_keeps hostOps0_1
    _ = W0 m ρ c (Proc.devRef .tc main_arg10) := by host_keeps hostOps0
    _ = m ((c : Thread nD τ).loc main_arg10) := rfl

/-- The node update's first weights, at the update stage's entry. -/
theorem W1_W10 (c : Dev nD) : W10 (F := Ideal) m ρ c (Proc.devRef .tc main_arg11) = m ((c : Thread nD τ).loc main_arg11) :=
  calc W10 (F := Ideal) m ρ c (Proc.devRef .tc main_arg11)
    _ = W9 m ρ c (Proc.devRef .tc main_arg11) := by host_keeps hostOps3
    _ = W8 m ρ c (Proc.devRef .tc main_arg11) := W9_of_ne m ρ c main_arg11 (by decide)
    _ = W7 m ρ c (Proc.devRef .tc main_arg11) := by host_keeps hostOps2_1
    _ = W6 m ρ c (Proc.devRef .tc main_arg11) := by host_keeps hostOps2
    _ = W5 m ρ c (Proc.devRef .tc main_arg11) := W6_of_ne m ρ c main_arg11 (by decide)
    _ = W4 m ρ c (Proc.devRef .tc main_arg11) := by host_keeps hostOps1
    _ = W3 m ρ c (Proc.devRef .tc main_arg11) := W4_of_ne m ρ c main_arg11 (by decide)
    _ = W2 m ρ c (Proc.devRef .tc main_arg11) := by host_keeps hostOps0_2
    _ = W1 m ρ c (Proc.devRef .tc main_arg11) := by host_keeps hostOps0_1
    _ = W0 m ρ c (Proc.devRef .tc main_arg11) := by host_keeps hostOps0
    _ = m ((c : Thread nD τ).loc main_arg11) := rfl

/-- The node update's first bias, where it is reshaped to one row. -/
theorem b1_W9 (c : Dev nD) : W9 (F := Ideal) m ρ c (Proc.devRef .tc main_arg12) = m ((c : Thread nD τ).loc main_arg12) :=
  calc W9 (F := Ideal) m ρ c (Proc.devRef .tc main_arg12)
    _ = W8 m ρ c (Proc.devRef .tc main_arg12) := W9_of_ne m ρ c main_arg12 (by decide)
    _ = W7 m ρ c (Proc.devRef .tc main_arg12) := by host_keeps hostOps2_1
    _ = W6 m ρ c (Proc.devRef .tc main_arg12) := by host_keeps hostOps2
    _ = W5 m ρ c (Proc.devRef .tc main_arg12) := W6_of_ne m ρ c main_arg12 (by decide)
    _ = W4 m ρ c (Proc.devRef .tc main_arg12) := by host_keeps hostOps1
    _ = W3 m ρ c (Proc.devRef .tc main_arg12) := W4_of_ne m ρ c main_arg12 (by decide)
    _ = W2 m ρ c (Proc.devRef .tc main_arg12) := by host_keeps hostOps0_2
    _ = W1 m ρ c (Proc.devRef .tc main_arg12) := by host_keeps hostOps0_1
    _ = W0 m ρ c (Proc.devRef .tc main_arg12) := by host_keeps hostOps0
    _ = m ((c : Thread nD τ).loc main_arg12) := rfl

/-- The node update's second weights, at the update stage's entry. -/
theorem W2_W10 (c : Dev nD) : W10 (F := Ideal) m ρ c (Proc.devRef .tc main_arg13) = m ((c : Thread nD τ).loc main_arg13) :=
  calc W10 (F := Ideal) m ρ c (Proc.devRef .tc main_arg13)
    _ = W9 m ρ c (Proc.devRef .tc main_arg13) := by host_keeps hostOps3
    _ = W8 m ρ c (Proc.devRef .tc main_arg13) := W9_of_ne m ρ c main_arg13 (by decide)
    _ = W7 m ρ c (Proc.devRef .tc main_arg13) := by host_keeps hostOps2_1
    _ = W6 m ρ c (Proc.devRef .tc main_arg13) := by host_keeps hostOps2
    _ = W5 m ρ c (Proc.devRef .tc main_arg13) := W6_of_ne m ρ c main_arg13 (by decide)
    _ = W4 m ρ c (Proc.devRef .tc main_arg13) := by host_keeps hostOps1
    _ = W3 m ρ c (Proc.devRef .tc main_arg13) := W4_of_ne m ρ c main_arg13 (by decide)
    _ = W2 m ρ c (Proc.devRef .tc main_arg13) := by host_keeps hostOps0_2
    _ = W1 m ρ c (Proc.devRef .tc main_arg13) := by host_keeps hostOps0_1
    _ = W0 m ρ c (Proc.devRef .tc main_arg13) := by host_keeps hostOps0
    _ = m ((c : Thread nD τ).loc main_arg13) := rfl

/-- The node update's second bias, where it is reshaped to one row. -/
theorem b2_W9 (c : Dev nD) : W9 (F := Ideal) m ρ c (Proc.devRef .tc main_arg14) = m ((c : Thread nD τ).loc main_arg14) :=
  calc W9 (F := Ideal) m ρ c (Proc.devRef .tc main_arg14)
    _ = W8 m ρ c (Proc.devRef .tc main_arg14) := W9_of_ne m ρ c main_arg14 (by decide)
    _ = W7 m ρ c (Proc.devRef .tc main_arg14) := by host_keeps hostOps2_1
    _ = W6 m ρ c (Proc.devRef .tc main_arg14) := by host_keeps hostOps2
    _ = W5 m ρ c (Proc.devRef .tc main_arg14) := W6_of_ne m ρ c main_arg14 (by decide)
    _ = W4 m ρ c (Proc.devRef .tc main_arg14) := by host_keeps hostOps1
    _ = W3 m ρ c (Proc.devRef .tc main_arg14) := W4_of_ne m ρ c main_arg14 (by decide)
    _ = W2 m ρ c (Proc.devRef .tc main_arg14) := by host_keeps hostOps0_2
    _ = W1 m ρ c (Proc.devRef .tc main_arg14) := by host_keeps hostOps0_1
    _ = W0 m ρ c (Proc.devRef .tc main_arg14) := by host_keeps hostOps0
    _ = m ((c : Thread nD τ).loc main_arg14) := rfl

/-- The self-weight eps, where the node update's input is formed. -/
theorem eps_W9 (c : Dev nD) : W9 (F := Ideal) m ρ c (Proc.devRef .tc main_arg15) = m ((c : Thread nD τ).loc main_arg15) :=
  calc W9 (F := Ideal) m ρ c (Proc.devRef .tc main_arg15)
    _ = W8 m ρ c (Proc.devRef .tc main_arg15) := W9_of_ne m ρ c main_arg15 (by decide)
    _ = W7 m ρ c (Proc.devRef .tc main_arg15) := by host_keeps hostOps2_1
    _ = W6 m ρ c (Proc.devRef .tc main_arg15) := by host_keeps hostOps2
    _ = W5 m ρ c (Proc.devRef .tc main_arg15) := W6_of_ne m ρ c main_arg15 (by decide)
    _ = W4 m ρ c (Proc.devRef .tc main_arg15) := by host_keeps hostOps1
    _ = W3 m ρ c (Proc.devRef .tc main_arg15) := W4_of_ne m ρ c main_arg15 (by decide)
    _ = W2 m ρ c (Proc.devRef .tc main_arg15) := by host_keeps hostOps0_2
    _ = W1 m ρ c (Proc.devRef .tc main_arg15) := by host_keeps hostOps0_1
    _ = W0 m ρ c (Proc.devRef .tc main_arg15) := by host_keeps hostOps0
    _ = m ((c : Thread nD τ).loc main_arg15) := rfl

/-! ## The edge list's two rows

The first stretch of host operations cuts them out of the edge list; no later segment writes them. -/

/-- The source row when the first stretch has run: row 0 of the edge list, as a vector. -/
theorem src_W1 (c : Dev nD) :
    W1 (F := Ideal) m ρ c (Proc.devRef .tc main_v1) = srcK (F := Ideal) (m ((c : Thread nD τ).loc main_arg35)) := by
  show StableHlo.after hostOps0 (W0 m ρ c) (Proc.devRef .tc main_v1) = _
  after_results
  rfl

/-- The destination row when the first stretch has run: row 1 of the edge list, as a vector. -/
theorem dst_W1 (c : Dev nD) :
    W1 (F := Ideal) m ρ c (Proc.devRef .tc main_v3) = dstK (F := Ideal) (m ((c : Thread nD τ).loc main_arg35)) := by
  show StableHlo.after hostOps0 (W0 m ρ c) (Proc.devRef .tc main_v3) = _
  after_results
  rfl

/-- The source row, where the source rows of the layer's input are gathered. -/
theorem src_W6 (c : Dev nD) :
    W6 (F := Ideal) m ρ c (Proc.devRef .tc main_v1) = srcK (F := Ideal) (m ((c : Thread nD τ).loc main_arg35)) :=
  calc W6 (F := Ideal) m ρ c (Proc.devRef .tc main_v1)
    _ = W5 m ρ c (Proc.devRef .tc main_v1) := W6_of_ne m ρ c main_v1 (by decide)
    _ = W4 m ρ c (Proc.devRef .tc main_v1) := by host_keeps hostOps1
    _ = W3 m ρ c (Proc.devRef .tc main_v1) := W4_of_ne m ρ c main_v1 (by decide)
    _ = W2 m ρ c (Proc.devRef .tc main_v1) := by host_keeps hostOps0_2
    _ = W1 m ρ c (Proc.devRef .tc main_v1) := by host_keeps hostOps0_1
    _ = srcK (F := Ideal) (m ((c : Thread nD τ).loc main_arg35)) := src_W1 m ρ c

/-- The destination row, where the messages are summed per destination node. -/
theorem dst_W9 (c : Dev nD) :
    W9 (F := Ideal) m ρ c (Proc.devRef .tc main_v3) = dstK (F := Ideal) (m ((c : Thread nD τ).loc main_arg35)) :=
  calc W9 (F := Ideal) m ρ c (Proc.devRef .tc main_v3)
    _ = W8 m ρ c (Proc.devRef .tc main_v3) := W9_of_ne m ρ c main_v3 (by decide)
    _ = W7 m ρ c (Proc.devRef .tc main_v3) := by host_keeps hostOps2_1
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = dstK (F := Ideal) (m ((c : Thread nD τ).loc main_arg35)) := dst_W1 m ρ c

/-! ## The layer's input

The previous layer's output buffer is written by no segment of this layer: it is carried unopened from the layer's
first boundary to where the node update's input is formed. -/

/-- The layer's input, where the node update's input is formed. -/
theorem in_W9 (c : Dev nD) :
    W9 (F := Ideal) m ρ c (Proc.devRef .tc main_v17) = W6 (F := Ideal) m ρ c (Proc.devRef .tc main_v17) :=
  calc W9 (F := Ideal) m ρ c (Proc.devRef .tc main_v17)
    _ = W8 m ρ c (Proc.devRef .tc main_v17) := W9_of_ne m ρ c main_v17 (by decide)
    _ = W7 m ρ c (Proc.devRef .tc main_v17) := by host_keeps hostOps2_1
    _ = W6 m ρ c (Proc.devRef .tc main_v17) := by host_keeps hostOps2

/-! ## The layer's host stretches, from any contents

Each stretch's result buffers as the stage functions of the buffers the stretch reads. -/

section AnyField
variable {F : FTy → Type} [FloatOps F]

/-- The masked gather's stretch: its result is the masked gather of the layer's input buffer at the source-row buffer. -/
theorem take_of (V : Valuation τ sig (Elt F)) :
    StableHlo.after hostOps2 V (Proc.devRef .tc main_v18)
      = takeK256 (F := F) (V (Proc.devRef .tc main_v17)) (V (Proc.devRef .tc main_v1)) := by
  after_results_simp
  simp only [StableHlo.TRef.ofBuf, StableHlo.TRef.toBuf, cast_eq]
  rfl

/-- The reshape before the edge stage: the edge projection's bias as one row. -/
theorem ber_of (V : Valuation τ sig (Elt F)) :
    StableHlo.after hostOps2_1 V (Proc.devRef .tc main_v19) = rowK256 (F := F) (V (Proc.devRef .tc main_arg10)) := by
  after_results
  rfl

/-- The stretch between the two stages: the messages summed per destination node, plus (1 + eps) times the layer's
    input. -/
theorem glue_of (V : Valuation τ sig (Elt F)) :
    StableHlo.after hostOps3 V (Proc.devRef .tc main_v28)
      = Cert.Stages.glue256 (F := F) (V (Proc.devRef .tc main_v17)) (V (Proc.devRef .tc main_arg15))
          (V (Proc.devRef .tc main_v3)) (V (Proc.devRef .tc main_v20)) := by
  after_results
  rfl

/-- The same stretch: the node update's first bias as one row. -/
theorem b1r_of (V : Valuation τ sig (Elt F)) :
    StableHlo.after hostOps3 V (Proc.devRef .tc main_v29) = rowK256 (F := F) (V (Proc.devRef .tc main_arg12)) := by
  after_results
  rfl

/-- The same stretch: the node update's second bias as one row. -/
theorem b2r_of (V : Valuation τ sig (Elt F)) :
    StableHlo.after hostOps3 V (Proc.devRef .tc main_v30) = rowK256 (F := F) (V (Proc.devRef .tc main_arg14)) := by
  after_results
  rfl

end AnyField

/-! ## The layer's stages, innermost first -/

/-- The gathered source rows when the gather's stretch has run: the masked gather of the layer's input at the source
    row. -/
theorem take_W7 (c : Dev nD) :
    W7 (F := Ideal) m ρ c (Proc.devRef .tc main_v18)
      = takeK256 (F := Ideal) (W6 (F := Ideal) m ρ c (Proc.devRef .tc main_v17)) (srcK (F := Ideal) (m ((c : Thread nD τ).loc main_arg35))) := by
  rw [← src_W6 m ρ c]
  exact take_of (W6 m ρ c)

/-- The gathered source rows at the edge stage's entry. -/
theorem take_W8 (c : Dev nD) :
    W8 (F := Ideal) m ρ c (Proc.devRef .tc main_v18)
      = takeK256 (F := Ideal) (W6 (F := Ideal) m ρ c (Proc.devRef .tc main_v17)) (srcK (F := Ideal) (m ((c : Thread nD τ).loc main_arg35))) :=
  calc W8 (F := Ideal) m ρ c (Proc.devRef .tc main_v18)
    _ = W7 m ρ c (Proc.devRef .tc main_v18) := by host_keeps hostOps2_1
    _ = _ := take_W7 m ρ c

/-- The edge projection's bias as one row, at the edge stage's entry. -/
theorem ber_W8 (c : Dev nD) :
    W8 (F := Ideal) m ρ c (Proc.devRef .tc main_v19) = rowK256 (F := Ideal) (m ((c : Thread nD τ).loc main_arg10)) := by
  rw [← be_W7 m ρ c]
  exact ber_of (W7 m ρ c)

/-- The messages at the edge stage's exit: the edge stage of the launch arguments and the masked gather. -/
theorem msg_W9 (c : Dev nD) :
    W9 (F := Ideal) m ρ c (Proc.devRef .tc main_v20)
      = Cert.Stages.edge256 (F := Ideal) (m ((c : Thread nD τ).loc main_arg1)) (m ((c : Thread nD τ).loc main_arg9))
          (rowK256 (F := Ideal) (m ((c : Thread nD τ).loc main_arg10)))
          (takeK256 (F := Ideal) (W6 (F := Ideal) m ρ c (Proc.devRef .tc main_v17)) (srcK (F := Ideal) (m ((c : Thread nD τ).loc main_arg35)))) := by
  rw [← ea_W8 m ρ c, ← We_W8 m ρ c, ← ber_W8 m ρ c, ← take_W8 m ρ c]
  exact (W9_arr m ρ c 4).trans (Cert.KernelIdeal.Region2.arr (V8 m ρ) c)

/-- The node update's input at the update stage's entry. -/
theorem glue_W10 (c : Dev nD) :
    W10 (F := Ideal) m ρ c (Proc.devRef .tc main_v28)
      = Cert.Stages.glue256 (F := Ideal) (W6 (F := Ideal) m ρ c (Proc.devRef .tc main_v17)) (m ((c : Thread nD τ).loc main_arg15))
          (dstK (F := Ideal) (m ((c : Thread nD τ).loc main_arg35)))
          (Cert.Stages.edge256 (F := Ideal) (m ((c : Thread nD τ).loc main_arg1)) (m ((c : Thread nD τ).loc main_arg9))
            (rowK256 (F := Ideal) (m ((c : Thread nD τ).loc main_arg10)))
            (takeK256 (F := Ideal) (W6 (F := Ideal) m ρ c (Proc.devRef .tc main_v17)) (srcK (F := Ideal) (m ((c : Thread nD τ).loc main_arg35))))) := by
  rw [← msg_W9 m ρ c, ← dst_W9 m ρ c, ← eps_W9 m ρ c, ← in_W9 m ρ c]
  exact glue_of (W9 m ρ c)

/-- The node update's first bias as one row, at the update stage's entry. -/
theorem b1r_W10 (c : Dev nD) :
    W10 (F := Ideal) m ρ c (Proc.devRef .tc main_v29) = rowK256 (F := Ideal) (m ((c : Thread nD τ).loc main_arg12)) := by
  rw [← b1_W9 m ρ c]
  exact b1r_of (W9 m ρ c)

/-- The node update's second bias as one row, at the update stage's entry. -/
theorem b2r_W10 (c : Dev nD) :
    W10 (F := Ideal) m ρ c (Proc.devRef .tc main_v30) = rowK256 (F := Ideal) (m ((c : Thread nD τ).loc main_arg14)) := by
  rw [← b2_W9 m ρ c]
  exact b2r_of (W9 m ρ c)

/-- After the second layer's two regions the node-feature buffer holds the second layer of the first layer's output. -/
theorem h2 (c : Dev nD) :
    (W11 (F := Ideal) m ρ c (Proc.devRef .tc main_v31)) = layerK256 (F := Ideal) (W6 (F := Ideal) m ρ c (Proc.devRef .tc main_v17)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (srcK (m ((c : Thread nD τ).loc main_arg35))) (dstK (m ((c : Thread nD τ).loc main_arg35))) := by
  unfold layerK256
  rw [← glue_W10 m ρ c, ← W1_W10 m ρ c, ← b1r_W10 m ρ c, ← W2_W10 m ρ c, ← b2r_W10 m ρ c]
  exact (W11_arr m ρ c 5).trans (Cert.KernelIdeal.Region3.arr (V10 m ρ) c)

end Cert.KernelIdeal.Chain1

end
-- ==== Proof.Region4.lean ====
import proofs.«408536_j9234179687244_1_alg».proof.Proof.Gen.KernelIdeal.Frame
import proofs.«408536_j9234179687244_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.SL.Sem
open Idealize.ShloMosaic.Pipeline (Dat Cfg Window)

/-! ## One entry of the edge-message array

Entry (e, j) of the message array is max(g(e, j) + (Σ_k ea(e, k) · We(k, j) + b(0, j)), 0): the gathered source row's
entry, plus the edge's sixteen attributes projected onto column j, plus the bias row's entry of that column, cut at zero. -/

/-- The edge-attribute entry the k-th product of message entry `i` reads: the edge's row, attribute `k`. -/
abbrev attrIx (i : S500000x256.Idx) (k : Fin 16) : S500000x16.Idx := fun a => match a with
  | ⟨0, _⟩ => ⟨(i 0).val, (i 0).isLt⟩
  | ⟨1, _⟩ => ⟨k.val, k.isLt⟩
/-- The projection-matrix entry that product reads: row `k`, the message entry's column. -/
abbrev projIx (i : S500000x256.Idx) (k : Fin 16) : S16x256.Idx := fun a => match a with
  | ⟨0, _⟩ => ⟨k.val, k.isLt⟩
  | ⟨1, _⟩ => ⟨(i 1).val, (i 1).isLt⟩
/-- The bias row's entry of the message entry's column. -/
abbrev biasIx (i : S500000x256.Idx) : S1x256.Idx := fun a => match a with
  | ⟨0, _⟩ => ⟨0, Nat.one_pos⟩
  | ⟨1, _⟩ => ⟨(i 1).val, (i 1).isLt⟩

/-- The message array, entry by entry. -/
def msg (ea : (⟨S500000x16, .f32⟩ : BufTy).Contents (Elt Ideal)) (We : (⟨S16x256, .f32⟩ : BufTy).Contents (Elt Ideal))
    (ber : (⟨S1x256, .f32⟩ : BufTy).Contents (Elt Ideal)) (g : (⟨S500000x256, .f32⟩ : BufTy).Contents (Elt Ideal)) :
    (⟨S500000x256, .f32⟩ : BufTy).Contents (Elt Ideal) :=
  fun i => max (g i + ((∑ k : Fin 16, ea (attrIx i k) * We (projIx i k)) + ber (biasIx i))) 0

/-! ## The stage function, entry by entry -/

/-- The left operand's row index in the whole-array product is the output entry's row … -/
theorem lhs_arr_0 (i : S500000x256.Idx) (q : Cert.ReferenceIdeal.dot_S500000x16_S16x256_S500000x256_1_0_0_1_n_n.contr.Idx) :
    (Cert.ReferenceIdeal.dot_S500000x16_S16x256_S500000x256_1_0_0_1_n_n.lhsIdx i q 0).val = (i 0).val := by
  unfold DotDims.lhsIdx
  rw [dif_neg (show ¬(0 : Fin S500000x16.rank) ∈ Cert.ReferenceIdeal.dot_S500000x16_S16x256_S500000x256_1_0_0_1_n_n.lhsBatch by decide), dif_pos (show (0 : Fin S500000x16.rank) ∈ Cert.ReferenceIdeal.dot_S500000x16_S16x256_S500000x256_1_0_0_1_n_n.lhsNonContracting by decide)]
  rfl
/-- … its column index the summation index; -/
theorem lhs_arr_1 (i : S500000x256.Idx) (q : Cert.ReferenceIdeal.dot_S500000x16_S16x256_S500000x256_1_0_0_1_n_n.contr.Idx) :
    (Cert.ReferenceIdeal.dot_S500000x16_S16x256_S500000x256_1_0_0_1_n_n.lhsIdx i q 1).val = (q ⟨0, by decide⟩).val :=
  Cert.ReferenceIdeal.dot_S500000x16_S16x256_S500000x256_1_0_0_1_n_n.lhsIdx_val_of_single rfl i q
/-- the right operand's row index is the summation index … -/
theorem rhs_arr_0 (i : S500000x256.Idx) (q : Cert.ReferenceIdeal.dot_S500000x16_S16x256_S500000x256_1_0_0_1_n_n.contr.Idx) :
    (Cert.ReferenceIdeal.dot_S500000x16_S16x256_S500000x256_1_0_0_1_n_n.rhsIdx i q 0).val = (q ⟨0, by decide⟩).val :=
  Cert.ReferenceIdeal.dot_S500000x16_S16x256_S500000x256_1_0_0_1_n_n.rhsIdx_val_of_single rfl i q
/-- … and its column index the output entry's column. -/
theorem rhs_arr_1 (i : S500000x256.Idx) (q : Cert.ReferenceIdeal.dot_S500000x16_S16x256_S500000x256_1_0_0_1_n_n.contr.Idx) :
    (Cert.ReferenceIdeal.dot_S500000x16_S16x256_S500000x256_1_0_0_1_n_n.rhsIdx i q 1).val = (i 1).val := by
  unfold DotDims.rhsIdx
  rw [dif_neg (show ¬(1 : Fin S16x256.rank) ∈ Cert.ReferenceIdeal.dot_S500000x16_S16x256_S500000x256_1_0_0_1_n_n.rhsBatch by decide), dif_pos (show (1 : Fin S16x256.rank) ∈ Cert.ReferenceIdeal.dot_S500000x16_S16x256_S500000x256_1_0_0_1_n_n.rhsNonContracting by decide)]
  rfl

/-- The whole-array product of the edge attributes with the projection matrix, at an entry: the sum over the sixteen attributes. -/
theorem proj_arr_apply (ea : (⟨S500000x16, .f32⟩ : BufTy).Contents (Elt Ideal)) (We : (⟨S16x256, .f32⟩ : BufTy).Contents (Elt Ideal)) (i : S500000x256.Idx) :
    Host.dotGeneral (F := Ideal) (φ₁ := .f32) (φ₂ := .f32) Cert.ReferenceIdeal.dot_S500000x16_S16x256_S500000x256_1_0_0_1_n_n none ea We i = ∑ k : Fin 16, ea (attrIx i k) * We (projIx i k) := by
  simp only [Host.dotGeneral]
  rw [Ideal.dotGeneral_apply, ← Equiv.sum_comp (ValueIdx.contrEquiv1 Cert.ReferenceIdeal.dot_S500000x16_S16x256_S500000x256_1_0_0_1_n_n 16 rfl rfl).symm]
  refine Finset.sum_congr rfl fun k _ => ?_
  have hk := ValueIdx.contrEquiv1_symm_val Cert.ReferenceIdeal.dot_S500000x16_S16x256_S500000x256_1_0_0_1_n_n 16 rfl rfl k
  have el : Cert.ReferenceIdeal.dot_S500000x16_S16x256_S500000x256_1_0_0_1_n_n.lhsIdx i ((ValueIdx.contrEquiv1 Cert.ReferenceIdeal.dot_S500000x16_S16x256_S500000x256_1_0_0_1_n_n 16 rfl rfl).symm k) = attrIx i k := funext fun a => Fin.ext (by
    match a with
    | ⟨0, _⟩ => exact lhs_arr_0 _ _
    | ⟨1, _⟩ => exact (lhs_arr_1 _ _).trans hk)
  have er : Cert.ReferenceIdeal.dot_S500000x16_S16x256_S500000x256_1_0_0_1_n_n.rhsIdx i ((ValueIdx.contrEquiv1 Cert.ReferenceIdeal.dot_S500000x16_S16x256_S500000x256_1_0_0_1_n_n 16 rfl rfl).symm k) = projIx i k := funext fun a => Fin.ext (by
    match a with
    | ⟨0, _⟩ => exact (rhs_arr_0 _ _).trans hk
    | ⟨1, _⟩ => exact rhs_arr_1 _ _)
  rw [el, er]

/-- The bias row repeated down the rows, at an entry: the row's entry of that column. -/
theorem bias_arr_apply (ber : (⟨S1x256, .f32⟩ : BufTy).Contents (Elt Ideal)) (i : S500000x256.Idx) :
    broadcastInDim S500000x256 ![0, 1] Cert.ReferenceIdeal.Gen.bcast_S1x256_S500000x256_0_1 ber i = ber (biasIx i) :=
  broadcastInDim_apply _ Cert.ReferenceIdeal.Gen.bcast_S1x256_S500000x256_0_1 ber i (biasIx i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

/-- The zero splat, at an entry: zero. -/
theorem zero_arr_apply (i : S500000x256.Idx) :
    broadcastInDim S500000x256 ![] Cert.ReferenceIdeal.Gen.bcast_S_S500000x256 (constant (F := Ideal) Cert.ReferenceIdeal.S_ .f32 0x00000000#32) i = (0 : EReal) := by
  refine (broadcastInDim_apply _ Cert.ReferenceIdeal.Gen.bcast_S_S500000x256 (constant (F := Ideal) Cert.ReferenceIdeal.S_ .f32 0x00000000#32) i (fun a => a.elim0) (fun a => a.elim0)).trans ?_
  exact Ideal.ofBits_zero_f32

/-- The edge-message stage function is `msg`. -/
theorem stage_eq (ea : (⟨S500000x16, .f32⟩ : BufTy).Contents (Elt Ideal)) (We : (⟨S16x256, .f32⟩ : BufTy).Contents (Elt Ideal))
    (ber : (⟨S1x256, .f32⟩ : BufTy).Contents (Elt Ideal)) (g : (⟨S500000x256, .f32⟩ : BufTy).Contents (Elt Ideal)) :
    Cert.Stages.edge256 (F := Ideal) ea We ber g = msg ea We ber g := by
  funext i
  unfold Cert.Stages.edge256 msg
  rw [ValueIdx.maximumf_apply, ValueIdx.addf_apply, ValueIdx.addf_apply, proj_arr_apply, bias_arr_apply, zero_arr_apply]

/-! ## The body's arithmetic at an entry of a block

On a block of 5000 edges the body computes the same expression of its four loaded blocks. -/

/-- The attribute-block entry the k-th product of block entry `y` reads. -/
abbrev attrB (y : S5000x256.Idx) (k : Fin 16) : S5000x16.Idx := fun a => match a with
  | ⟨0, _⟩ => ⟨(y 0).val, (y 0).isLt⟩
  | ⟨1, _⟩ => ⟨k.val, k.isLt⟩
/-- The projection-matrix entry that product reads. -/
abbrev projB (y : S5000x256.Idx) (k : Fin 16) : S16x256.Idx := fun a => match a with
  | ⟨0, _⟩ => ⟨k.val, k.isLt⟩
  | ⟨1, _⟩ => ⟨(y 1).val, (y 1).isLt⟩
/-- The bias row's entry of the block entry's column. -/
abbrev biasB (y : S5000x256.Idx) : S1x256.Idx := fun a => match a with
  | ⟨0, _⟩ => ⟨0, Nat.one_pos⟩
  | ⟨1, _⟩ => ⟨(y 1).val, (y 1).isLt⟩

/-- The left operand's row index in the block product is the output entry's row … -/
theorem lhs_blk_0 (y : S5000x256.Idx) (q : dot_S5000x16_S16x256_S5000x256_1_0_0_1_n_n.contr.Idx) :
    (dot_S5000x16_S16x256_S5000x256_1_0_0_1_n_n.lhsIdx y q 0).val = (y 0).val := by
  unfold DotDims.lhsIdx
  rw [dif_neg (show ¬(0 : Fin S5000x16.rank) ∈ dot_S5000x16_S16x256_S5000x256_1_0_0_1_n_n.lhsBatch by decide), dif_pos (show (0 : Fin S5000x16.rank) ∈ dot_S5000x16_S16x256_S5000x256_1_0_0_1_n_n.lhsNonContracting by decide)]
  rfl
/-- … its column index the summation index; -/
theorem lhs_blk_1 (y : S5000x256.Idx) (q : dot_S5000x16_S16x256_S5000x256_1_0_0_1_n_n.contr.Idx) :
    (dot_S5000x16_S16x256_S5000x256_1_0_0_1_n_n.lhsIdx y q 1).val = (q ⟨0, by decide⟩).val :=
  dot_S5000x16_S16x256_S5000x256_1_0_0_1_n_n.lhsIdx_val_of_single rfl y q
/-- the right operand's row index is the summation index … -/
theorem rhs_blk_0 (y : S5000x256.Idx) (q : dot_S5000x16_S16x256_S5000x256_1_0_0_1_n_n.contr.Idx) :
    (dot_S5000x16_S16x256_S5000x256_1_0_0_1_n_n.rhsIdx y q 0).val = (q ⟨0, by decide⟩).val :=
  dot_S5000x16_S16x256_S5000x256_1_0_0_1_n_n.rhsIdx_val_of_single rfl y q
/-- … and its column index the output entry's column. -/
theorem rhs_blk_1 (y : S5000x256.Idx) (q : dot_S5000x16_S16x256_S5000x256_1_0_0_1_n_n.contr.Idx) :
    (dot_S5000x16_S16x256_S5000x256_1_0_0_1_n_n.rhsIdx y q 1).val = (y 1).val := by
  unfold DotDims.rhsIdx
  rw [dif_neg (show ¬(1 : Fin S16x256.rank) ∈ dot_S5000x16_S16x256_S5000x256_1_0_0_1_n_n.rhsBatch by decide), dif_pos (show (1 : Fin S16x256.rank) ∈ dot_S5000x16_S16x256_S5000x256_1_0_0_1_n_n.rhsNonContracting by decide)]
  rfl

/-- The block product accumulated into zero, at an entry: the sum over the sixteen attributes. -/
theorem proj_blk_apply (x0 : Vec Ideal S5000x16 .f32) (x1 : Vec Ideal S16x256 .f32) (y : S5000x256.Idx) :
    matmul (F := Ideal) (φ₁ := .f32) (φ₂ := .f32) dot_S5000x16_S16x256_S5000x256_1_0_0_1_n_n none x0 x1 (constant S5000x256 .f32 0x00000000#32) y
      = ∑ k : Fin 16, x0 (attrB y k) * x1 (projB y k) := by
  simp only [matmul]
  rw [Ideal.matmul_constant_zero_apply, ← Equiv.sum_comp (ValueIdx.contrEquiv1 dot_S5000x16_S16x256_S5000x256_1_0_0_1_n_n 16 rfl rfl).symm]
  refine Finset.sum_congr rfl fun k _ => ?_
  have hk := ValueIdx.contrEquiv1_symm_val dot_S5000x16_S16x256_S5000x256_1_0_0_1_n_n 16 rfl rfl k
  have el : dot_S5000x16_S16x256_S5000x256_1_0_0_1_n_n.lhsIdx y ((ValueIdx.contrEquiv1 dot_S5000x16_S16x256_S5000x256_1_0_0_1_n_n 16 rfl rfl).symm k) = attrB y k := funext fun a => Fin.ext (by
    match a with
    | ⟨0, _⟩ => exact lhs_blk_0 _ _
    | ⟨1, _⟩ => exact (lhs_blk_1 _ _).trans hk)
  have er : dot_S5000x16_S16x256_S5000x256_1_0_0_1_n_n.rhsIdx y ((ValueIdx.contrEquiv1 dot_S5000x16_S16x256_S5000x256_1_0_0_1_n_n 16 rfl rfl).symm k) = projB y k := funext fun a => Fin.ext (by
    match a with
    | ⟨0, _⟩ => exact (rhs_blk_0 _ _).trans hk
    | ⟨1, _⟩ => exact rhs_blk_1 _ _)
  rw [el, er]

/-- The bias row repeated down the block's rows, at an entry: the row's entry of that column. -/
theorem bias_blk_apply (x2 : Vec Ideal S1x256 .f32) (y : S5000x256.Idx) :
    broadcastTo S5000x256 (shapeCast S1x256 x2 shapeCasts_S1x256_S1x256) broadcasts_S1x256_S5000x256 y = x2 (biasB y) := by
  rw [shapeCast_self]
  exact broadcastTo_apply x2 broadcasts_S1x256_S5000x256 y (biasB y) (fun a => match a with
    | ⟨0, _⟩ => by show 0 = if (1 : Nat) = 1 then 0 else (y 0).val; rw [if_pos rfl]
    | ⟨1, _⟩ => by show (y 1).val = if (256 : Nat) = 1 then 0 else (y 1).val; rw [if_neg (by decide)])

/-- The body's result at an entry of the block. -/
theorem pay_apply (x0 : Vec Ideal S5000x16 .f32) (x1 : Vec Ideal S16x256 .f32) (x2 : Vec Ideal S1x256 .f32) (x3 : Vec Ideal S5000x256 .f32) (y : S5000x256.Idx) :
    k4_pay1 (F := Ideal) x0 x1 x2 x3 y = max (x3 y + ((∑ k : Fin 16, x0 (attrB y k) * x1 (projB y k)) + x2 (biasB y))) 0 := by
  unfold k4_pay1
  rw [ValueIdx.maximumf_apply, ValueIdx.addf_apply, ValueIdx.addf_apply, shapeCast_self, proj_blk_apply, bias_blk_apply, ValueIdx.broadcast_apply]
  exact congrArg (max _) Ideal.ofBits_zero_f32

/-! ## From the blocks to the array

Point `t` of the grid works on edges 5000·t … 5000·t + 4999: the attribute, gathered-row and output windows sit at block-row `t`,
the projection matrix and the bias row are read whole. -/

theorem hz : (![0, 0] : Fin 2 → Nat) = fun _ => 0 := funext fun a => by fin_cases a <;> rfl

/-- The block indices of the five windows at every point of the grid. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

section Reads
variable (V : (c : Dev nD) → (b : Ref sig .tc) → Buf (Elt Ideal) ((c : Thread nD τ).loc b))

/-- The attribute block at point `t` is rows 5000·t … of the attribute array. -/
theorem attr_read (c : Dev nD) (t : Fin cfg4.N) (x : S5000x16.Idx) (k : S500000x16.Idx)
    (h0 : (k 0).val = 5000 * t.val + (x 0).val) (h1 : (k 1).val = (x 1).val) :
    (iblk4 V c 0 t : Vec Ideal S5000x16 .f32) x = (V c main_arg1 : S500000x16.Idx → Elt Ideal .f32) k := by
  obtain ⟨e0, e1, -⟩ := idx_facts t
  unfold iblk4
  rw [View.read_apply]
  show V c main_arg1 _ = V c main_arg1 _
  refine congrArg _ (funext fun a => Fin.ext ?_)
  match a with
  | ⟨0, _⟩ => show win4_0.index t (0 : Fin 2) * 5000 + 1 * (x 0).val = (k 0).val; omega
  | ⟨1, _⟩ => show win4_0.index t (1 : Fin 2) * 16 + 1 * (x 1).val = (k 1).val; omega

/-- The projection-matrix block at every point is the whole matrix. -/
theorem proj_read (c : Dev nD) (t : Fin cfg4.N) (x : S16x256.Idx) :
    (iblk4 V c 1 t : Vec Ideal S16x256 .f32) x = (V c main_arg16 : S16x256.Idx → Elt Ideal .f32) x := by
  obtain ⟨-, -, e0, e1, -⟩ := idx_facts t
  unfold iblk4
  rw [View.read_apply]
  show V c main_arg16 _ = V c main_arg16 _
  refine congrArg _ (funext fun a => Fin.ext ?_)
  match a with
  | ⟨0, _⟩ => show win4_1.index t (0 : Fin 2) * 16 + 1 * (x 0).val = (x 0).val; omega
  | ⟨1, _⟩ => show win4_1.index t (1 : Fin 2) * 256 + 1 * (x 1).val = (x 1).val; omega

/-- The bias block at every point is the whole bias row. -/
theorem bias_read (c : Dev nD) (t : Fin cfg4.N) (x : S1x256.Idx) :
    (iblk4 V c 2 t : Vec Ideal S1x256 .f32) x = (V c main_v33 : S1x256.Idx → Elt Ideal .f32) x := by
  obtain ⟨-, -, -, -, e0, e1, -⟩ := idx_facts t
  unfold iblk4
  rw [View.read_apply]
  show V c main_v33 _ = V c main_v33 _
  refine congrArg _ (funext fun a => Fin.ext ?_)
  match a with
  | ⟨0, _⟩ => show win4_2.index t (0 : Fin 2) * 1 + 1 * (x 0).val = (x 0).val; omega
  | ⟨1, _⟩ => show win4_2.index t (1 : Fin 2) * 256 + 1 * (x 1).val = (x 1).val; omega

/-- The gathered-row block at point `t` is rows 5000·t … of the gathered array. -/
theorem rows_read (c : Dev nD) (t : Fin cfg4.N) (x : S5000x256.Idx) (k : S500000x256.Idx)
    (h0 : (k 0).val = 5000 * t.val + (x 0).val) (h1 : (k 1).val = (x 1).val) :
    (iblk4 V c 3 t : Vec Ideal S5000x256 .f32) x = (V c main_v32 : S500000x256.Idx → Elt Ideal .f32) k := by
  obtain ⟨-, -, -, -, -, -, e0, e1, -⟩ := idx_facts t
  unfold iblk4
  rw [View.read_apply]
  show V c main_v32 _ = V c main_v32 _
  refine congrArg _ (funext fun a => Fin.ext ?_)
  match a with
  | ⟨0, _⟩ => show win4_3.index t (0 : Fin 2) * 5000 + 1 * (x 0).val = (k 0).val; omega
  | ⟨1, _⟩ => show win4_3.index t (1 : Fin 2) * 256 + 1 * (x 1).val = (k 1).val; omega

end Reads

section Blocks
variable (V : (c : Dev nD) → (b : Ref sig .tc) → Buf (Elt Ideal) ((c : Thread nD τ).loc b))

/-- Two message entries whose projected sums agree are equal. -/
theorem cut_congr {g b s s' : EReal} (h : s = s') : max (g + (s + b)) 0 = max (g + (s' + b)) 0 := by rw [h]

/-- The body's result at entry `y` of point `t`'s block is `msg` of the arrays at the entry of row 5000·t + (y's row), y's column. -/
theorem msg_blk (c : Dev nD) (t : Fin cfg4.N) (y : S5000x256.Idx) (i : S500000x256.Idx)
    (h0 : (i 0).val = 5000 * t.val + (y 0).val) (h1 : (i 1).val = (y 1).val) :
    k4_pay1 (F := Ideal) (iblk4 V c 0 t) (iblk4 V c 1 t) (iblk4 V c 2 t) (iblk4 V c 3 t) y
      = msg (V c main_arg1) (V c main_arg16) (V c main_v33) (V c main_v32) i := by
  refine (pay_apply (iblk4 V c 0 t) (iblk4 V c 1 t) (iblk4 V c 2 t) (iblk4 V c 3 t) y).trans ?_
  have eb : biasB y = biasIx i := funext fun a => Fin.ext (by
    match a with
    | ⟨0, _⟩ => rfl
    | ⟨1, _⟩ => exact h1.symm)
  have ep : ∀ k, projB y k = projIx i k := fun k => funext fun a => Fin.ext (by
    match a with
    | ⟨0, _⟩ => rfl
    | ⟨1, _⟩ => exact h1.symm)
  unfold msg
  rw [rows_read V c t y i h0 h1, bias_read V c t (biasB y), eb]
  refine cut_congr (Finset.sum_congr rfl fun k _ => ?_)
  rw [attr_read V c t (attrB y k) (attrIx i k) h0 rfl, proj_read V c t (projB y k), ep k]

/-- What point `t` writes back is block `t` of `msg` of the arrays as the region finds them. -/
theorem flushed_eq (c : Dev nD) (t : Fin cfg4.N) :
    (dat4 (F := Ideal) V c).flushed 4 t
      = ((cfg4.win 4).blk t).view.read (Elt Ideal) (msg (V c main_arg1) (V c main_arg16) (V c main_v33) (V c main_v32)) := by
  show (cfg4.win 4).cut (grid4.coords t) ((dat4 V c).after 4 t) = _
  rw [after4_4]
  unfold out4_4
  rw [View.canon_unit_zero hz]
  simp only [View.ld_unit_zero (S := S5000x16) hz, View.ld_unit_zero (S := S16x256) hz, View.ld_unit_zero (S := S1x256) hz, View.ld_unit_zero (S := S5000x256) hz]
  obtain ⟨-, -, -, -, -, -, -, -, e0, e1⟩ := idx_facts t
  funext y
  show k4_pay1 (F := Ideal) (iblk4 V c 0 t) (iblk4 V c 1 t) (iblk4 V c 2 t) (iblk4 V c 3 t) y
    = msg (V c main_arg1) (V c main_arg16) (V c main_v33) (V c main_v32) (((cfg4.win 4).blk t).view.emb y)
  refine msg_blk V c t y _ ?_ ?_
  · show win4_4.index t (0 : Fin 2) * 5000 + 1 * (y 0).val = 5000 * t.val + (y 0).val; omega
  · show win4_4.index t (1 : Fin 2) * 256 + 1 * (y 1).val = (y 1).val; omega

end Blocks

/-- An entry of the message array is in point `t`'s output block iff each coordinate is in the block's range on its axis. -/
theorem mem_blk (t : Fin cfg4.N) (i : S500000x256.Idx) :
    i ∈ ((cfg4.win 4).blk t).view.set ↔ ∀ a : Fin 2, win4_4.index t a * S5000x256.size a ≤ (i a).val ∧ (i a).val < win4_4.index t a * S5000x256.size a + S5000x256.size a := by
  show i ∈ ((View.whole main_v34).slice (win4_4.rect t)).set ↔ _
  rw [View.set_slice_whole, Rect.mem_set_unit]
  exact Iff.rfl

/-- Every entry of the message array is written back by the point of its edge's block: row r by point r / 5000. -/
theorem covered (i : S500000x256.Idx) : ∃ t : Fin cfg4.N, (cfg4.win 4).flush t = true ∧ i ∈ ((cfg4.win 4).blk t).view.set := by
  have hi0 : (i 0).val < 500000 := (i 0).isLt
  have hi1 : (i 1).val < 256 := (i 1).isLt
  obtain ⟨t, ht⟩ : ∃ t : Fin cfg4.N, t.val = (i 0).val / 5000 := ⟨⟨(i 0).val / 5000, lt_of_lt_of_eq (by omega) N_4.symm⟩, rfl⟩
  obtain ⟨-, -, -, -, -, -, -, -, e0, e1⟩ := idx_facts t
  refine ⟨t, flush4_4 t, ?_⟩
  rw [mem_blk]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 256 ≤ (i 1).val ∧ (i 1).val < win4_4.index t (1 : Fin 2) * 256 + 256; omega

/-- The third edge region's output array: the edge-message stage of the edge attributes, the projection matrix, the one-row bias and the gathered source rows. It holds whatever the buffers contain when the region is entered. -/
theorem arr (V : (c : Dev nD) → (b : Ref sig .tc) → Buf (Elt Ideal) ((c : Thread nD τ).loc b)) (c : Dev nD) :
    (dat4 (F := Ideal) V c).arrAt 4 cfg4.N = Cert.Stages.edge256 (F := Ideal) (V c main_arg1) (V c main_arg16) (V c main_v33) (V c main_v32) :=
  ((dat4 (F := Ideal) V c).arrAt_eq_of_cover 4 (msg (V c main_arg1) (V c main_arg16) (V c main_v33) (V c main_v32))
    (fun t _ => flushed_eq V c t) covered).trans (stage_eq _ _ _ _).symm

end Cert.KernelIdeal.Region4

end
-- ==== Proof.Region5.lean ====
import proofs.«408536_j9234179687244_1_alg».proof.Proof.Gen.KernelIdeal.Frame
import proofs.«408536_j9234179687244_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Region5

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The node update, entry by entry -/

/-- One hidden unit for one node: the node's feature row against column `k` of the first weight matrix, plus the first
    bias, cut at zero. -/
def hidden (row : Fin 256 → EReal) (W1 : FVec Ideal S256x256 .f32) (b1 : FVec Ideal S1x256 .f32) (k : Fin 256) : EReal :=
  max ((∑ j : Fin 256, row j * W1 (ix2 j k)) + b1 (ix2 0 k)) 0

/-- One output unit for one node: the node's hidden row against column `q` of the second weight matrix, plus the second
    bias, cut at zero. -/
def unit (row : Fin 256 → EReal) (W1 : FVec Ideal S256x256 .f32) (b1 : FVec Ideal S1x256 .f32) (W2 : FVec Ideal S256x256 .f32)
    (b2 : FVec Ideal S1x256 .f32) (q : Fin 256) : EReal :=
  max ((∑ k : Fin 256, hidden row W1 b1 k * W2 (ix2 k q)) + b2 (ix2 0 q)) 0

/-- The node update of the whole node array: entry (p, q) is output unit `q` of node `p`'s feature row. -/
def G (z : FVec Ideal S50000x256 .f32) (W1 : FVec Ideal S256x256 .f32) (b1 : FVec Ideal S1x256 .f32) (W2 : FVec Ideal S256x256 .f32)
    (b2 : FVec Ideal S1x256 .f32) : FVec Ideal S50000x256 .f32 :=
  fun i => unit (fun j => z (ix2 (i 0) j)) W1 b1 W2 b2 (i 1)

/-! ## The whole-array matrix products read at an entry -/

theorem lhs_arrFirst_0 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin S50000x256.rank) ∈ Cert.ReferenceIdeal.dot_S50000x256_S256x256_S50000x256_1_0_0_1_n_n.lhsBatch by decide), dif_pos (show (0 : Fin S50000x256.rank) ∈ Cert.ReferenceIdeal.dot_S50000x256_S256x256_S50000x256_1_0_0_1_n_n.lhsNonContracting by decide)]
  rfl
theorem lhs_arrFirst_1 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem rhs_arrFirst_0 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem rhs_arrFirst_1 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin S256x256.rank) ∈ Cert.ReferenceIdeal.dot_S50000x256_S256x256_S50000x256_1_0_0_1_n_n.rhsBatch by decide), dif_pos (show (1 : Fin S256x256.rank) ∈ Cert.ReferenceIdeal.dot_S50000x256_S256x256_S50000x256_1_0_0_1_n_n.rhsNonContracting by decide)]
  rfl

/-- Entry (p, q) of the whole-array first product is the sum over the 256 input features. -/
theorem arrFirst_apply (x : FVec Ideal S50000x256 .f32) (w : FVec Ideal S256x256 .f32) (p : Fin 50000) (q : Fin 256) :
    Host.dotGeneral (F := Ideal) Cert.ReferenceIdeal.dot_S50000x256_S256x256_S50000x256_1_0_0_1_n_n none x w (ix2 p q) = ∑ j : Fin 256, x (ix2 p j) * w (ix2 j q) := by
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 p q) ((contrEquiv1 Cert.ReferenceIdeal.dot_S50000x256_S256x256_S50000x256_1_0_0_1_n_n 256 rfl rfl).symm k) = ix2 p k := funext fun a => Fin.ext (by
    match a with
    | ⟨0, _⟩ => exact lhs_arrFirst_0 _ _
    | ⟨1, _⟩ => exact (lhs_arrFirst_1 _ _).trans hk)
  have er : Cert.ReferenceIdeal.dot_S50000x256_S256x256_S50000x256_1_0_0_1_n_n.rhsIdx (ix2 p q) ((contrEquiv1 Cert.ReferenceIdeal.dot_S50000x256_S256x256_S50000x256_1_0_0_1_n_n 256 rfl rfl).symm k) = ix2 k q := funext fun a => Fin.ext (by
    match a with
    | ⟨0, _⟩ => exact (rhs_arrFirst_0 _ _).trans hk
    | ⟨1, _⟩ => exact rhs_arrFirst_1 _ _)
  rw [el, er]

theorem lhs_arrSecond_0 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin S50000x256.rank) ∈ Cert.ReferenceIdeal.dot_S50000x256_S256x256_S50000x256_1_0_0_1_n_n.lhsBatch by decide), dif_pos (show (0 : Fin S50000x256.rank) ∈ Cert.ReferenceIdeal.dot_S50000x256_S256x256_S50000x256_1_0_0_1_n_n.lhsNonContracting by decide)]
  rfl
theorem lhs_arrSecond_1 (i : S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
theorem rhs_arrSecond_0 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
theorem rhs_arrSecond_1 (i : S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin S256x256.rank) ∈ Cert.ReferenceIdeal.dot_S50000x256_S256x256_S50000x256_1_0_0_1_n_n.rhsBatch by decide), dif_pos (show (1 : Fin S256x256.rank) ∈ Cert.ReferenceIdeal.dot_S50000x256_S256x256_S50000x256_1_0_0_1_n_n.rhsNonContracting by decide)]
  rfl

/-- Entry (p, q) of the whole-array second product is the sum over the 256 hidden units. -/
theorem arrSecond_apply (x : FVec Ideal S50000x256 .f32) (w : FVec Ideal S256x256 .f32) (p : Fin 50000) (q : Fin 256) :
    Host.dotGeneral (F := Ideal) Cert.ReferenceIdeal.dot_S50000x256_S256x256_S50000x256_1_0_0_1_n_n none x w (ix2 p q) = ∑ k : Fin 256, x (ix2 p k) * w (ix2 k q) := by
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 p q) ((contrEquiv1 Cert.ReferenceIdeal.dot_S50000x256_S256x256_S50000x256_1_0_0_1_n_n 256 rfl rfl).symm k) = ix2 p k := funext fun a => Fin.ext (by
    match a with
    | ⟨0, _⟩ => exact lhs_arrSecond_0 _ _
    | ⟨1, _⟩ => exact (lhs_arrSecond_1 _ _).trans hk)
  have er : Cert.ReferenceIdeal.dot_S50000x256_S256x256_S50000x256_1_0_0_1_n_n.rhsIdx (ix2 p q) ((contrEquiv1 Cert.ReferenceIdeal.dot_S50000x256_S256x256_S50000x256_1_0_0_1_n_n 256 rfl rfl).symm k) = ix2 k q := funext fun a => Fin.ext (by
    match a with
    | ⟨0, _⟩ => exact (rhs_arrSecond_0 _ _).trans hk
    | ⟨1, _⟩ => exact rhs_arrSecond_1 _ _)
  rw [el, er]

/-- A one-row matrix stretched over all the rows reads its own entry of the same column. -/
theorem arrBias_apply (b : FVec Ideal S1x256 .f32) (p : Fin 50000) (q : Fin 256) :
    broadcastInDim Cert.ReferenceIdeal.S50000x256 ![0, 1] Cert.ReferenceIdeal.Gen.bcast_S1x256_S50000x256_0_1 b (ix2 p q) = b (ix2 0 q) :=
  broadcastInDim_apply _ Cert.ReferenceIdeal.Gen.bcast_S1x256_S50000x256_0_1 b (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The stretched scalar zero reads zero at every entry. -/
theorem arrZero_apply (i : S50000x256.Idx) :
    broadcastInDim Cert.ReferenceIdeal.S50000x256 ![] Cert.ReferenceIdeal.Gen.bcast_S_S50000x256 (constant (F := Ideal) Cert.ReferenceIdeal.S_ .f32 0x00000000#32) i = 0 :=
  (broadcastInDim_apply _ Cert.ReferenceIdeal.Gen.bcast_S_S50000x256 (constant (F := Ideal) Cert.ReferenceIdeal.S_ .f32 0x00000000#32) i (fun a => a.elim0) (fun a => a.elim0)).trans
    Ideal.ofBits_zero_f32

/-- The first affine map cut at zero, at an entry, is the hidden unit of that node's row. -/
theorem arrHidden_apply (z : FVec Ideal S50000x256 .f32) (W1 : FVec Ideal S256x256 .f32) (b1 : FVec Ideal S1x256 .f32) (p : Fin 50000) (k : Fin 256) :
    maximumf (addf (Host.dotGeneral (F := Ideal) Cert.ReferenceIdeal.dot_S50000x256_S256x256_S50000x256_1_0_0_1_n_n none z W1) (broadcastInDim Cert.ReferenceIdeal.S50000x256 ![0, 1] Cert.ReferenceIdeal.Gen.bcast_S1x256_S50000x256_0_1 b1))
      (broadcastInDim Cert.ReferenceIdeal.S50000x256 ![] Cert.ReferenceIdeal.Gen.bcast_S_S50000x256 (constant (F := Ideal) Cert.ReferenceIdeal.S_ .f32 0x00000000#32)) (ix2 p k)
      = hidden (fun j => z (ix2 p j)) W1 b1 k := by
  rw [maximumf_apply, addf_apply, arrFirst_apply, arrBias_apply, arrZero_apply]
  rfl

/-- The stage function is the entry-by-entry node update. -/
theorem stage_eq (z : FVec Ideal S50000x256 .f32) (W1 : FVec Ideal S256x256 .f32) (b1 : FVec Ideal S1x256 .f32) (W2 : FVec Ideal S256x256 .f32)
    (b2 : FVec Ideal S1x256 .f32) : Cert.Stages.mlp256 (F := Ideal) z W1 b1 W2 b2 = G z W1 b1 W2 b2 := by
  funext i
  obtain ⟨p, q, rfl⟩ : ∃ (p : Fin 50000) (q : Fin 256), i = ix2 p q := ⟨i 0, i 1, eq_ix2 i⟩
  unfold Cert.Stages.mlp256
  rw [maximumf_apply, addf_apply, arrSecond_apply, arrBias_apply, arrZero_apply]
  unfold G unit
  refine congrArg (fun s => max (s + b2 (ix2 0 q)) 0) (Finset.sum_congr rfl fun k _ => ?_)
  rw [arrHidden_apply]

/-! ## The block's matrix products read at an entry -/

theorem lhs_blkFirst_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_blkFirst_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_blkFirst_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_blkFirst_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of a block's first product (accumulated onto zero) is the sum over the 256 input features. -/
theorem blkFirst_apply (x : FVec Ideal S2000x256 .f32) (w : FVec Ideal S256x256 .f32) (p : Fin 2000) (q : Fin 256) :
    matmul dot_S2000x256_S256x256_S2000x256_1_0_0_1_n_n none x w (constant S2000x256 .f32 0x00000000#32) (ix2 p q) = ∑ j : Fin 256, x (ix2 p j) * w (ix2 j q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_blkFirst_0 _ _
    | ⟨1, _⟩ => exact (lhs_blkFirst_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_blkFirst_0 _ _).trans hk
    | ⟨1, _⟩ => exact rhs_blkFirst_1 _ _)
  rw [el, er]

theorem lhs_blkSecond_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_blkSecond_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_blkSecond_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_blkSecond_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of a block's second product (accumulated onto zero) is the sum over the 256 hidden units. -/
theorem blkSecond_apply (x : FVec Ideal S2000x256 .f32) (w : FVec Ideal S256x256 .f32) (p : Fin 2000) (q : Fin 256) :
    matmul dot_S2000x256_S256x256_S2000x256_1_0_0_1_n_n none x w (constant S2000x256 .f32 0x00000000#32) (ix2 p q) = ∑ k : Fin 256, x (ix2 p k) * w (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_blkSecond_0 _ _
    | ⟨1, _⟩ => exact (lhs_blkSecond_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_blkSecond_0 _ _).trans hk
    | ⟨1, _⟩ => exact rhs_blkSecond_1 _ _)
  rw [el, er]

/-- A one-row matrix stretched over the block's rows reads its own entry of the same column. -/
theorem blkBias_apply (b : FVec Ideal S1x256 .f32) (h : S1x256.Broadcasts S2000x256) (p : Fin 2000) (q : Fin 256) :
    broadcastTo S2000x256 b h (ix2 p q) = b (ix2 0 q) :=
  broadcastTo_apply b h (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The splat of the scalar zero reads zero at every entry. -/
theorem blkZero_apply (i : S2000x256.Idx) :
    broadcast S2000x256 (Scalar.ofBits (F := Ideal) .f32 0x00000000#32) i = 0 :=
  Ideal.ofBits_zero_f32

/-- The block's first affine map cut at zero, at an entry, is the hidden unit of that row of the block. -/
theorem blkHidden_apply (x0 : FVec Ideal S2000x256 .f32) (x1 : FVec Ideal S256x256 .f32) (x2 : FVec Ideal S1x256 .f32) (h : S1x256.Broadcasts S2000x256)
    (p : Fin 2000) (k : Fin 256) :
    maximumf (addf (matmul dot_S2000x256_S256x256_S2000x256_1_0_0_1_n_n none x0 x1 (constant S2000x256 .f32 0x00000000#32)) (broadcastTo S2000x256 x2 h))
      (broadcast S2000x256 (Scalar.ofBits (F := Ideal) .f32 0x00000000#32)) (ix2 p k)
      = hidden (fun j => x0 (ix2 p j)) x1 x2 k := by
  rw [maximumf_apply, addf_apply, blkFirst_apply, blkBias_apply, blkZero_apply]
  rfl

/-- The body's arithmetic at an entry of the block: the output unit of that row of the input block. -/
theorem pay_apply (x0 : Vec Ideal S2000x256 .f32) (x1 : Vec Ideal S256x256 .f32) (x2 : Vec Ideal S1x256 .f32) (x3 : Vec Ideal S256x256 .f32)
    (x4 : Vec Ideal S1x256 .f32) (p : Fin 2000) (q : Fin 256) :
    k5_pay1 (F := Ideal) x0 x1 x2 x3 x4 (ix2 p q) = unit (fun j => x0 (ix2 p j)) x1 x2 x3 x4 q := by
  unfold k5_pay1
  simp only [shapeCast_self]
  rw [maximumf_apply, addf_apply, blkSecond_apply, blkBias_apply, blkZero_apply]
  unfold unit
  refine congrArg (fun s => max (s + x4 (ix2 0 q)) 0) (Finset.sum_congr rfl fun k _ => ?_)
  rw [blkHidden_apply]

section Blocks

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the node-row window and the output window sit at block row `t`, the weight and bias
    windows at block zero. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `p` of the node-row block at point `t` is row `2000 t + p` of the node array. -/
theorem blk0_apply (c : Dev nD) (t : Fin cfg5.N) (p : Fin 2000) (j : Fin 256) (r : Fin 50000) (hr : r.val = 2000 * t.val + p.val) :
    (iblk5 (F := Ideal) V c 0 t : Vec Ideal S2000x256 .f32) (ix2 p j) = (V c main_v42 : FVec Ideal S50000x256 .f32) (ix2 r j) := by
  obtain ⟨e0, e1, -⟩ := idx_facts t
  unfold iblk5
  rw [View.read_apply]
  show V c main_v42 _ = V c main_v42 _
  congr 1
  funext a
  apply Fin.ext
  match a with
  | ⟨0, _⟩ => show win5_0.index t (0 : Fin 2) * 2000 + 1 * p.val = r.val; rw [e0, hr]; omega
  | ⟨1, _⟩ => show win5_0.index t (1 : Fin 2) * 256 + 1 * j.val = j.val; rw [e1]; omega

/-- Window 1's block is at block index zero and as large as its array: it is the whole first weight matrix. -/
theorem blk1_eq (c : Dev nD) (t : Fin cfg5.N) :
    (iblk5 (F := Ideal) V c 1 t : Vec Ideal S256x256 .f32) = (V c main_arg18 : FVec Ideal S256x256 .f32) := by
  obtain ⟨-, -, e0, e1, -⟩ := idx_facts t
  funext x
  unfold iblk5
  rw [View.read_apply]
  show V c main_arg18 _ = V c main_arg18 x
  congr 1
  funext a
  apply Fin.ext
  match a with
  | ⟨0, _⟩ => show win5_1.index t (0 : Fin 2) * 256 + 1 * (x 0).val = (x 0).val; rw [e0]; omega
  | ⟨1, _⟩ => show win5_1.index t (1 : Fin 2) * 256 + 1 * (x 1).val = (x 1).val; rw [e1]; omega

/-- Window 2's block is at block index zero and as large as its array: it is the whole first bias row. -/
theorem blk2_eq (c : Dev nD) (t : Fin cfg5.N) :
    (iblk5 (F := Ideal) V c 2 t : Vec Ideal S1x256 .f32) = (V c main_v43 : FVec Ideal S1x256 .f32) := by
  obtain ⟨-, -, -, -, e0, e1, -⟩ := idx_facts t
  funext x
  unfold iblk5
  rw [View.read_apply]
  show V c main_v43 _ = V c main_v43 x
  congr 1
  funext a
  apply Fin.ext
  match a with
  | ⟨0, _⟩ => show win5_2.index t (0 : Fin 2) * 1 + 1 * (x 0).val = (x 0).val; rw [e0]; omega
  | ⟨1, _⟩ => show win5_2.index t (1 : Fin 2) * 256 + 1 * (x 1).val = (x 1).val; rw [e1]; omega

/-- Window 3's block is at block index zero and as large as its array: it is the whole second weight matrix. -/
theorem blk3_eq (c : Dev nD) (t : Fin cfg5.N) :
    (iblk5 (F := Ideal) V c 3 t : Vec Ideal S256x256 .f32) = (V c main_arg20 : FVec Ideal S256x256 .f32) := by
  obtain ⟨-, -, -, -, -, -, e0, e1, -⟩ := idx_facts t
  funext x
  unfold iblk5
  rw [View.read_apply]
  show V c main_arg20 _ = V c main_arg20 x
  congr 1
  funext a
  apply Fin.ext
  match a with
  | ⟨0, _⟩ => show win5_3.index t (0 : Fin 2) * 256 + 1 * (x 0).val = (x 0).val; rw [e0]; omega
  | ⟨1, _⟩ => show win5_3.index t (1 : Fin 2) * 256 + 1 * (x 1).val = (x 1).val; rw [e1]; omega

/-- Window 4's block is at block index zero and as large as its array: it is the whole second bias row. -/
theorem blk4_eq (c : Dev nD) (t : Fin cfg5.N) :
    (iblk5 (F := Ideal) V c 4 t : Vec Ideal S1x256 .f32) = (V c main_v44 : FVec Ideal S1x256 .f32) := by
  obtain ⟨-, -, -, -, -, -, -, -, e0, e1, -⟩ := idx_facts t
  funext x
  unfold iblk5
  rw [View.read_apply]
  show V c main_v44 _ = V c main_v44 x
  congr 1
  funext a
  apply Fin.ext
  match a with
  | ⟨0, _⟩ => show win5_4.index t (0 : Fin 2) * 1 + 1 * (x 0).val = (x 0).val; rw [e0]; omega
  | ⟨1, _⟩ => show win5_4.index t (1 : Fin 2) * 256 + 1 * (x 1).val = (x 1).val; rw [e1]; omega

/-- The output unit depends only on the row, the weights, the biases and the column. -/
theorem unit_congr {row row' : Fin 256 → EReal} {W1 W1' : FVec Ideal S256x256 .f32} {b1 b1' : FVec Ideal S1x256 .f32} {W2 W2' : FVec Ideal S256x256 .f32}
    {b2 b2' : FVec Ideal S1x256 .f32} {q q' : Fin 256} (h0 : row = row') (h1 : W1 = W1') (h2 : b1 = b1') (h3 : W2 = W2') (h4 : b2 = b2') (hq : q = q') :
    unit row W1 b1 W2 b2 q = unit row' W1' b1' W2' b2' q' := by
  subst h0 h1 h2 h3 h4 hq; rfl

/-- What point `t` writes back is block `t` of the node update of the arrays the region finds. -/
theorem flushed_eq (c : Dev nD) (t : Fin cfg5.N) :
    (dat5 (F := Ideal) V c).flushed 5 t = ((cfg5.win 5).blk t).view.read (Elt Ideal) (G (V c main_v42) (V c main_arg18) (V c main_v43) (V c main_arg20) (V c main_v44)) := by
  show (cfg5.win 5).cut (grid5.coords t) ((dat5 V c).after 5 t) = _
  rw [after5_5]
  unfold out5_5
  rw [View.canon_unit_zero hz]
  simp only [View.ld_unit_zero (S := S2000x256) hz, View.ld_unit_zero (S := S256x256) hz, View.ld_unit_zero (S := S1x256) hz, View.ld_unit_zero (S := S256x256) hz]
  funext y
  have hN : cfg5.N = 25 := N_5
  obtain ⟨p, hp⟩ : ∃ p : Fin 2000, p.val = (y 0).val := ⟨⟨(y 0).val, (y 0).isLt⟩, rfl⟩
  obtain ⟨q, hq⟩ : ∃ q : Fin 256, q.val = (y 1).val := ⟨⟨(y 1).val, (y 1).isLt⟩, rfl⟩
  obtain ⟨r, hr⟩ : ∃ r : Fin 50000, r.val = 2000 * t.val + p.val :=
    ⟨⟨2000 * t.val + p.val, by have := t.isLt; have := p.isLt; omega⟩, rfl⟩
  obtain ⟨-, -, -, -, -, -, -, -, -, -, e0, e1⟩ := idx_facts t
  have hy : (cfg5.win 5).xinj (grid5.coords t) y = (ix2 p q : S2000x256.Idx) := funext fun a => Fin.ext (by
    match a with
    | ⟨0, _⟩ => exact hp.symm
    | ⟨1, _⟩ => exact hq.symm)
  have hi : ((cfg5.win 5).blk t).view.emb y = (ix2 r q : S50000x256.Idx) := funext fun a => Fin.ext (by
    match a with
    | ⟨0, _⟩ => show win5_5.index t (0 : Fin 2) * 2000 + 1 * (y 0).val = r.val; rw [e0, hr, hp]; omega
    | ⟨1, _⟩ => show win5_5.index t (1 : Fin 2) * 256 + 1 * (y 1).val = q.val; rw [e1, hq]; omega)
  show k5_pay1 (F := Ideal) (iblk5 V c 0 t) (iblk5 V c 1 t) (iblk5 V c 2 t) (iblk5 V c 3 t) (iblk5 V c 4 t) ((cfg5.win 5).xinj (grid5.coords t) y)
      = G (V c main_v42) (V c main_arg18) (V c main_v43) (V c main_arg20) (V c main_v44) (((cfg5.win 5).blk t).view.emb y)
  rw [hy, hi]
  refine (pay_apply (iblk5 V c 0 t) (iblk5 V c 1 t) (iblk5 V c 2 t) (iblk5 V c 3 t) (iblk5 V c 4 t) p q).trans ?_
  exact unit_congr (funext fun j => blk0_apply V c t p j r hr) (blk1_eq V c t) (blk2_eq V c t) (blk3_eq V c t) (blk4_eq V c t) rfl

/-- An entry of the array lies in point `t`'s block exactly when each coordinate is in the block's range on its axis. -/
theorem mem_blk (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v45).slice (win5_5.rect t)).set ↔ _
  rw [View.set_slice_whole, Rect.mem_set_unit]
  exact Iff.rfl

/-- Every entry of the array is in the block of the point its row falls in: row `r` belongs to point `r / 2000`. -/
theorem cover (i : S50000x256.Idx) : ∃ t : Fin cfg5.N, (cfg5.win 5).flush t = true ∧ i ∈ ((cfg5.win 5).blk t).view.set := by
  have hN : cfg5.N = 25 := N_5
  have h0 : (i 0).val < 50000 := (i 0).isLt
  have h1 : (i 1).val < 256 := (i 1).isLt
  obtain ⟨t, ht⟩ : ∃ t : Fin cfg5.N, t.val = (i 0).val / 2000 := ⟨⟨(i 0).val / 2000, by rw [hN]; omega⟩, rfl⟩
  obtain ⟨-, -, -, -, -, -, -, -, -, -, e0, e1⟩ := idx_facts t
  refine ⟨t, flush5_5 t, ?_⟩
  rw [mem_blk]
  intro a
  match a with
  | ⟨0, _⟩ =>
    show win5_5.index t (0 : Fin 2) * 2000 ≤ (i 0).val ∧ (i 0).val < win5_5.index t (0 : Fin 2) * 2000 + 2000
    rw [e0, ht]; omega
  | ⟨1, _⟩ =>
    show win5_5.index t (1 : Fin 2) * 256 ≤ (i 1).val ∧ (i 1).val < win5_5.index t (1 : Fin 2) * 256 + 256
    rw [e1]; omega

/-- The region's output array after the whole grid is the node update of the arrays the region finds. -/
theorem final (c : Dev nD) :
    (dat5 (F := Ideal) V c).arrAt 5 cfg5.N = G (V c main_v42) (V c main_arg18) (V c main_v43) (V c main_arg20) (V c main_v44) :=
  (dat5 (F := Ideal) V c).arrAt_eq_of_cover 5 (G (V c main_v42) (V c main_arg18) (V c main_v43) (V c main_arg20) (V c main_v44))
    (fun t _ => flushed_eq V c t) cover

end Blocks

/-- The third node-update region's output array: the two-layer perceptron stage of its input rows, the two weight matrices and the two one-row biases. It holds whatever the buffers contain when the region is entered. -/
theorem arr (V : (c : Dev nD) → (b : Ref sig .tc) → Buf (Elt Ideal) ((c : Thread nD τ).loc b)) (c : Dev nD) :
    (dat5 (F := Ideal) V c).arrAt 5 cfg5.N = Cert.Stages.mlp256 (F := Ideal) (V c main_v42) (V c main_arg18) (V c main_v43) (V c main_arg20) (V c main_v44) :=
  (final V c).trans (stage_eq (V c main_v42) (V c main_arg18) (V c main_v43) (V c main_arg20) (V c main_v44)).symm

end Cert.KernelIdeal.Region5

end
-- ==== Proof.Chain2.lean ====
import proofs.«408536_j9234179687244_1_alg».proof.Proof.Gen.KernelIdeal.Frame
import proofs.«408536_j9234179687244_1_alg».proof.Proof.StagesK
import proofs.«408536_j9234179687244_1_alg».proof.Proof.Region4
import proofs.«408536_j9234179687244_1_alg».proof.Proof.Region5
import Idealize.ShloMosaic.Lib.StableHlo.Run

set_option maxRecDepth 16384

noncomputable section

namespace Cert.KernelIdeal.Chain2

open Cert.KernelIdeal Cert.KernelIdeal.Gen
open Idealize.ShloMosaic Idealize.ShloMosaic.TcCoe Idealize.SL.Sem
open Idealize.ShloMosaic.Pipeline (Dat Cfg Window)

open Cert.KernelIdeal.StagesK

variable (m : (ℓ : Loc nD τ sig) → Buf (Elt Ideal) ℓ) (ρ : Dev nD → PrngReg)

/-! ## A buffer no operation writes

A stretch of host operations rewrites only its operations' result buffers; a kernel region rewrites only its output
array. Every other buffer holds after the segment what it held before. -/

/-- A buffer that no operation of the named host stretch writes holds after the stretch what it held before: each
    operation's result buffer is a different reference. -/
local macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The launch arguments where the third layer reads them

No host operation writes an argument, and a region that reads one through an input window leaves the array as it
entered; so at the boundary where a stage reads it an argument still holds the launch memory's contents. -/

/-- The edge attributes, at the edge stage's entry. -/
theorem ea_W13 (c : Dev nD) : W13 (F := Ideal) m ρ c (Proc.devRef .tc main_arg1) = m ((c : Thread nD τ).loc main_arg1) :=
  calc W13 (F := Ideal) m ρ c (Proc.devRef .tc main_arg1)
    _ = W12 m ρ c (Proc.devRef .tc main_arg1) := by host_keeps hostOps4_1
    _ = W11 m ρ c (Proc.devRef .tc main_arg1) := by host_keeps hostOps4
    _ = W10 m ρ c (Proc.devRef .tc main_arg1) := W11_of_ne m ρ c main_arg1 (by decide)
    _ = W9 m ρ c (Proc.devRef .tc main_arg1) := by host_keeps hostOps3
    _ = W8 m ρ c (Proc.devRef .tc main_arg1) := (W9_arr m ρ c 0).trans (((dat2 (V8 m ρ) c).arrAt_in 0 rfl _).trans (A_eq2 (V8 m ρ) c 0))
    _ = W7 m ρ c (Proc.devRef .tc main_arg1) := by host_keeps hostOps2_1
    _ = W6 m ρ c (Proc.devRef .tc main_arg1) := by host_keeps hostOps2
    _ = W5 m ρ c (Proc.devRef .tc main_arg1) := W6_of_ne m ρ c main_arg1 (by decide)
    _ = W4 m ρ c (Proc.devRef .tc main_arg1) := by host_keeps hostOps1
    _ = W3 m ρ c (Proc.devRef .tc main_arg1) := (W4_arr m ρ c 0).trans (((dat0 (V3 m ρ) c).arrAt_in 0 rfl _).trans (A_eq0 (V3 m ρ) c 0))
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0
    _ = m ((c : Thread nD τ).loc main_arg1) := rfl

/-- The edge projection's weights, at the edge stage's entry. -/
theorem We_W13 (c : Dev nD) : W13 (F := Ideal) m ρ c (Proc.devRef .tc main_arg16) = m ((c : Thread nD τ).loc main_arg16) :=
  calc W13 (F := Ideal) m ρ c (Proc.devRef .tc main_arg16)
    _ = W12 m ρ c (Proc.devRef .tc main_arg16) := by host_keeps hostOps4_1
    _ = W11 m ρ c (Proc.devRef .tc main_arg16) := by host_keeps hostOps4
    _ = W10 m ρ c (Proc.devRef .tc main_arg16) := W11_of_ne m ρ c main_arg16 (by decide)
    _ = W9 m ρ c (Proc.devRef .tc main_arg16) := by host_keeps hostOps3
    _ = W8 m ρ c (Proc.devRef .tc main_arg16) := W9_of_ne m ρ c main_arg16 (by decide)
    _ = W7 m ρ c (Proc.devRef .tc main_arg16) := by host_keeps hostOps2_1
    _ = W6 m ρ c (Proc.devRef .tc main_arg16) := by host_keeps hostOps2
    _ = W5 m ρ c (Proc.devRef .tc main_arg16) := W6_of_ne m ρ c main_arg16 (by decide)
    _ = W4 m ρ c (Proc.devRef .tc main_arg16) := by host_keeps hostOps1
    _ = W3 m ρ c (Proc.devRef .tc main_arg16) := W4_of_ne m ρ c main_arg16 (by decide)
    _ = W2 m ρ c (Proc.devRef .tc main_arg16) := by host_keeps hostOps0_2
    _ = W1 m ρ c (Proc.devRef .tc main_arg16) := by host_keeps hostOps0_1
    _ = W0 m ρ c (Proc.devRef .tc main_arg16) := by host_keeps hostOps0
    _ = m ((c : Thread nD τ).loc main_arg16) := rfl

/-- The edge projection's bias, where it is reshaped to one row. -/
theorem be_W12 (c : Dev nD) : W12 (F := Ideal) m ρ c (Proc.devRef .tc main_arg17) = m ((c : Thread nD τ).loc main_arg17) :=
  calc W12 (F := Ideal) m ρ c (Proc.devRef .tc main_arg17)
    _ = W11 m ρ c (Proc.devRef .tc main_arg17) := by host_keeps hostOps4
    _ = W10 m ρ c (Proc.devRef .tc main_arg17) := W11_of_ne m ρ c main_arg17 (by decide)
    _ = W9 m ρ c (Proc.devRef .tc main_arg17) := by host_keeps hostOps3
    _ = W8 m ρ c (Proc.devRef .tc main_arg17) := W9_of_ne m ρ c main_arg17 (by decide)
    _ = W7 m ρ c (Proc.devRef .tc main_arg17) := by host_keeps hostOps2_1
    _ = W6 m ρ c (Proc.devRef .tc main_arg17) := by host_keeps hostOps2
    _ = W5 m ρ c (Proc.devRef .tc main_arg17) := W6_of_ne m ρ c main_arg17 (by decide)
    _ = W4 m ρ c (Proc.devRef .tc main_arg17) := by host_keeps hostOps1
    _ = W3 m ρ c (Proc.devRef .tc main_arg17) := W4_of_ne m ρ c main_arg17 (by decide)
    _ = W2 m ρ c (Proc.devRef .tc main_arg17) := by host_keeps hostOps0_2
    _ = W1 m ρ c (Proc.devRef .tc main_arg17) := by host_keeps hostOps0_1
    _ = W0 m ρ c (Proc.devRef .tc main_arg17) := by host_keeps hostOps0
    _ = m ((c : Thread nD τ).loc main_arg17) := rfl

/-- The node update's first weights, at the update stage's entry. -/
theorem W1_W15 (c : Dev nD) : W15 (F := Ideal) m ρ c (Proc.devRef .tc main_arg18) = m ((c : Thread nD τ).loc main_arg18) :=
  calc W15 (F := Ideal) m ρ c (Proc.devRef .tc main_arg18)
    _ = W14 m ρ c (Proc.devRef .tc main_arg18) := by host_keeps hostOps5
    _ = W13 m ρ c (Proc.devRef .tc main_arg18) := W14_of_ne m ρ c main_arg18 (by decide)
    _ = W12 m ρ c (Proc.devRef .tc main_arg18) := by host_keeps hostOps4_1
    _ = W11 m ρ c (Proc.devRef .tc main_arg18) := by host_keeps hostOps4
    _ = W10 m ρ c (Proc.devRef .tc main_arg18) := W11_of_ne m ρ c main_arg18 (by decide)
    _ = W9 m ρ c (Proc.devRef .tc main_arg18) := by host_keeps hostOps3
    _ = W8 m ρ c (Proc.devRef .tc main_arg18) := W9_of_ne m ρ c main_arg18 (by decide)
    _ = W7 m ρ c (Proc.devRef .tc main_arg18) := by host_keeps hostOps2_1
    _ = W6 m ρ c (Proc.devRef .tc main_arg18) := by host_keeps hostOps2
    _ = W5 m ρ c (Proc.devRef .tc main_arg18) := W6_of_ne m ρ c main_arg18 (by decide)
    _ = W4 m ρ c (Proc.devRef .tc main_arg18) := by host_keeps hostOps1
    _ = W3 m ρ c (Proc.devRef .tc main_arg18) := W4_of_ne m ρ c main_arg18 (by decide)
    _ = W2 m ρ c (Proc.devRef .tc main_arg18) := by host_keeps hostOps0_2
    _ = W1 m ρ c (Proc.devRef .tc main_arg18) := by host_keeps hostOps0_1
    _ = W0 m ρ c (Proc.devRef .tc main_arg18) := by host_keeps hostOps0
    _ = m ((c : Thread nD τ).loc main_arg18) := rfl

/-- The node update's first bias, where it is reshaped to one row. -/
theorem b1_W14 (c : Dev nD) : W14 (F := Ideal) m ρ c (Proc.devRef .tc main_arg19) = m ((c : Thread nD τ).loc main_arg19) :=
  calc W14 (F := Ideal) m ρ c (Proc.devRef .tc main_arg19)
    _ = W13 m ρ c (Proc.devRef .tc main_arg19) := W14_of_ne m ρ c main_arg19 (by decide)
    _ = W12 m ρ c (Proc.devRef .tc main_arg19) := by host_keeps hostOps4_1
    _ = W11 m ρ c (Proc.devRef .tc main_arg19) := by host_keeps hostOps4
    _ = W10 m ρ c (Proc.devRef .tc main_arg19) := W11_of_ne m ρ c main_arg19 (by decide)
    _ = W9 m ρ c (Proc.devRef .tc main_arg19) := by host_keeps hostOps3
    _ = W8 m ρ c (Proc.devRef .tc main_arg19) := W9_of_ne m ρ c main_arg19 (by decide)
    _ = W7 m ρ c (Proc.devRef .tc main_arg19) := by host_keeps hostOps2_1
    _ = W6 m ρ c (Proc.devRef .tc main_arg19) := by host_keeps hostOps2
    _ = W5 m ρ c (Proc.devRef .tc main_arg19) := W6_of_ne m ρ c main_arg19 (by decide)
    _ = W4 m ρ c (Proc.devRef .tc main_arg19) := by host_keeps hostOps1
    _ = W3 m ρ c (Proc.devRef .tc main_arg19) := W4_of_ne m ρ c main_arg19 (by decide)
    _ = W2 m ρ c (Proc.devRef .tc main_arg19) := by host_keeps hostOps0_2
    _ = W1 m ρ c (Proc.devRef .tc main_arg19) := by host_keeps hostOps0_1
    _ = W0 m ρ c (Proc.devRef .tc main_arg19) := by host_keeps hostOps0
    _ = m ((c : Thread nD τ).loc main_arg19) := rfl

/-- The node update's second weights, at the update stage's entry. -/
theorem W2_W15 (c : Dev nD) : W15 (F := Ideal) m ρ c (Proc.devRef .tc main_arg20) = m ((c : Thread nD τ).loc main_arg20) :=
  calc W15 (F := Ideal) m ρ c (Proc.devRef .tc main_arg20)
    _ = W14 m ρ c (Proc.devRef .tc main_arg20) := by host_keeps hostOps5
    _ = W13 m ρ c (Proc.devRef .tc main_arg20) := W14_of_ne m ρ c main_arg20 (by decide)
    _ = W12 m ρ c (Proc.devRef .tc main_arg20) := by host_keeps hostOps4_1
    _ = W11 m ρ c (Proc.devRef .tc main_arg20) := by host_keeps hostOps4
    _ = W10 m ρ c (Proc.devRef .tc main_arg20) := W11_of_ne m ρ c main_arg20 (by decide)
    _ = W9 m ρ c (Proc.devRef .tc main_arg20) := by host_keeps hostOps3
    _ = W8 m ρ c (Proc.devRef .tc main_arg20) := W9_of_ne m ρ c main_arg20 (by decide)
    _ = W7 m ρ c (Proc.devRef .tc main_arg20) := by host_keeps hostOps2_1
    _ = W6 m ρ c (Proc.devRef .tc main_arg20) := by host_keeps hostOps2
    _ = W5 m ρ c (Proc.devRef .tc main_arg20) := W6_of_ne m ρ c main_arg20 (by decide)
    _ = W4 m ρ c (Proc.devRef .tc main_arg20) := by host_keeps hostOps1
    _ = W3 m ρ c (Proc.devRef .tc main_arg20) := W4_of_ne m ρ c main_arg20 (by decide)
    _ = W2 m ρ c (Proc.devRef .tc main_arg20) := by host_keeps hostOps0_2
    _ = W1 m ρ c (Proc.devRef .tc main_arg20) := by host_keeps hostOps0_1
    _ = W0 m ρ c (Proc.devRef .tc main_arg20) := by host_keeps hostOps0
    _ = m ((c : Thread nD τ).loc main_arg20) := rfl

/-- The node update's second bias, where it is reshaped to one row. -/
theorem b2_W14 (c : Dev nD) : W14 (F := Ideal) m ρ c (Proc.devRef .tc main_arg21) = m ((c : Thread nD τ).loc main_arg21) :=
  calc W14 (F := Ideal) m ρ c (Proc.devRef .tc main_arg21)
    _ = W13 m ρ c (Proc.devRef .tc main_arg21) := W14_of_ne m ρ c main_arg21 (by decide)
    _ = W12 m ρ c (Proc.devRef .tc main_arg21) := by host_keeps hostOps4_1
    _ = W11 m ρ c (Proc.devRef .tc main_arg21) := by host_keeps hostOps4
    _ = W10 m ρ c (Proc.devRef .tc main_arg21) := W11_of_ne m ρ c main_arg21 (by decide)
    _ = W9 m ρ c (Proc.devRef .tc main_arg21) := by host_keeps hostOps3
    _ = W8 m ρ c (Proc.devRef .tc main_arg21) := W9_of_ne m ρ c main_arg21 (by decide)
    _ = W7 m ρ c (Proc.devRef .tc main_arg21) := by host_keeps hostOps2_1
    _ = W6 m ρ c (Proc.devRef .tc main_arg21) := by host_keeps hostOps2
    _ = W5 m ρ c (Proc.devRef .tc main_arg21) := W6_of_ne m ρ c main_arg21 (by decide)
    _ = W4 m ρ c (Proc.devRef .tc main_arg21) := by host_keeps hostOps1
    _ = W3 m ρ c (Proc.devRef .tc main_arg21) := W4_of_ne m ρ c main_arg21 (by decide)
    _ = W2 m ρ c (Proc.devRef .tc main_arg21) := by host_keeps hostOps0_2
    _ = W1 m ρ c (Proc.devRef .tc main_arg21) := by host_keeps hostOps0_1
    _ = W0 m ρ c (Proc.devRef .tc main_arg21) := by host_keeps hostOps0
    _ = m ((c : Thread nD τ).loc main_arg21) := rfl

/-- The self-weight eps, where the node update's input is formed. -/
theorem eps_W14 (c : Dev nD) : W14 (F := Ideal) m ρ c (Proc.devRef .tc main_arg22) = m ((c : Thread nD τ).loc main_arg22) :=
  calc W14 (F := Ideal) m ρ c (Proc.devRef .tc main_arg22)
    _ = W13 m ρ c (Proc.devRef .tc main_arg22) := W14_of_ne m ρ c main_arg22 (by decide)
    _ = W12 m ρ c (Proc.devRef .tc main_arg22) := by host_keeps hostOps4_1
    _ = W11 m ρ c (Proc.devRef .tc main_arg22) := by host_keeps hostOps4
    _ = W10 m ρ c (Proc.devRef .tc main_arg22) := W11_of_ne m ρ c main_arg22 (by decide)
    _ = W9 m ρ c (Proc.devRef .tc main_arg22) := by host_keeps hostOps3
    _ = W8 m ρ c (Proc.devRef .tc main_arg22) := W9_of_ne m ρ c main_arg22 (by decide)
    _ = W7 m ρ c (Proc.devRef .tc main_arg22) := by host_keeps hostOps2_1
    _ = W6 m ρ c (Proc.devRef .tc main_arg22) := by host_keeps hostOps2
    _ = W5 m ρ c (Proc.devRef .tc main_arg22) := W6_of_ne m ρ c main_arg22 (by decide)
    _ = W4 m ρ c (Proc.devRef .tc main_arg22) := by host_keeps hostOps1
    _ = W3 m ρ c (Proc.devRef .tc main_arg22) := W4_of_ne m ρ c main_arg22 (by decide)
    _ = W2 m ρ c (Proc.devRef .tc main_arg22) := by host_keeps hostOps0_2
    _ = W1 m ρ c (Proc.devRef .tc main_arg22) := by host_keeps hostOps0_1
    _ = W0 m ρ c (Proc.devRef .tc main_arg22) := by host_keeps hostOps0
    _ = m ((c : Thread nD τ).loc main_arg22) := rfl

/-! ## The edge list's two rows

The first stretch of host operations cuts them out of the edge list; no later segment writes them. -/

/-- The source row when the first stretch has run: row 0 of the edge list, as a vector. -/
theorem src_W1 (c : Dev nD) :
    W1 (F := Ideal) m ρ c (Proc.devRef .tc main_v1) = srcK (F := Ideal) (m ((c : Thread nD τ).loc main_arg35)) := by
  show StableHlo.after hostOps0 (W0 m ρ c) (Proc.devRef .tc main_v1) = _
  after_results
  rfl

/-- The destination row when the first stretch has run: row 1 of the edge list, as a vector. -/
theorem dst_W1 (c : Dev nD) :
    W1 (F := Ideal) m ρ c (Proc.devRef .tc main_v3) = dstK (F := Ideal) (m ((c : Thread nD τ).loc main_arg35)) := by
  show StableHlo.after hostOps0 (W0 m ρ c) (Proc.devRef .tc main_v3) = _
  after_results
  rfl

/-- The source row, where the source rows of the layer's input are gathered. -/
theorem src_W11 (c : Dev nD) :
    W11 (F := Ideal) m ρ c (Proc.devRef .tc main_v1) = srcK (F := Ideal) (m ((c : Thread nD τ).loc main_arg35)) :=
  calc W11 (F := Ideal) m ρ c (Proc.devRef .tc main_v1)
    _ = W10 m ρ c (Proc.devRef .tc main_v1) := W11_of_ne m ρ c main_v1 (by decide)
    _ = W9 m ρ c (Proc.devRef .tc main_v1) := by host_keeps hostOps3
    _ = W8 m ρ c (Proc.devRef .tc main_v1) := W9_of_ne m ρ c main_v1 (by decide)
    _ = W7 m ρ c (Proc.devRef .tc main_v1) := by host_keeps hostOps2_1
    _ = W6 m ρ c (Proc.devRef .tc main_v1) := by host_keeps hostOps2
    _ = W5 m ρ c (Proc.devRef .tc main_v1) := W6_of_ne m ρ c main_v1 (by decide)
    _ = W4 m ρ c (Proc.devRef .tc main_v1) := by host_keeps hostOps1
    _ = W3 m ρ c (Proc.devRef .tc main_v1) := W4_of_ne m ρ c main_v1 (by decide)
    _ = W2 m ρ c (Proc.devRef .tc main_v1) := by host_keeps hostOps0_2
    _ = W1 m ρ c (Proc.devRef .tc main_v1) := by host_keeps hostOps0_1
    _ = srcK (F := Ideal) (m ((c : Thread nD τ).loc main_arg35)) := src_W1 m ρ c

/-- The destination row, where the messages are summed per destination node. -/
theorem dst_W14 (c : Dev nD) :
    W14 (F := Ideal) m ρ c (Proc.devRef .tc main_v3) = dstK (F := Ideal) (m ((c : Thread nD τ).loc main_arg35)) :=
  calc W14 (F := Ideal) m ρ c (Proc.devRef .tc main_v3)
    _ = W13 m ρ c (Proc.devRef .tc main_v3) := W14_of_ne m ρ c main_v3 (by decide)
    _ = W12 m ρ c (Proc.devRef .tc main_v3) := by host_keeps hostOps4_1
    _ = W11 m ρ c (Proc.devRef .tc main_v3) := by host_keeps hostOps4
    _ = W10 m ρ c (Proc.devRef .tc main_v3) := W11_of_ne m ρ c main_v3 (by decide)
    _ = W9 m ρ c (Proc.devRef .tc main_v3) := by host_keeps hostOps3
    _ = W8 m ρ c (Proc.devRef .tc main_v3) := W9_of_ne m ρ c main_v3 (by decide)
    _ = W7 m ρ c (Proc.devRef .tc main_v3) := by host_keeps hostOps2_1
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1
    _ = dstK (F := Ideal) (m ((c : Thread nD τ).loc main_arg35)) := dst_W1 m ρ c

/-! ## The layer's input

The previous layer's output buffer is written by no segment of this layer: it is carried unopened from the layer's
first boundary to where the node update's input is formed. -/

/-- The layer's input, where the node update's input is formed. -/
theorem in_W14 (c : Dev nD) :
    W14 (F := Ideal) m ρ c (Proc.devRef .tc main_v31) = W11 (F := Ideal) m ρ c (Proc.devRef .tc main_v31) :=
  calc W14 (F := Ideal) m ρ c (Proc.devRef .tc main_v31)
    _ = W13 m ρ c (Proc.devRef .tc main_v31) := W14_of_ne m ρ c main_v31 (by decide)
    _ = W12 m ρ c (Proc.devRef .tc main_v31) := by host_keeps hostOps4_1
    _ = W11 m ρ c (Proc.devRef .tc main_v31) := by host_keeps hostOps4

/-! ## The layer's host stretches, from any contents

Each stretch's result buffers as the stage functions of the buffers the stretch reads. -/

section AnyField
variable {F : FTy → Type} [FloatOps F]

/-- The masked gather's stretch: its result is the masked gather of the layer's input buffer at the source-row buffer. -/
theorem take_of (V : Valuation τ sig (Elt F)) :
    StableHlo.after hostOps4 V (Proc.devRef .tc main_v32)
      = takeK256 (F := F) (V (Proc.devRef .tc main_v31)) (V (Proc.devRef .tc main_v1)) := by
  after_results_simp
  simp only [StableHlo.TRef.ofBuf, StableHlo.TRef.toBuf, cast_eq]
  rfl

/-- The reshape before the edge stage: the edge projection's bias as one row. -/
theorem ber_of (V : Valuation τ sig (Elt F)) :
    StableHlo.after hostOps4_1 V (Proc.devRef .tc main_v33) = rowK256 (F := F) (V (Proc.devRef .tc main_arg17)) := by
  after_results
  rfl

/-- The stretch between the two stages: the messages summed per destination node, plus (1 + eps) times the layer's
    input. -/
theorem glue_of (V : Valuation τ sig (Elt F)) :
    StableHlo.after hostOps5 V (Proc.devRef .tc main_v42)
      = Cert.Stages.glue256 (F := F) (V (Proc.devRef .tc main_v31)) (V (Proc.devRef .tc main_arg22))
          (V (Proc.devRef .tc main_v3)) (V (Proc.devRef .tc main_v34)) := by
  after_results
  rfl

/-- The same stretch: the node update's first bias as one row. -/
theorem b1r_of (V : Valuation τ sig (Elt F)) :
    StableHlo.after hostOps5 V (Proc.devRef .tc main_v43) = rowK256 (F := F) (V (Proc.devRef .tc main_arg19)) := by
  after_results
  rfl

/-- The same stretch: the node update's second bias as one row. -/
theorem b2r_of (V : Valuation τ sig (Elt F)) :
    StableHlo.after hostOps5 V (Proc.devRef .tc main_v44) = rowK256 (F := F) (V (Proc.devRef .tc main_arg21)) := by
  after_results
  rfl

end AnyField

/-! ## The layer's stages, innermost first -/

/-- The gathered source rows when the gather's stretch has run: the masked gather of the layer's input at the source
    row. -/
theorem take_W12 (c : Dev nD) :
    W12 (F := Ideal) m ρ c (Proc.devRef .tc main_v32)
      = takeK256 (F := Ideal) (W11 (F := Ideal) m ρ c (Proc.devRef .tc main_v31)) (srcK (F := Ideal) (m ((c : Thread nD τ).loc main_arg35))) := by
  rw [← src_W11 m ρ c]
  exact take_of (W11 m ρ c)

/-- The gathered source rows at the edge stage's entry. -/
theorem take_W13 (c : Dev nD) :
    W13 (F := Ideal) m ρ c (Proc.devRef .tc main_v32)
      = takeK256 (F := Ideal) (W11 (F := Ideal) m ρ c (Proc.devRef .tc main_v31)) (srcK (F := Ideal) (m ((c : Thread nD τ).loc main_arg35))) :=
  calc W13 (F := Ideal) m ρ c (Proc.devRef .tc main_v32)
    _ = W12 m ρ c (Proc.devRef .tc main_v32) := by host_keeps hostOps4_1
    _ = _ := take_W12 m ρ c

/-- The edge projection's bias as one row, at the edge stage's entry. -/
theorem ber_W13 (c : Dev nD) :
    W13 (F := Ideal) m ρ c (Proc.devRef .tc main_v33) = rowK256 (F := Ideal) (m ((c : Thread nD τ).loc main_arg17)) := by
  rw [← be_W12 m ρ c]
  exact ber_of (W12 m ρ c)

/-- The messages at the edge stage's exit: the edge stage of the launch arguments and the masked gather. -/
theorem msg_W14 (c : Dev nD) :
    W14 (F := Ideal) m ρ c (Proc.devRef .tc main_v34)
      = Cert.Stages.edge256 (F := Ideal) (m ((c : Thread nD τ).loc main_arg1)) (m ((c : Thread nD τ).loc main_arg16))
          (rowK256 (F := Ideal) (m ((c : Thread nD τ).loc main_arg17)))
          (takeK256 (F := Ideal) (W11 (F := Ideal) m ρ c (Proc.devRef .tc main_v31)) (srcK (F := Ideal) (m ((c : Thread nD τ).loc main_arg35)))) := by
  rw [← ea_W13 m ρ c, ← We_W13 m ρ c, ← ber_W13 m ρ c, ← take_W13 m ρ c]
  exact (W14_arr m ρ c 4).trans (Cert.KernelIdeal.Region4.arr (V13 m ρ) c)

/-- The node update's input at the update stage's entry. -/
theorem glue_W15 (c : Dev nD) :
    W15 (F := Ideal) m ρ c (Proc.devRef .tc main_v42)
      = Cert.Stages.glue256 (F := Ideal) (W11 (F := Ideal) m ρ c (Proc.devRef .tc main_v31)) (m ((c : Thread nD τ).loc main_arg22))
          (dstK (F := Ideal) (m ((c : Thread nD τ).loc main_arg35)))
          (Cert.Stages.edge256 (F := Ideal) (m ((c : Thread nD τ).loc main_arg1)) (m ((c : Thread nD τ).loc main_arg16))
            (rowK256 (F := Ideal) (m ((c : Thread nD τ).loc main_arg17)))
            (takeK256 (F := Ideal) (W11 (F := Ideal) m ρ c (Proc.devRef .tc main_v31)) (srcK (F := Ideal) (m ((c : Thread nD τ).loc main_arg35))))) := by
  rw [← msg_W14 m ρ c, ← dst_W14 m ρ c, ← eps_W14 m ρ c, ← in_W14 m ρ c]
  exact glue_of (W14 m ρ c)

/-- The node update's first bias as one row, at the update stage's entry. -/
theorem b1r_W15 (c : Dev nD) :
    W15 (F := Ideal) m ρ c (Proc.devRef .tc main_v43) = rowK256 (F := Ideal) (m ((c : Thread nD τ).loc main_arg19)) := by
  rw [← b1_W14 m ρ c]
  exact b1r_of (W14 m ρ c)

/-- The node update's second bias as one row, at the update stage's entry. -/
theorem b2r_W15 (c : Dev nD) :
    W15 (F := Ideal) m ρ c (Proc.devRef .tc main_v44) = rowK256 (F := Ideal) (m ((c : Thread nD τ).loc main_arg21)) := by
  rw [← b2_W14 m ρ c]
  exact b2r_of (W14 m ρ c)

/-- After the third layer's two regions the node-feature buffer holds the third layer of the second layer's output. -/
theorem h3 (c : Dev nD) :
    (W16 (F := Ideal) m ρ c (Proc.devRef .tc main_v45)) = layerK256 (F := Ideal) (W11 (F := Ideal) m ρ c (Proc.devRef .tc main_v31)) (m ((c : Thread nD τ).loc main_arg1)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (srcK (m ((c : Thread nD τ).loc main_arg35))) (dstK (m ((c : Thread nD τ).loc main_arg35))) := by
  unfold layerK256
  rw [← glue_W15 m ρ c, ← W1_W15 m ρ c, ← b1r_W15 m ρ c, ← W2_W15 m ρ c, ← b2r_W15 m ρ c]
  exact (W16_arr m ρ c 5).trans (Cert.KernelIdeal.Region5.arr (V15 m ρ) c)

end Cert.KernelIdeal.Chain2

end
-- ==== Proof.Region6.lean ====
import proofs.«408536_j9234179687244_1_alg».proof.Proof.Gen.KernelIdeal.Frame
import proofs.«408536_j9234179687244_1_alg».proof.Proof.Stages
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Region6

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## A matrix product's entry as a sum over the shared axis -/

/-- A matrix product's dimension numbers: the left operand's columns are contracted against the right operand's rows, and there is no batch axis. -/
structure RowByCol {m n p : Nat} (D : DotDims ⟨2, ![m, n]⟩ ⟨2, ![n, p]⟩ ⟨2, ![m, p]⟩) : Prop where
  lc : D.lhsContracting = [1]
  rc : D.rhsContracting = [0]
  ln : D.lhsNonContracting = [0]
  rn : D.rhsNonContracting = [1]
  lb : D.lhsBatch = []
  rb : D.rhsBatch = []

section RowByCol
variable {m n p : Nat} {D : DotDims ⟨2, ![m, n]⟩ ⟨2, ![n, p]⟩ ⟨2, ![m, p]⟩} (h : RowByCol D)
include h

/-- The left operand is read in the result's row. -/
theorem RowByCol.lhs_row (j : (⟨2, ![m, p]⟩ : Shape).Idx) (k : D.contr.Idx) : (D.lhsIdx j k 0).val = (j 0).val := by
  unfold DotDims.lhsIdx
  rw [dif_neg (show ¬(0 : Fin (⟨2, ![m, n]⟩ : Shape).rank) ∈ D.lhsBatch by rw [h.lb]; exact List.not_mem_nil),
    dif_pos (show (0 : Fin (⟨2, ![m, n]⟩ : Shape).rank) ∈ D.lhsNonContracting by rw [h.ln]; exact List.mem_singleton.mpr rfl)]
  simp only [Fin.val_cast]
  have key : ∀ (a b : Nat) (ha : a < 2) (hb : b < 2), a = b → (j ⟨a, ha⟩).val = (j ⟨b, hb⟩).val := fun a b ha hb e => by subst e; rfl
  exact key _ _ _ _ (by simp [h.lb, h.ln])

/-- The left operand is read in the column the contraction names. -/
theorem RowByCol.lhs_col (j : (⟨2, ![m, p]⟩ : Shape).Idx) (k : D.contr.Idx) :
    (D.lhsIdx j k 1).val = (k ⟨0, by rw [D.rank_contr, h.lc]; exact Nat.one_pos⟩).val :=
  D.lhsIdx_val_of_single h.lc j k

/-- The right operand is read in the row the contraction names. -/
theorem RowByCol.rhs_row (j : (⟨2, ![m, p]⟩ : Shape).Idx) (k : D.contr.Idx) :
    (D.rhsIdx j k 0).val = (k ⟨0, by rw [D.rank_contr, h.lc]; exact Nat.one_pos⟩).val :=
  D.rhsIdx_val_of_single h.rc j k

/-- The right operand is read in the result's column. -/
theorem RowByCol.rhs_col (j : (⟨2, ![m, p]⟩ : Shape).Idx) (k : D.contr.Idx) : (D.rhsIdx j k 1).val = (j 1).val := by
  unfold DotDims.rhsIdx
  rw [dif_neg (show ¬(1 : Fin (⟨2, ![n, p]⟩ : Shape).rank) ∈ D.rhsBatch by rw [h.rb]; exact List.not_mem_nil),
    dif_pos (show (1 : Fin (⟨2, ![n, p]⟩ : Shape).rank) ∈ D.rhsNonContracting by rw [h.rn]; exact List.mem_singleton.mpr rfl)]
  simp only [Fin.val_cast]
  have key : ∀ (a b : Nat) (ha : a < 2) (hb : b < 2), a = b → (j ⟨a, ha⟩).val = (j ⟨b, hb⟩).val := fun a b ha hb e => by subst e; rfl
  exact key _ _ _ _ (by simp [h.lb, h.ln, h.rn])

theorem RowByCol.rank_contr : D.contr.rank = 1 := by rw [D.rank_contr, h.lc]; rfl

theorem RowByCol.size_contr : D.contr.size ⟨0, by rw [h.rank_contr]; exact Nat.one_pos⟩ = n := by
  have e := D.size_contr 0 (by rw [h.lc]; exact Nat.one_pos)
  refine e.trans ?_
  simp [h.lc]

/-- The contraction's sum is the sum over the left operand's columns of row entry times column entry. -/
theorem RowByCol.sum_eq (x : FVec Ideal ⟨2, ![m, n]⟩ .f32) (w : FVec Ideal ⟨2, ![n, p]⟩ .f32) (r : Fin m) (c : Fin p) :
    ∑ k : D.contr.Idx, x (D.lhsIdx (ix2 r c) k) * w (D.rhsIdx (ix2 r c) k) = ∑ k : Fin n, x (ix2 r k) * w (ix2 k c) := by
  rw [← Equiv.sum_comp (contrEquiv1 D n h.rank_contr h.size_contr).symm]
  refine Finset.sum_congr rfl fun k _ => ?_
  have hk := contrEquiv1_symm_val D n h.rank_contr h.size_contr k
  have el : D.lhsIdx (ix2 r c) ((contrEquiv1 D n h.rank_contr h.size_contr).symm k) = ix2 r k := funext fun a => Fin.ext (by
    match a with
    | ⟨0, _⟩ => exact h.lhs_row _ _
    | ⟨1, _⟩ => exact (h.lhs_col _ _).trans hk)
  have er : D.rhsIdx (ix2 r c) ((contrEquiv1 D n h.rank_contr h.size_contr).symm k) = ix2 k c := funext fun a => Fin.ext (by
    match a with
    | ⟨0, _⟩ => exact (h.rhs_row _ _).trans hk
    | ⟨1, _⟩ => exact h.rhs_col _ _)
  rw [el, er]

end RowByCol

/-! ## The head, entry by entry -/

/-- The bit pattern of the float one denotes the extended real one. -/
theorem ofBits_one : Ideal.ofBits .f32 0x3F800000#32 = 1 := by
  simp [Ideal.ofBits, Ideal.ieee, -EReal.coe_mul]; norm_num

/-- The hidden pre-activation of row `r` at unit `k`: the row of pooled features times column `k` of the first weight matrix, plus the first bias. -/
def pre {m : Nat} (hg : FVec Ideal ⟨2, ![m, 256]⟩ .f32) (w1 : FVec Ideal S256x256 .f32) (b1 : FVec Ideal S1x256 .f32) (r : Fin m) (k : Fin 256) : EReal :=
  (∑ q : Fin 256, hg (ix2 r q) * w1 (ix2 q k)) + b1 (ix2 0 k)

/-- The activation: t times the logistic function of t. -/
def act (t : EReal) : EReal := t * Ideal.logistic t

/-- The head's output of row `r` at class `c`: the activated hidden row times column `c` of the second weight matrix, plus the second bias. -/
def outAt {m : Nat} (hg : FVec Ideal ⟨2, ![m, 256]⟩ .f32) (w1 : FVec Ideal S256x256 .f32) (b1 : FVec Ideal S1x256 .f32) (w2 : FVec Ideal S256x2 .f32) (b2 : FVec Ideal S1x2 .f32) (r : Fin m) (c : Fin 2) : EReal :=
  (∑ k : Fin 256, act (pre hg w1 b1 r k) * w2 (ix2 k c)) + b2 (ix2 0 c)

/-- The output of a row depends on the pooled features through that row alone. -/
theorem outAt_congr {m m' : Nat} (x : FVec Ideal ⟨2, ![m, 256]⟩ .f32) (hg : FVec Ideal ⟨2, ![m', 256]⟩ .f32) (w1 : FVec Ideal S256x256 .f32) (b1 : FVec Ideal S1x256 .f32) (w2 : FVec Ideal S256x2 .f32) (b2 : FVec Ideal S1x2 .f32)
    (r : Fin m) (R : Fin m') (c : Fin 2) (h : ∀ q : Fin 256, x (ix2 r q) = hg (ix2 R q)) :
    outAt x w1 b1 w2 b2 r c = outAt hg w1 b1 w2 b2 R c := by
  unfold outAt pre
  simp only [h]

/-- The head as one function of the output's index. -/
def G (hg : FVec Ideal S2048x256 .f32) (w1 : FVec Ideal S256x256 .f32) (b1 : FVec Ideal S1x256 .f32) (w2 : FVec Ideal S256x2 .f32) (b2 : FVec Ideal S1x2 .f32) : FVec Ideal S2048x2 .f32 :=
  fun i => outAt hg w1 b1 w2 b2 (i 0) (i 1)

theorem G_ix2 (hg : FVec Ideal S2048x256 .f32) (w1 : FVec Ideal S256x256 .f32) (b1 : FVec Ideal S1x256 .f32) (w2 : FVec Ideal S256x2 .f32) (b2 : FVec Ideal S1x2 .f32) (r : Fin 2048) (c : Fin 2) :
    G hg w1 b1 w2 b2 (ix2 r c) = outAt hg w1 b1 w2 b2 r c := rfl

/-- The reference's two products are matrix products. -/
theorem rowByCol_ref1 : RowByCol Cert.ReferenceIdeal.dot_S2048x256_S256x256_S2048x256_1_0_0_1_n_n := ⟨rfl, rfl, rfl, rfl, rfl, rfl⟩
theorem rowByCol_ref2 : RowByCol Cert.ReferenceIdeal.dot_S2048x256_S256x2_S2048x2_1_0_0_1_n_n := ⟨rfl, rfl, rfl, rfl, rfl, rfl⟩

/-- The stage function's hidden pre-activation, at an entry. -/
theorem headPre_apply (hg : FVec Ideal S2048x256 .f32) (w1 : FVec Ideal S256x256 .f32) (b1 : FVec Ideal S1x256 .f32) (r : Fin 2048) (k : Fin 256) :
    Cert.Stages.headPre (F := Ideal) hg w1 b1 (ix2 r k) = pre hg w1 b1 r k := by
  unfold Cert.Stages.headPre pre
  refine (addf_apply _ _ _).trans ?_
  refine congrArg₂ (· + ·) ?_ ?_
  · simp only [Host.dotGeneral]
    rw [Ideal.dotGeneral_apply]
    exact rowByCol_ref1.sum_eq hg w1 r k
  · exact broadcastInDim_apply _ Cert.ReferenceIdeal.Gen.bcast_S1x256_S2048x256_0_1 b1 (ix2 r k) (ix2 0 k) (fun a => match a with
      | ⟨0, _⟩ => by show 0 = if (1 : Nat) = 1 then 0 else r.val; rw [if_pos rfl]
      | ⟨1, _⟩ => by show k.val = if (256 : Nat) = 1 then 0 else k.val; rw [if_neg (by decide)])

/-- The activation as the host spells it, t · (1 / (1 + e^(-t))), is t times the logistic function of t. -/
theorem hostAct_apply (t : FVec Ideal S2048x256 .f32) (j : S2048x256.Idx) :
    mulf t (Host.divf (broadcastInDim S2048x256 ![] Cert.ReferenceIdeal.Gen.bcast_S_S2048x256 (constant (F := Ideal) S_ .f32 0x3F800000#32)) (addf (broadcastInDim S2048x256 ![] Cert.ReferenceIdeal.Gen.bcast_S_S2048x256 (constant (F := Ideal) S_ .f32 0x3F800000#32)) (Host.exp (Host.negf t)))) j = act (t j) := by
  have hone : broadcastInDim S2048x256 ![] Cert.ReferenceIdeal.Gen.bcast_S_S2048x256 (constant (F := Ideal) S_ .f32 0x3F800000#32) j = 1 :=
    (broadcastInDim_apply _ Cert.ReferenceIdeal.Gen.bcast_S_S2048x256 (constant (F := Ideal) S_ .f32 0x3F800000#32) j ix0 (fun a => a.elim0)).trans ofBits_one
  show t j * Ideal.div (broadcastInDim S2048x256 ![] Cert.ReferenceIdeal.Gen.bcast_S_S2048x256 (constant (F := Ideal) S_ .f32 0x3F800000#32) j) (broadcastInDim S2048x256 ![] Cert.ReferenceIdeal.Gen.bcast_S_S2048x256 (constant (F := Ideal) S_ .f32 0x3F800000#32) j + Ideal.exp (-(t j))) = _
  rw [hone]
  rfl

/-- The stage function is the head, entry by entry. -/
theorem head_eq (hg : FVec Ideal S2048x256 .f32) (w1 : FVec Ideal S256x256 .f32) (b1 : FVec Ideal S1x256 .f32) (w2 : FVec Ideal S256x2 .f32) (b2 : FVec Ideal S1x2 .f32) :
    Cert.Stages.head (F := Ideal) hg w1 b1 w2 b2 = G hg w1 b1 w2 b2 := by
  funext i
  obtain ⟨r, c, rfl⟩ : ∃ (r : Fin 2048) (c : Fin 2), i = ix2 r c := ⟨i 0, i 1, eq_ix2 i⟩
  rw [G_ix2]
  unfold Cert.Stages.head outAt
  refine (addf_apply _ _ _).trans ?_
  refine congrArg₂ (· + ·) ?_ ?_
  · simp only [Host.dotGeneral]
    rw [Ideal.dotGeneral_apply]
    refine (rowByCol_ref2.sum_eq _ w2 r c).trans ?_
    refine Finset.sum_congr rfl fun k _ => congrArg (· * w2 (ix2 k c)) ?_
    refine (hostAct_apply _ _).trans ?_
    rw [headPre_apply]
  · exact broadcastInDim_apply _ Cert.ReferenceIdeal.Gen.bcast_S1x2_S2048x2_0_1 b2 (ix2 r c) (ix2 0 c) (fun a => match a with
      | ⟨0, _⟩ => by show 0 = if (1 : Nat) = 1 then 0 else r.val; rw [if_pos rfl]
      | ⟨1, _⟩ => by show c.val = if (2 : Nat) = 1 then 0 else c.val; rw [if_neg (by decide)])

/-! ## The body's arithmetic on one block -/

/-- The kernel's two products are matrix products. -/
theorem rowByCol_k1 : RowByCol dot_S512x256_S256x256_S512x256_1_0_0_1_n_n := ⟨rfl, rfl, rfl, rfl, rfl, rfl⟩
theorem rowByCol_k2 : RowByCol dot_S512x256_S256x2_S512x2_1_0_0_1_n_n := ⟨rfl, rfl, rfl, rfl, rfl, rfl⟩

/-- The body's hidden pre-activation on a block of 512 rows, at an entry. -/
theorem blockPre_apply (x0 : FVec Ideal S512x256 .f32) (x1 : FVec Ideal S256x256 .f32) (x2 : FVec Ideal S1x256 .f32) (r : Fin 512) (k : Fin 256) :
    addf (matmul dot_S512x256_S256x256_S512x256_1_0_0_1_n_n none x0 x1 (constant (F := Ideal) S512x256 .f32 0x00000000#32)) (broadcastTo S512x256 x2 broadcasts_S1x256_S512x256) (ix2 r k)
      = pre x0 x1 x2 r k := by
  unfold pre
  refine (addf_apply _ _ _).trans ?_
  refine congrArg₂ (· + ·) ?_ ?_
  · refine (Ideal.matmul_constant_zero_apply _ none x0 x1 (ix2 r k)).trans ?_
    exact rowByCol_k1.sum_eq x0 x1 r k
  · exact broadcastTo_apply x2 broadcasts_S1x256_S512x256 (ix2 r k) (ix2 0 k) (fun a => match a with
      | ⟨0, _⟩ => by show 0 = if (1 : Nat) = 1 then 0 else r.val; rw [if_pos rfl]
      | ⟨1, _⟩ => by show k.val = if (256 : Nat) = 1 then 0 else k.val; rw [if_neg (by decide)])

/-- The body's payload on a block of 512 rows is the head of those rows, entry by entry. -/
theorem pay_apply (x0 : FVec Ideal S512x256 .f32) (x1 : FVec Ideal S256x256 .f32) (x2 : FVec Ideal S1x256 .f32) (x3 : FVec Ideal S256x2 .f32) (x4 : FVec Ideal S1x2 .f32) (r : Fin 512) (c : Fin 2) :
    k6_pay1 (F := Ideal) x0 x1 x2 x3 x4 (ix2 r c) = outAt x0 x1 x2 x3 x4 r c := by
  unfold k6_pay1
  simp only [shapeCast_self]
  unfold outAt
  refine (addf_apply _ _ _).trans ?_
  refine congrArg₂ (· + ·) ?_ ?_
  · refine (Ideal.matmul_constant_zero_apply _ none _ x3 (ix2 r c)).trans ?_
    refine (rowByCol_k2.sum_eq _ x3 r c).trans ?_
    refine Finset.sum_congr rfl fun k _ => congrArg (· * x3 (ix2 k c)) ?_
    refine (mulf_apply _ _ _).trans ?_
    show _ * Ideal.logistic _ = act _
    rw [blockPre_apply]
    rfl
  · exact broadcastTo_apply x4 broadcasts_S1x2_S512x2 (ix2 r c) (ix2 0 c) (fun a => match a with
      | ⟨0, _⟩ => by show 0 = if (1 : Nat) = 1 then 0 else r.val; rw [if_pos rfl]
      | ⟨1, _⟩ => by show c.val = if (2 : Nat) = 1 then 0 else c.val; rw [if_neg (by decide)])

/-! ## From blocks to the array -/

theorem hz : (![0, 0] : Fin 2 → Nat) = fun _ => 0 := funext fun a => by fin_cases a <;> rfl

/-- The index maps over the grid: the pooled rows and the output move by one block of 512 rows per point; the weights and biases stay whole. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

section Blocks
variable (V : (c : Dev nD) → (b : Ref sig .tc) → Buf (Elt Ideal) ((c : Thread nD τ).loc b)) (c : Dev nD) (t : Fin cfg6.N)

/-- The pooled rows' block at point `t` is rows 512 t … 512 t + 511 of the array. -/
theorem iblk0_apply (r : Fin 512) (q : Fin 256) (R : Fin 2048) (hR : R.val = 512 * t.val + r.val) :
    (iblk6 V c 0 t : FVec Ideal S512x256 .f32) (ix2 r q) = (V c main_v48 : FVec Ideal S2048x256 .f32) (ix2 R q) := by
  obtain ⟨e0, e1, -⟩ := idx_facts t
  unfold iblk6
  rw [View.read_apply]
  show V c main_v48 (((cfg6.win 0).blk t).view.emb (ix2 r q)) = V c main_v48 (ix2 R q)
  refine congrArg (V c main_v48) (funext fun a => Fin.ext ?_)
  match a with
  | ⟨0, _⟩ => show win6_0.index t (0 : Fin 2) * 512 + 1 * r.val = R.val; rw [e0, hR]; omega
  | ⟨1, _⟩ => show win6_0.index t (1 : Fin 2) * 256 + 1 * q.val = q.val; rw [e1]; omega

/-- The first weight matrix's block is the whole matrix. -/
theorem iblk1_eq : (iblk6 V c 1 t : FVec Ideal S256x256 .f32) = (V c main_v51 : FVec Ideal S256x256 .f32) := by
  obtain ⟨-, -, e0, e1, -⟩ := idx_facts t
  funext y
  unfold iblk6
  rw [View.read_apply]
  show V c main_v51 (((cfg6.win 1).blk t).view.emb y) = V c main_v51 y
  refine congrArg (V c main_v51) (funext fun a => Fin.ext ?_)
  match a with
  | ⟨0, _⟩ => show win6_1.index t (0 : Fin 2) * 256 + 1 * (y 0).val = (y 0).val; rw [e0]; omega
  | ⟨1, _⟩ => show win6_1.index t (1 : Fin 2) * 256 + 1 * (y 1).val = (y 1).val; rw [e1]; omega

/-- The first bias's block is the whole row. -/
theorem iblk2_eq : (iblk6 V c 2 t : FVec Ideal S1x256 .f32) = (V c main_v61 : FVec Ideal S1x256 .f32) := by
  obtain ⟨-, -, -, -, e0, e1, -⟩ := idx_facts t
  funext y
  unfold iblk6
  rw [View.read_apply]
  show V c main_v61 (((cfg6.win 2).blk t).view.emb y) = V c main_v61 y
  refine congrArg (V c main_v61) (funext fun a => Fin.ext ?_)
  match a with
  | ⟨0, _⟩ => show win6_2.index t (0 : Fin 2) * 1 + 1 * (y 0).val = (y 0).val; rw [e0]; omega
  | ⟨1, _⟩ => show win6_2.index t (1 : Fin 2) * 256 + 1 * (y 1).val = (y 1).val; rw [e1]; omega

/-- The second weight matrix's block is the whole matrix. -/
theorem iblk3_eq : (iblk6 V c 3 t : FVec Ideal S256x2 .f32) = (V c main_v57 : FVec Ideal S256x2 .f32) := by
  obtain ⟨-, -, -, -, -, -, e0, e1, -⟩ := idx_facts t
  funext y
  unfold iblk6
  rw [View.read_apply]
  show V c main_v57 (((cfg6.win 3).blk t).view.emb y) = V c main_v57 y
  refine congrArg (V c main_v57) (funext fun a => Fin.ext ?_)
  match a with
  | ⟨0, _⟩ => show win6_3.index t (0 : Fin 2) * 256 + 1 * (y 0).val = (y 0).val; rw [e0]; omega
  | ⟨1, _⟩ => show win6_3.index t (1 : Fin 2) * 2 + 1 * (y 1).val = (y 1).val; rw [e1]; omega

/-- The second bias's block is the whole row. -/
theorem iblk4_eq : (iblk6 V c 4 t : FVec Ideal S1x2 .f32) = (V c main_v62 : FVec Ideal S1x2 .f32) := by
  obtain ⟨-, -, -, -, -, -, -, -, e0, e1, -⟩ := idx_facts t
  funext y
  unfold iblk6
  rw [View.read_apply]
  show V c main_v62 (((cfg6.win 4).blk t).view.emb y) = V c main_v62 y
  refine congrArg (V c main_v62) (funext fun a => Fin.ext ?_)
  match a with
  | ⟨0, _⟩ => show win6_4.index t (0 : Fin 2) * 1 + 1 * (y 0).val = (y 0).val; rw [e0]; omega
  | ⟨1, _⟩ => show win6_4.index t (1 : Fin 2) * 2 + 1 * (y 1).val = (y 1).val; rw [e1]; omega

end Blocks

section Final
variable (V : (c : Dev nD) → (b : Ref sig .tc) → Buf (Elt Ideal) ((c : Thread nD τ).loc b)) (c : Dev nD)

/-- The body's payload on the blocks at point `t` is the head of the arrays at the matching entry of the output. -/
theorem pay_point (hg : FVec Ideal S2048x256 .f32) (w1 : FVec Ideal S256x256 .f32) (b1 : FVec Ideal S1x256 .f32) (w2 : FVec Ideal S256x2 .f32) (b2 : FVec Ideal S1x2 .f32)
    (x0 : FVec Ideal S512x256 .f32) (x1 : FVec Ideal S256x256 .f32) (x2 : FVec Ideal S1x256 .f32) (x3 : FVec Ideal S256x2 .f32) (x4 : FVec Ideal S1x2 .f32)
    (s : Nat) (h0 : ∀ (r : Fin 512) (q : Fin 256) (R : Fin 2048), R.val = 512 * s + r.val → x0 (ix2 r q) = hg (ix2 R q))
    (h1 : x1 = w1) (h2 : x2 = b1) (h3 : x3 = w2) (h4 : x4 = b2)
    (y : S512x2.Idx) (i : S2048x2.Idx) (hi0 : (i 0).val = 512 * s + (y 0).val) (hi1 : (i 1).val = (y 1).val) :
    k6_pay1 (F := Ideal) x0 x1 x2 x3 x4 y = G hg w1 b1 w2 b2 i := by
  subst h1 h2 h3 h4
  obtain ⟨r, k, rfl⟩ : ∃ (r : Fin 512) (k : Fin 2), y = ix2 r k := ⟨y 0, y 1, eq_ix2 y⟩
  obtain ⟨R, K, rfl⟩ : ∃ (R : Fin 2048) (K : Fin 2), i = ix2 R K := ⟨i 0, i 1, eq_ix2 i⟩
  obtain rfl : K = k := Fin.ext hi1
  rw [pay_apply, G_ix2]
  exact outAt_congr x0 hg x1 x2 x3 x4 r R K (fun q => h0 r q R hi0)

/-- What point `t` writes back is block `t` of the head of the arrays as the region finds them. -/
theorem flushed_eq (t : Fin cfg6.N) :
    (dat6 (F := Ideal) V c).flushed 5 t = ((cfg6.win 5).blk t).view.read (Elt Ideal) (G (V c main_v48) (V c main_v51) (V c main_v61) (V c main_v57) (V c main_v62)) := by
  show (cfg6.win 5).cut (grid6.coords t) ((dat6 V c).after 5 t) = _
  rw [after6_5]
  unfold out6_5
  rw [View.canon_unit_zero hz]
  simp only [View.ld_unit_zero (S := S512x256) hz, View.ld_unit_zero (S := S256x256) hz, View.ld_unit_zero (S := S1x256) hz, View.ld_unit_zero (S := S256x2) hz, View.ld_unit_zero (S := S1x2) hz]
  obtain ⟨-, -, -, -, -, -, -, -, -, -, e0, e1⟩ := idx_facts t
  funext y
  rw [View.read_apply]
  refine pay_point (V c main_v48) (V c main_v51) (V c main_v61) (V c main_v57) (V c main_v62) (iblk6 V c 0 t) (iblk6 V c 1 t) (iblk6 V c 2 t) (iblk6 V c 3 t) (iblk6 V c 4 t) t.val
    (fun r q R hR => iblk0_apply V c t r q R hR) (iblk1_eq V c t) (iblk2_eq V c t) (iblk3_eq V c t) (iblk4_eq V c t) y (((cfg6.win 5).blk t).view.emb y) ?_ ?_
  · show win6_5.index t (0 : Fin 2) * 512 + 1 * (y 0).val = 512 * t.val + (y 0).val
    rw [e0]; omega
  · show win6_5.index t (1 : Fin 2) * 2 + 1 * (y 1).val = (y 1).val
    rw [e1]; omega

/-- An index of the output array is in point `t`'s block iff each coordinate is in the block's range on its axis. -/
theorem mem_blk (t : Fin cfg6.N) (i : S2048x2.Idx) :
    i ∈ ((cfg6.win 5).blk t).view.set ↔ ∀ a : Fin 2, win6_5.index t a * S512x2.size a ≤ (i a).val ∧ (i a).val < win6_5.index t a * S512x2.size a + S512x2.size a := by
  show i ∈ ((View.whole main_v63).slice (win6_5.rect t)).set ↔ _
  rw [View.set_slice_whole, Rect.mem_set_unit]
  exact Iff.rfl

/-- Every row of the output is in the block of the point its number divided by 512 names. -/
theorem cover (i : S2048x2.Idx) : ∃ t : Fin cfg6.N, (cfg6.win 5).flush t = true ∧ i ∈ ((cfg6.win 5).blk t).view.set := by
  have hi0 : (i 0).val < 2048 := (i 0).isLt
  have hi1 : (i 1).val < 2 := (i 1).isLt
  have hN : grid6.N = 4 := N_6
  let t : Fin cfg6.N := ⟨(i 0).val / 512, by show (i 0).val / 512 < grid6.N; rw [hN]; omega⟩
  obtain ⟨-, -, -, -, -, -, -, -, -, -, e0, e1⟩ := idx_facts t
  refine ⟨t, flush6_5 t, ?_⟩
  rw [mem_blk]
  intro a
  have ht : t.val = (i 0).val / 512 := rfl
  match a with
  | ⟨0, _⟩ => show win6_5.index t (0 : Fin 2) * 512 ≤ (i 0).val ∧ (i 0).val < win6_5.index t (0 : Fin 2) * 512 + 512; rw [e0, ht]; omega
  | ⟨1, _⟩ => show win6_5.index t (1 : Fin 2) * 2 ≤ (i 1).val ∧ (i 1).val < win6_5.index t (1 : Fin 2) * 2 + 2; rw [e1]; omega

/-- The output array after the whole grid has run is the head of the arrays the region found. -/
theorem final : (dat6 (F := Ideal) V c).arrAt 5 cfg6.N = G (V c main_v48) (V c main_v51) (V c main_v61) (V c main_v57) (V c main_v62) :=
  (dat6 (F := Ideal) V c).arrAt_eq_of_cover 5 (G (V c main_v48) (V c main_v51) (V c main_v61) (V c main_v57) (V c main_v62)) (fun t _ => flushed_eq V c t) cover

end Final

/-- The head region's output array: the head stage of the pooled rows, the two sampled weight matrices and the two one-row sampled biases. It holds whatever the buffers contain when the region is entered. -/
theorem arr (V : (c : Dev nD) → (b : Ref sig .tc) → Buf (Elt Ideal) ((c : Thread nD τ).loc b)) (c : Dev nD) :
    (dat6 (F := Ideal) V c).arrAt 5 cfg6.N = Cert.Stages.head (F := Ideal) (V c main_v48) (V c main_v51) (V c main_v61) (V c main_v57) (V c main_v62) :=
  (final V c).trans (head_eq _ _ _ _ _).symm

end Cert.KernelIdeal.Region6

end
-- ==== Proof.ChainHead.lean ====
import proofs.«408536_j9234179687244_1_alg».proof.Proof.Gen.KernelIdeal.Frame
import proofs.«408536_j9234179687244_1_alg».proof.Proof.StagesK
import proofs.«408536_j9234179687244_1_alg».proof.Proof.Region6
import Idealize.ShloMosaic.Lib.StableHlo.Run

set_option maxRecDepth 16384

noncomputable section

namespace Cert.KernelIdeal.ChainHead

open Cert.KernelIdeal Cert.KernelIdeal.Gen
open Idealize.ShloMosaic Idealize.ShloMosaic.TcCoe Idealize.SL.Sem
open Idealize.ShloMosaic.Pipeline (Dat Cfg Window)

open Cert.KernelIdeal.StagesK

variable (m : (ℓ : Loc nD τ sig) → Buf (Elt Ideal) ℓ) (ρ : Dev nD → PrngReg)

/-- The last host stretch writes only its own intermediate and result buffers: a buffer none of its eighteen operations
    writes holds after it what it held before. -/
theorem W17_keeps (c : Dev nD) (b : Ref sig .tc)
    (hb : (hostOps6 (F := Ideal)).Forall fun op => Proc.devRef (τ := τ) .tc b ∉ op.writes) :
    W17 (F := Ideal) m ρ c (Proc.devRef .tc b) = W16 (F := Ideal) m ρ c (Proc.devRef .tc b) :=
  StableHlo.after_of_forall_not_mem (b := Proc.devRef .tc b) _ _ (List.forall_iff_forall_mem.mp hb)

/-- Each operation of the last host stretch writes one buffer, and the buffer in question is none of the eighteen. -/
local macro "host6_writes_not" : tactic =>
  `(tactic| (simp only [hostOps6, List.Forall, StableHlo.nullary_writes, StableHlo.unary_writes, StableHlo.binary_writes,
      StableHlo.ternary_writes, StableHlo.quaternary_writes, StableHlo.reshape_writes, StableHlo.binaryIndexed_writes,
      Finset.mem_singleton]
             repeat' apply And.intro
             all_goals exact StableHlo.devRef_ne_of_ne (by decide)))

/-! ### The arguments the head stage uses: neither the last host stretch nor the last region writes an argument, and
    at the end of the program every argument holds what it was launched with -/

theorem arg23 (c : Dev nD) : W16 (F := Ideal) m ρ c (Proc.devRef .tc main_arg23) = m ((c : Thread nD τ).loc main_arg23) :=
  ((W17_keeps m ρ c main_arg23 (by host6_writes_not)).symm.trans (W18_of_ne m ρ c main_arg23 (by decide)).symm).trans (W18_main_arg23 m ρ c)
theorem arg24 (c : Dev nD) : W16 (F := Ideal) m ρ c (Proc.devRef .tc main_arg24) = m ((c : Thread nD τ).loc main_arg24) :=
  ((W17_keeps m ρ c main_arg24 (by host6_writes_not)).symm.trans (W18_of_ne m ρ c main_arg24 (by decide)).symm).trans (W18_main_arg24 m ρ c)
theorem arg25 (c : Dev nD) : W16 (F := Ideal) m ρ c (Proc.devRef .tc main_arg25) = m ((c : Thread nD τ).loc main_arg25) :=
  ((W17_keeps m ρ c main_arg25 (by host6_writes_not)).symm.trans (W18_of_ne m ρ c main_arg25 (by decide)).symm).trans (W18_main_arg25 m ρ c)
theorem arg26 (c : Dev nD) : W16 (F := Ideal) m ρ c (Proc.devRef .tc main_arg26) = m ((c : Thread nD τ).loc main_arg26) :=
  ((W17_keeps m ρ c main_arg26 (by host6_writes_not)).symm.trans (W18_of_ne m ρ c main_arg26 (by decide)).symm).trans (W18_main_arg26 m ρ c)
theorem arg27 (c : Dev nD) : W16 (F := Ideal) m ρ c (Proc.devRef .tc main_arg27) = m ((c : Thread nD τ).loc main_arg27) :=
  ((W17_keeps m ρ c main_arg27 (by host6_writes_not)).symm.trans (W18_of_ne m ρ c main_arg27 (by decide)).symm).trans (W18_main_arg27 m ρ c)
theorem arg28 (c : Dev nD) : W16 (F := Ideal) m ρ c (Proc.devRef .tc main_arg28) = m ((c : Thread nD τ).loc main_arg28) :=
  ((W17_keeps m ρ c main_arg28 (by host6_writes_not)).symm.trans (W18_of_ne m ρ c main_arg28 (by decide)).symm).trans (W18_main_arg28 m ρ c)
theorem arg29 (c : Dev nD) : W16 (F := Ideal) m ρ c (Proc.devRef .tc main_arg29) = m ((c : Thread nD τ).loc main_arg29) :=
  ((W17_keeps m ρ c main_arg29 (by host6_writes_not)).symm.trans (W18_of_ne m ρ c main_arg29 (by decide)).symm).trans (W18_main_arg29 m ρ c)
theorem arg30 (c : Dev nD) : W16 (F := Ideal) m ρ c (Proc.devRef .tc main_arg30) = m ((c : Thread nD τ).loc main_arg30) :=
  ((W17_keeps m ρ c main_arg30 (by host6_writes_not)).symm.trans (W18_of_ne m ρ c main_arg30 (by decide)).symm).trans (W18_main_arg30 m ρ c)
theorem arg31 (c : Dev nD) : W16 (F := Ideal) m ρ c (Proc.devRef .tc main_arg31) = m ((c : Thread nD τ).loc main_arg31) :=
  ((W17_keeps m ρ c main_arg31 (by host6_writes_not)).symm.trans (W18_of_ne m ρ c main_arg31 (by decide)).symm).trans (W18_main_arg31 m ρ c)
theorem arg32 (c : Dev nD) : W16 (F := Ideal) m ρ c (Proc.devRef .tc main_arg32) = m ((c : Thread nD τ).loc main_arg32) :=
  ((W17_keeps m ρ c main_arg32 (by host6_writes_not)).symm.trans (W18_of_ne m ρ c main_arg32 (by decide)).symm).trans (W18_main_arg32 m ρ c)
theorem arg33 (c : Dev nD) : W16 (F := Ideal) m ρ c (Proc.devRef .tc main_arg33) = m ((c : Thread nD τ).loc main_arg33) :=
  ((W17_keeps m ρ c main_arg33 (by host6_writes_not)).symm.trans (W18_of_ne m ρ c main_arg33 (by decide)).symm).trans (W18_main_arg33 m ρ c)
theorem arg34 (c : Dev nD) : W16 (F := Ideal) m ρ c (Proc.devRef .tc main_arg34) = m ((c : Thread nD τ).loc main_arg34) :=
  ((W17_keeps m ρ c main_arg34 (by host6_writes_not)).symm.trans (W18_of_ne m ρ c main_arg34 (by decide)).symm).trans (W18_main_arg34 m ρ c)
theorem arg36 (c : Dev nD) : W16 (F := Ideal) m ρ c (Proc.devRef .tc main_arg36) = m ((c : Thread nD τ).loc main_arg36) :=
  ((W17_keeps m ρ c main_arg36 (by host6_writes_not)).symm.trans (W18_of_ne m ρ c main_arg36 (by decide)).symm).trans (W18_main_arg36 m ρ c)

/-! ### What the last host stretch computes, over the contents at its entry -/

/-- The pooled rows: the third layer's output rows added into a zero matrix at each node's graph number. -/
theorem v48 (c : Dev nD) : V17 (F := Ideal) m ρ c main_v48 = Cert.Stages.pool (F := Ideal) (W16 (F := Ideal) m ρ c (Proc.devRef .tc main_v45)) (W16 (F := Ideal) m ρ c (Proc.devRef .tc main_arg36)) := by
  show StableHlo.after hostOps6 (W16 (F := Ideal) m ρ c) (Proc.devRef .tc main_v48) = _
  after_results_simp
  rfl

/-- The first sampled weight matrix: mean plus e^(log deviation) times noise. -/
theorem v51 (c : Dev nD) : V17 (F := Ideal) m ρ c main_v51 = Cert.Stages.mix (F := Ideal) (s := S256x256) (W16 (F := Ideal) m ρ c (Proc.devRef .tc main_arg23)) (W16 (F := Ideal) m ρ c (Proc.devRef .tc main_arg24)) (W16 (F := Ideal) m ρ c (Proc.devRef .tc main_arg31)) := by
  show StableHlo.after hostOps6 (W16 (F := Ideal) m ρ c) (Proc.devRef .tc main_v51) = _
  after_results_simp
  rfl

/-- The second sampled weight matrix. -/
theorem v57 (c : Dev nD) : V17 (F := Ideal) m ρ c main_v57 = Cert.Stages.mix (F := Ideal) (s := S256x2) (W16 (F := Ideal) m ρ c (Proc.devRef .tc main_arg27)) (W16 (F := Ideal) m ρ c (Proc.devRef .tc main_arg28)) (W16 (F := Ideal) m ρ c (Proc.devRef .tc main_arg33)) := by
  show StableHlo.after hostOps6 (W16 (F := Ideal) m ρ c) (Proc.devRef .tc main_v57) = _
  after_results_simp
  rfl

/-- The first sampled bias, as a one-row matrix. -/
theorem v61 (c : Dev nD) : V17 (F := Ideal) m ρ c main_v61 = rowK256 (Cert.Stages.mix (F := Ideal) (s := S256) (W16 (F := Ideal) m ρ c (Proc.devRef .tc main_arg25)) (W16 (F := Ideal) m ρ c (Proc.devRef .tc main_arg26)) (W16 (F := Ideal) m ρ c (Proc.devRef .tc main_arg32))) := by
  show StableHlo.after hostOps6 (W16 (F := Ideal) m ρ c) (Proc.devRef .tc main_v61) = _
  after_results_simp
  rfl

/-- The second sampled bias, as a one-row matrix. -/
theorem v62 (c : Dev nD) : V17 (F := Ideal) m ρ c main_v62 = rowK2 (Cert.Stages.mix (F := Ideal) (s := S2) (W16 (F := Ideal) m ρ c (Proc.devRef .tc main_arg29)) (W16 (F := Ideal) m ρ c (Proc.devRef .tc main_arg30)) (W16 (F := Ideal) m ρ c (Proc.devRef .tc main_arg34))) := by
  show StableHlo.after hostOps6 (W16 (F := Ideal) m ρ c) (Proc.devRef .tc main_v62) = _
  after_results_simp
  rfl

/-- At the end of the program the result buffer holds the head of the third layer's output pooled per graph, with the
    sampled weights and biases. -/
theorem out (c : Dev nD) :
    (W18 (F := Ideal) m ρ c (Proc.devRef .tc main_v63)) = Cert.Stages.head (F := Ideal) (Cert.Stages.pool (F := Ideal) (W16 (F := Ideal) m ρ c (Proc.devRef .tc main_v45)) (m ((c : Thread nD τ).loc main_arg36)))
      (Cert.Stages.mix (F := Ideal) (s := S256x256) (m ((c : Thread nD τ).loc main_arg23)) (m ((c : Thread nD τ).loc main_arg24)) (m ((c : Thread nD τ).loc main_arg31))) (rowK256 (Cert.Stages.mix (F := Ideal) (s := S256) (m ((c : Thread nD τ).loc main_arg25)) (m ((c : Thread nD τ).loc main_arg26)) (m ((c : Thread nD τ).loc main_arg32))))
      (Cert.Stages.mix (F := Ideal) (s := S256x2) (m ((c : Thread nD τ).loc main_arg27)) (m ((c : Thread nD τ).loc main_arg28)) (m ((c : Thread nD τ).loc main_arg33))) (rowK2 (Cert.Stages.mix (F := Ideal) (s := S2) (m ((c : Thread nD τ).loc main_arg29)) (m ((c : Thread nD τ).loc main_arg30)) (m ((c : Thread nD τ).loc main_arg34)))) := by
  -- the result buffer is the last region's output array, which is the head stage of that region's entry contents
  refine ((W18_arr m ρ c 5).trans (Cert.KernelIdeal.Region6.arr (V17 (F := Ideal) m ρ) c)).trans ?_
  -- the entry contents are the last host stretch's results over the arguments
  rw [v48 m ρ c, v51 m ρ c, v61 m ρ c, v57 m ρ c, v62 m ρ c, arg36 m ρ c, arg23 m ρ c, arg24 m ρ c, arg31 m ρ c, arg25 m ρ c,
    arg26 m ρ c, arg32 m ρ c, arg27 m ρ c, arg28 m ρ c, arg33 m ρ c, arg29 m ρ c, arg30 m ρ c, arg34 m ρ c]

end Cert.KernelIdeal.ChainHead

end
-- ==== Proof.KernelValue.lean ====
import proofs.«408536_j9234179687244_1_alg».proof.Proof.KernelRun
import proofs.«408536_j9234179687244_1_alg».proof.Proof.Chain0
import proofs.«408536_j9234179687244_1_alg».proof.Proof.Chain1
import proofs.«408536_j9234179687244_1_alg».proof.Proof.Chain2
import proofs.«408536_j9234179687244_1_alg».proof.Proof.ChainHead

set_option maxRecDepth 16384

noncomputable section

namespace Cert.KernelIdeal.KernelValue

open Cert.KernelIdeal Cert.KernelIdeal.Gen
open Idealize.ShloMosaic Idealize.ShloMosaic.TcCoe Idealize.SL.Sem
open Idealize.ShloMosaic.Pipeline (Dat Cfg Window)

open Cert.KernelIdeal.StagesK

variable (m : (ℓ : Loc nD τ sig) → Buf (Elt Ideal) ℓ) (ρ : Dev nD → PrngReg)

/-- At the end of the kernel program the result buffer holds the whole network, as the kernel program computes it, of
    the launch arguments: the four stretches of the fold (three layers and the head) composed. -/
theorem result (c : Dev nD) :
    W18 (F := Ideal) m ρ c (Proc.devRef .tc main_v63) = netK (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) := by
  rw [Cert.KernelIdeal.ChainHead.out m ρ c, Cert.KernelIdeal.Chain2.h3 m ρ c, Cert.KernelIdeal.Chain1.h2 m ρ c,
    Cert.KernelIdeal.Chain0.h1 m ρ c]
  rfl

/-- Every weakly fair execution of the idealized kernel program terminates without a fault with its result array at
    the network of the arguments and the arguments unchanged. -/
theorem run : θ_run defs (onTc (τ := τ) (main (F := Ideal))) ⟨m, fun _ => 0, ρ⟩ (fun r => ∀ c : Dev nD,
      r.2.mem ((c.tc : Thread nD τ).loc main_v63) = netK (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun r h c => ⟨(h c _ (mem_uc main_v63 (by decide))).trans (result m ρ c),
      (h c _ (mem_uc main_arg0 (by decide))).trans (W18_main_arg0 m ρ c),
      (h c _ (mem_uc main_arg1 (by decide))).trans (W18_main_arg1 m ρ c),
      (h c _ (mem_uc main_arg2 (by decide))).trans (W18_main_arg2 m ρ c),
      (h c _ (mem_uc main_arg3 (by decide))).trans (W18_main_arg3 m ρ c),
      (h c _ (mem_uc main_arg4 (by decide))).trans (W18_main_arg4 m ρ c),
      (h c _ (mem_uc main_arg5 (by decide))).trans (W18_main_arg5 m ρ c),
      (h c _ (mem_uc main_arg6 (by decide))).trans (W18_main_arg6 m ρ c),
      (h c _ (mem_uc main_arg7 (by decide))).trans (W18_main_arg7 m ρ c),
      (h c _ (mem_uc main_arg8 (by decide))).trans (W18_main_arg8 m ρ c),
      (h c _ (mem_uc main_arg9 (by decide))).trans (W18_main_arg9 m ρ c),
      (h c _ (mem_uc main_arg10 (by decide))).trans (W18_main_arg10 m ρ c),
      (h c _ (mem_uc main_arg11 (by decide))).trans (W18_main_arg11 m ρ c),
      (h c _ (mem_uc main_arg12 (by decide))).trans (W18_main_arg12 m ρ c),
      (h c _ (mem_uc main_arg13 (by decide))).trans (W18_main_arg13 m ρ c),
      (h c _ (mem_uc main_arg14 (by decide))).trans (W18_main_arg14 m ρ c),
      (h c _ (mem_uc main_arg15 (by decide))).trans (W18_main_arg15 m ρ c),
      (h c _ (mem_uc main_arg16 (by decide))).trans (W18_main_arg16 m ρ c),
      (h c _ (mem_uc main_arg17 (by decide))).trans (W18_main_arg17 m ρ c),
      (h c _ (mem_uc main_arg18 (by decide))).trans (W18_main_arg18 m ρ c),
      (h c _ (mem_uc main_arg19 (by decide))).trans (W18_main_arg19 m ρ c),
      (h c _ (mem_uc main_arg20 (by decide))).trans (W18_main_arg20 m ρ c),
      (h c _ (mem_uc main_arg21 (by decide))).trans (W18_main_arg21 m ρ c),
      (h c _ (mem_uc main_arg22 (by decide))).trans (W18_main_arg22 m ρ c),
      (h c _ (mem_uc main_arg23 (by decide))).trans (W18_main_arg23 m ρ c),
      (h c _ (mem_uc main_arg24 (by decide))).trans (W18_main_arg24 m ρ c),
      (h c _ (mem_uc main_arg25 (by decide))).trans (W18_main_arg25 m ρ c),
      (h c _ (mem_uc main_arg26 (by decide))).trans (W18_main_arg26 m ρ c),
      (h c _ (mem_uc main_arg27 (by decide))).trans (W18_main_arg27 m ρ c),
      (h c _ (mem_uc main_arg28 (by decide))).trans (W18_main_arg28 m ρ c),
      (h c _ (mem_uc main_arg29 (by decide))).trans (W18_main_arg29 m ρ c),
      (h c _ (mem_uc main_arg30 (by decide))).trans (W18_main_arg30 m ρ c),
      (h c _ (mem_uc main_arg31 (by decide))).trans (W18_main_arg31 m ρ c),
      (h c _ (mem_uc main_arg32 (by decide))).trans (W18_main_arg32 m ρ c),
      (h c _ (mem_uc main_arg33 (by decide))).trans (W18_main_arg33 m ρ c),
      (h c _ (mem_uc main_arg34 (by decide))).trans (W18_main_arg34 m ρ c),
      (h c _ (mem_uc main_arg35 (by decide))).trans (W18_main_arg35 m ρ c),
      (h c _ (mem_uc main_arg36 (by decide))).trans (W18_main_arg36 m ρ c)⟩)
    (Cert.KernelIdeal.RunAll.run_all (F := Ideal) m ρ)

end Cert.KernelIdeal.KernelValue

end
-- ==== Proof.TakeMask.lean ====
import proofs.«408536_j9234179687244_1_alg».proof.Proof.StagesK
import Idealize.ShloMosaic.Lib.StableHlo.Predicate
import Idealize.ShloMosaic.Lib.ReduceAll

set_option maxRecDepth 16384

noncomputable section

namespace Cert.KernelIdeal.TakeMask

open Cert.KernelIdeal Cert.KernelIdeal.Gen
open Idealize.ShloMosaic Idealize.ShloMosaic.TcCoe Idealize.SL.Sem

open Cert.KernelIdeal.StagesK

variable {F : FTy → Type} [FloatOps F]

/-- A left fold by "and" that starts at 1 and meets only 1s ends at 1, whatever the list it runs over. -/
theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_one f hf l

/-- The wrap adds 50000 to a node number only when it is negative (signed). A number with 0 ≤ s e is not negative, so
    the wrapped number of edge e is s e itself. -/
theorem wrap_apply (s : (⟨S500000, .i32⟩ : BufTy).Contents (Elt F)) (hs : ∀ e : S500000.Idx, 0 ≤ (s e).toInt ∧ (s e).toInt < 50000)
    (e : S500000.Idx) :
    (select (cmpi .slt s (broadcastInDim S500000 ![] bcast_S_S500000 (constantI S_ 32 0#32))) (addi s (broadcastInDim S500000 ![] bcast_S_S500000 (constantI S_ 32 50000#32))) s) e = s e := by
  -- at edge e the choice is between s e + 50000 and s e, on the test s e < 0
  show Scalar.select (IntOp.cmpi .slt (s e) 0#32) _ (s e) = s e
  unfold Scalar.select
  refine if_neg (fun hc => ?_)
  have h1 := IntOp.cmpi_slt.1 hc
  have h0 : (0#32 : BitVec 32).toInt = 0 := by decide
  have := (hs e).1
  omega

/-- The column of wrapped numbers has one entry per edge, so each of its entries is the (unwrapped) number of some edge. -/
theorem idxColK_apply (s : (⟨S500000, .i32⟩ : BufTy).Contents (Elt F)) (hs : ∀ e : S500000.Idx, 0 ≤ (s e).toInt ∧ (s e).toInt < 50000)
    (i : S500000x1.Idx) : ∃ e : S500000.Idx, idxColK (F := F) s i = s e := by
  unfold idxColK
  exact ⟨_, wrap_apply s hs _⟩

/-- When every source node number is a row of the node matrix, 0 ≤ s e < 50000 (signed), nothing is wrapped and every edge
    passes the range test: the mask is all ones. -/
theorem inRange_true (s : (⟨S500000, .i32⟩ : BufTy).Contents (Elt F)) (hs : ∀ e : S500000.Idx, 0 ≤ (s e).toInt ∧ (s e).toInt < 50000) :
    inRange (F := F) s = fun _ => 1#1 := by
  funext j
  unfold inRange
  -- the mask bit of edge j is the "and", from 1, of the test's bits at the column entries that fall on j
  rw [Host.reduce_eq_foldl]
  -- so it is enough that the test's bit is 1 at EVERY column entry i
  refine foldl_andi_one _ (fun i => ?_) _
  obtain ⟨e, he⟩ := idxColK_apply s hs i
  -- the test at entry i: (0 ≤ entry, signed) and (entry ≤ 49999, signed)
  show IntOp.andi (IntOp.cmpi .sge (idxColK s i) 0#32) (IntOp.cmpi .sle (idxColK s i) 49999#32) = 1#1
  rw [he]
  have h0 : (0#32 : BitVec 32).toInt = 0 := by decide
  have hM : (49999#32 : BitVec 32).toInt = 49999 := by decide
  obtain ⟨hlo, hhi⟩ := hs e
  exact IntOp.andi_eq_one.2 ⟨IntOp.cmpi_sge.2 (by omega), IntOp.cmpi_sle.2 (by omega)⟩

/-- With an all-ones mask the kernel's masked gather is the plain gather of the reference. -/
theorem takeK128_eq (h : (⟨S50000x128, .f32⟩ : BufTy).Contents (Elt F)) (s : (⟨S500000, .i32⟩ : BufTy).Contents (Elt F)) (hs : ∀ e : S500000.Idx, 0 ≤ (s e).toInt ∧ (s e).toInt < 50000) :
    takeK128 (F := F) h s = Cert.Stages.gather128 (F := F) h s := by
  -- the gathered branch is the reference's gather: the same gather of the same matrix at the same column
  have hG : Host.gather gather_S50000x128_S500000x1_S500000x128_1_0_n_n_0_1_1128 h (idxColK s) = Cert.Stages.gather128 (F := F) h s := rfl
  unfold takeK128
  rw [inRange_true s hs, hG]
  -- at every entry the mask bit is 1, so the choice takes the gathered branch
  funext j
  unfold select Scalar.select
  exact if_pos rfl

theorem takeK256_eq (h : (⟨S50000x256, .f32⟩ : BufTy).Contents (Elt F)) (s : (⟨S500000, .i32⟩ : BufTy).Contents (Elt F)) (hs : ∀ e : S500000.Idx, 0 ≤ (s e).toInt ∧ (s e).toInt < 50000) :
    takeK256 (F := F) h s = Cert.Stages.gather256 (F := F) h s := by
  have hG : Host.gather gather_S50000x256_S500000x1_S500000x256_1_0_n_n_0_1_1256 h (idxColK s) = Cert.Stages.gather256 (F := F) h s := rfl
  unfold takeK256
  rw [inRange_true s hs, hG]
  funext j
  unfold select Scalar.select
  exact if_pos rfl

end Cert.KernelIdeal.TakeMask

end
-- ==== Proof.RowCast.lean ====
import proofs.«408536_j9234179687244_1_alg».proof.Proof.StagesK
import Idealize.ShloMosaic.Lib.Pipeline.Value
import Idealize.ShloMosaic.Lib.ValueIdx
import Idealize.ShloMosaic.Lib.ValueLayout

set_option maxRecDepth 16384

noncomputable section

namespace Cert.KernelIdeal.RowCast

open Cert.KernelIdeal Cert.KernelIdeal.Gen
open Idealize.ShloMosaic Idealize.ShloMosaic.TcCoe Idealize.SL.Sem
open Idealize.ShloMosaic.Pipeline (Dat Cfg Window)

open Cert.KernelIdeal.StagesK

variable {F : FTy → Type} [FloatOps F]

/-- A vector of extent a reshaped to [1, a], and the same vector broadcast to [1, a] along axis 1, are one matrix: a reshape
    keeps the row-major position, which for (u, q) with u < 1 is q; the broadcast reads the vector at the coordinate on
    axis 1, which is q (when a = 1 it reads coordinate 0, and q < 1 is 0). -/
theorem cast_eq_bcast {α : Type} {a : ℕ} (b : (⟨1, ![a]⟩ : Shape).Idx → α)
    (hc : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ b hc = broadcastInDim ⟨2, ![1, a]⟩ ![1] hb b := by
  funext i
  obtain ⟨u, q, rfl⟩ : ∃ (u : Fin 1) (q : Fin a), i = ValueIdx.ix2 u q := ⟨i 0, i 1, ValueIdx.eq_ix2 i⟩
  have hq := q.isLt
  -- both sides are the vector's entry q
  rw [ValueIdx.shapeCast_a_1a_apply b hc u q]
  exact (broadcastInDim_apply _ hb b (ValueIdx.ix2 u q) (ValueIdx.ix1 q) (fun c => match c with
    | ⟨0, _⟩ => by
      show q.val = if a = 1 then 0 else q.val
      split <;> omega)).symm

/-- A vector reshaped to one row and the same vector broadcast to one row are the same matrix: entry (0, j) is entry j. -/
theorem rowK128_eq (b : (⟨S128, .f32⟩ : BufTy).Contents (Elt F)) : rowK128 (F := F) b = Cert.Stages.row128 (F := F) b := by
  unfold rowK128 Cert.Stages.row128
  exact cast_eq_bcast b _ _
theorem rowK256_eq (b : (⟨S256, .f32⟩ : BufTy).Contents (Elt F)) : rowK256 (F := F) b = Cert.Stages.row256 (F := F) b := by
  unfold rowK256 Cert.Stages.row256
  exact cast_eq_bcast b _ _
theorem rowK2_eq (b : (⟨S2, .f32⟩ : BufTy).Contents (Elt F)) : rowK2 (F := F) b = Cert.Stages.row2 (F := F) b := by
  unfold rowK2 Cert.Stages.row2
  exact cast_eq_bcast b _ _
/-- The two programs slice the edge list's rows the same way. -/
theorem srcK_eq (ei : (⟨S2x500000, .i32⟩ : BufTy).Contents (Elt F)) : srcK (F := F) ei = Cert.Stages.srcOf (F := F) ei := rfl
theorem dstK_eq (ei : (⟨S2x500000, .i32⟩ : BufTy).Contents (Elt F)) : dstK (F := F) ei = Cert.Stages.dstOf (F := F) ei := rfl

end Cert.KernelIdeal.RowCast

end
-- ==== Proof.Bridge.lean ====
import proofs.«408536_j9234179687244_1_alg».proof.Proof.StagesK
import proofs.«408536_j9234179687244_1_alg».proof.Proof.TakeMask
import proofs.«408536_j9234179687244_1_alg».proof.Proof.RowCast

set_option maxRecDepth 16384

noncomputable section

namespace Cert.KernelIdeal.Bridge

open Cert.KernelIdeal Cert.KernelIdeal.Gen
open Idealize.ShloMosaic Idealize.ShloMosaic.TcCoe Idealize.SL.Sem

open Cert.KernelIdeal.StagesK

variable {F : FTy → Type} [FloatOps F]

/-- Where every source node number of the edge list is a row of the node matrix, the network as the kernel program
    computes it is the network as the reference computes it: the masked gathers are plain gathers (every edge passes the
    range test), a bias reshaped to one row is the bias broadcast to one row, and every other stage is spelt the same. -/
theorem netK_eq_net (x : (⟨S50000x128, .f32⟩ : BufTy).Contents (Elt F)) (ea : (⟨S500000x16, .f32⟩ : BufTy).Contents (Elt F)) (We0 : (⟨S16x128, .f32⟩ : BufTy).Contents (Elt F)) (be0 : (⟨S128, .f32⟩ : BufTy).Contents (Elt F)) (W10 : (⟨S128x256, .f32⟩ : BufTy).Contents (Elt F)) (b10 : (⟨S256, .f32⟩ : BufTy).Contents (Elt F)) (W20 : (⟨S256x256, .f32⟩ : BufTy).Contents (Elt F)) (b20 : (⟨S256, .f32⟩ : BufTy).Contents (Elt F)) (eps0 : (⟨S1, .f32⟩ : BufTy).Contents (Elt F)) (We1 : (⟨S16x256, .f32⟩ : BufTy).Contents (Elt F)) (be1 : (⟨S256, .f32⟩ : BufTy).Contents (Elt F)) (W11 : (⟨S256x256, .f32⟩ : BufTy).Contents (Elt F)) (b11 : (⟨S256, .f32⟩ : BufTy).Contents (Elt F)) (W21 : (⟨S256x256, .f32⟩ : BufTy).Contents (Elt F)) (b21 : (⟨S256, .f32⟩ : BufTy).Contents (Elt F)) (eps1 : (⟨S1, .f32⟩ : BufTy).Contents (Elt F)) (We2 : (⟨S16x256, .f32⟩ : BufTy).Contents (Elt F)) (be2 : (⟨S256, .f32⟩ : BufTy).Contents (Elt F)) (W12 : (⟨S256x256, .f32⟩ : BufTy).Contents (Elt F)) (b12 : (⟨S256, .f32⟩ : BufTy).Contents (Elt F)) (W22 : (⟨S256x256, .f32⟩ : BufTy).Contents (Elt F)) (b22 : (⟨S256, .f32⟩ : BufTy).Contents (Elt F)) (eps2 : (⟨S1, .f32⟩ : BufTy).Contents (Elt F)) (wmu1 : (⟨S256x256, .f32⟩ : BufTy).Contents (Elt F)) (wls1 : (⟨S256x256, .f32⟩ : BufTy).Contents (Elt F)) (bmu1 : (⟨S256, .f32⟩ : BufTy).Contents (Elt F)) (bls1 : (⟨S256, .f32⟩ : BufTy).Contents (Elt F)) (wmu2 : (⟨S256x2, .f32⟩ : BufTy).Contents (Elt F)) (wls2 : (⟨S256x2, .f32⟩ : BufTy).Contents (Elt F)) (bmu2 : (⟨S2, .f32⟩ : BufTy).Contents (Elt F)) (bls2 : (⟨S2, .f32⟩ : BufTy).Contents (Elt F)) (nw1 : (⟨S256x256, .f32⟩ : BufTy).Contents (Elt F)) (nb1 : (⟨S256, .f32⟩ : BufTy).Contents (Elt F)) (nw2 : (⟨S256x2, .f32⟩ : BufTy).Contents (Elt F)) (nb2 : (⟨S2, .f32⟩ : BufTy).Contents (Elt F)) (ei : (⟨S2x500000, .i32⟩ : BufTy).Contents (Elt F)) (batch : (⟨S50000, .i32⟩ : BufTy).Contents (Elt F))
    (hs : ∀ e : S500000.Idx, 0 ≤ (Cert.Stages.srcOf (F := F) ei e).toInt ∧ (Cert.Stages.srcOf (F := F) ei e).toInt < 50000) :
    netK (F := F) x ea We0 be0 W10 b10 W20 b20 eps0 We1 be1 W11 b11 W21 b21 eps1 We2 be2 W12 b12 W22 b22 eps2 wmu1 wls1 bmu1 bls1 wmu2 wls2 bmu2 bls2 nw1 nb1 nw2 nb2 ei batch = Cert.Stages.net (F := F) x ea We0 be0 W10 b10 W20 b20 eps0 We1 be1 W11 b11 W21 b21 eps1 We2 be2 W12 b12 W22 b22 eps2 wmu1 wls1 bmu1 bls1 wmu2 wls2 bmu2 bls2 nw1 nb1 nw2 nb2 ei batch := by
  unfold netK Cert.Stages.net layerK256 layerK128 Cert.Stages.layer256 Cert.Stages.layer128
  simp only [Cert.KernelIdeal.RowCast.srcK_eq, Cert.KernelIdeal.RowCast.dstK_eq, Cert.KernelIdeal.RowCast.rowK128_eq,
    Cert.KernelIdeal.RowCast.rowK256_eq, Cert.KernelIdeal.RowCast.rowK2_eq]
  simp only [Cert.KernelIdeal.TakeMask.takeK128_eq _ _ hs, Cert.KernelIdeal.TakeMask.takeK256_eq _ _ hs]

end Cert.KernelIdeal.Bridge

end
-- ==== Proof.PreRange.lean ====
import proofs.«408536_j9234179687244_1_alg».proof.Defs
import proofs.«408536_j9234179687244_1_alg».proof.Proof.Gen.Pre_finite_inputs
import proofs.«408536_j9234179687244_1_alg».proof.Proof.StagesK
import Idealize.ShloMosaic.Lib.StableHlo.Predicate
import Idealize.ShloMosaic.Lib.ReduceAll

set_option maxRecDepth 16384

noncomputable section

namespace Cert.KernelIdeal.PreRange

open Cert.KernelIdeal Cert.KernelIdeal.Gen
open Idealize.ShloMosaic Idealize.ShloMosaic.TcCoe Idealize.SL.Sem

open Cert.KernelIdeal.StagesK

/-- The empty shape has exactly one index. -/
instance scalarIdxSubsingleton : Subsingleton Cert.Pre_finite_inputs.S_.Idx :=
  ⟨fun a b => funext fun d => d.elim0⟩

/-- One word against two bounds: if the signed test "w ≥ 0" and the signed test "w < 50000" both came out true,
    then w, read as a signed integer, lies in [0, 50000). -/
theorem word_inrange (w : BitVec 32)
    (h : IntOp.andi (IntOp.cmpi .sge w 0#32) (IntOp.cmpi .slt w 50000#32) = 1#1) :
    0 ≤ w.toInt ∧ w.toInt < 50000 := by
  obtain ⟨hge, hlt⟩ := IntOp.andi_eq_one.1 h
  have h0 : (0#32 : BitVec 32).toInt = 0 := by decide
  have h5 : (50000#32 : BitVec 32).toInt = 50000 := by decide
  have hge' := IntOp.cmpi_sge.1 hge
  have hlt' := IntOp.cmpi_slt.1 hlt
  rw [h0] at hge'
  rw [h5] at hlt'
  exact ⟨hge', hlt'⟩

/-- The last conjunct of the predicate, over a variable edge list, a variable accumulated scalar and a variable source row:
    the scalar "accumulated ∧ all(0 ≤ row ∧ row < 50000)" being true forces every entry of the row into [0, 50000).
    The and of two one-bit words is true only if both are; an and-reduction over the whole row that is true met only true
    entries; a scalar broadcast along the row reads the scalar at every entry. -/
theorem last_conjunct [hP : Cert.Pre_finite_inputs.Facts] (row : IVec Cert.Pre_finite_inputs.S500000 32)
    (acc : IVec Cert.Pre_finite_inputs.S_ 1) (j : Cert.Pre_finite_inputs.S_.Idx)
    (h : andi acc
        (Host.reduce IntOp.andi
          (andi
            (cmpi .sge row (broadcastInDim Cert.Pre_finite_inputs.S500000 ![] hP.bcast_S_S500000 (constantI Cert.Pre_finite_inputs.S_ 32 0#32)))
            (cmpi .slt row (broadcastInDim Cert.Pre_finite_inputs.S500000 ![] hP.bcast_S_S500000 (constantI Cert.Pre_finite_inputs.S_ 32 50000#32))))
          (constantI Cert.Pre_finite_inputs.S_ 1 1#1) hP.reducesTo_S500000_S_d0 hP.h_S_) j = 1#1)
    (e : Cert.Pre_finite_inputs.S500000.Idx) : 0 ≤ (row e).toInt ∧ (row e).toInt < 50000 := by
  have hlast := (IntOp.andi_eq_one.1 h).2
  have hall := Host.reduce_andi_all _ _ _ _ j hlast e
  exact word_inrange (row e) hall

/-- The precondition's last conjunct, decoded: on every core, every entry of the edge list's source row is a node number,
    0 ≤ · < 50000 as a signed integer. -/
theorem src_inrange [hP : Cert.Pre_finite_inputs.Facts] (m : (ℓ : Loc nD τ sig) → Buf (Elt Ideal) ℓ) (hpre : Cert.Pre_KernelIdeal m) (c : Dev nD) :
    ∀ e : S500000.Idx, 0 ≤ (srcK (F := Ideal) (m ((c.tc : Thread nD τ).loc main_arg35)) e).toInt
      ∧ (srcK (F := Ideal) (m ((c.tc : Thread nD τ).loc main_arg35)) e).toInt < 50000 := by
  intro e
  have h0 := congrFun (hpre c) (fun a => a.elim0 : Cert.Pre_finite_inputs.S_.Idx)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8,
    Cert.Pre_finite_inputs.fn_part9, Cert.Pre_finite_inputs.fn_part10] at h0
  exact last_conjunct _ _ _ h0 e

end Cert.KernelIdeal.PreRange

end
-- ==== Proof.RefRun.lean ====
import proofs.«408536_j9234179687244_1_alg».proof.Proof.Gen.ReferenceIdeal.Run
import proofs.«408536_j9234179687244_1_alg».proof.Proof.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- The reference run's result term is the network of the launch arguments: the same operations, grouped into the
    stages. -/
theorem res_eq (m : (ℓ : Loc nD τ sig) → Buf (Elt F) ℓ) (c : Dev nD) :
    Cert.ReferenceIdeal.Value.res_main_v120 (F := F) m c = Cert.Stages.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) := by
  unfold Cert.ReferenceIdeal.Value.res_main_v120
  rfl

/-- The network of equal arguments is equal. -/
theorem net_congr {x x' : (⟨S50000x128, .f32⟩ : BufTy).Contents (Elt F)} {ea ea' : (⟨S500000x16, .f32⟩ : BufTy).Contents (Elt F)} {We0 We0' : (⟨S16x128, .f32⟩ : BufTy).Contents (Elt F)} {be0 be0' : (⟨S128, .f32⟩ : BufTy).Contents (Elt F)} {W10 W10' : (⟨S128x256, .f32⟩ : BufTy).Contents (Elt F)} {b10 b10' : (⟨S256, .f32⟩ : BufTy).Contents (Elt F)} {W20 W20' : (⟨S256x256, .f32⟩ : BufTy).Contents (Elt F)} {b20 b20' : (⟨S256, .f32⟩ : BufTy).Contents (Elt F)} {eps0 eps0' : (⟨S1, .f32⟩ : BufTy).Contents (Elt F)} {We1 We1' : (⟨S16x256, .f32⟩ : BufTy).Contents (Elt F)} {be1 be1' : (⟨S256, .f32⟩ : BufTy).Contents (Elt F)} {W11 W11' : (⟨S256x256, .f32⟩ : BufTy).Contents (Elt F)} {b11 b11' : (⟨S256, .f32⟩ : BufTy).Contents (Elt F)} {W21 W21' : (⟨S256x256, .f32⟩ : BufTy).Contents (Elt F)} {b21 b21' : (⟨S256, .f32⟩ : BufTy).Contents (Elt F)} {eps1 eps1' : (⟨S1, .f32⟩ : BufTy).Contents (Elt F)} {We2 We2' : (⟨S16x256, .f32⟩ : BufTy).Contents (Elt F)} {be2 be2' : (⟨S256, .f32⟩ : BufTy).Contents (Elt F)} {W12 W12' : (⟨S256x256, .f32⟩ : BufTy).Contents (Elt F)} {b12 b12' : (⟨S256, .f32⟩ : BufTy).Contents (Elt F)} {W22 W22' : (⟨S256x256, .f32⟩ : BufTy).Contents (Elt F)} {b22 b22' : (⟨S256, .f32⟩ : BufTy).Contents (Elt F)} {eps2 eps2' : (⟨S1, .f32⟩ : BufTy).Contents (Elt F)} {wmu1 wmu1' : (⟨S256x256, .f32⟩ : BufTy).Contents (Elt F)} {wls1 wls1' : (⟨S256x256, .f32⟩ : BufTy).Contents (Elt F)} {bmu1 bmu1' : (⟨S256, .f32⟩ : BufTy).Contents (Elt F)} {bls1 bls1' : (⟨S256, .f32⟩ : BufTy).Contents (Elt F)} {wmu2 wmu2' : (⟨S256x2, .f32⟩ : BufTy).Contents (Elt F)} {wls2 wls2' : (⟨S256x2, .f32⟩ : BufTy).Contents (Elt F)} {bmu2 bmu2' : (⟨S2, .f32⟩ : BufTy).Contents (Elt F)} {bls2 bls2' : (⟨S2, .f32⟩ : BufTy).Contents (Elt F)} {nw1 nw1' : (⟨S256x256, .f32⟩ : BufTy).Contents (Elt F)} {nb1 nb1' : (⟨S256, .f32⟩ : BufTy).Contents (Elt F)} {nw2 nw2' : (⟨S256x2, .f32⟩ : BufTy).Contents (Elt F)} {nb2 nb2' : (⟨S2, .f32⟩ : BufTy).Contents (Elt F)} {ei ei' : (⟨S2x500000, .i32⟩ : BufTy).Contents (Elt F)} {batch batch' : (⟨S50000, .i32⟩ : BufTy).Contents (Elt F)}
    (e0 : x = x') (e1 : ea = ea') (e2 : We0 = We0') (e3 : be0 = be0') (e4 : W10 = W10') (e5 : b10 = b10') (e6 : W20 = W20') (e7 : b20 = b20') (e8 : eps0 = eps0') (e9 : We1 = We1') (e10 : be1 = be1') (e11 : W11 = W11') (e12 : b11 = b11') (e13 : W21 = W21') (e14 : b21 = b21') (e15 : eps1 = eps1') (e16 : We2 = We2') (e17 : be2 = be2') (e18 : W12 = W12') (e19 : b12 = b12') (e20 : W22 = W22') (e21 : b22 = b22') (e22 : eps2 = eps2') (e23 : wmu1 = wmu1') (e24 : wls1 = wls1') (e25 : bmu1 = bmu1') (e26 : bls1 = bls1') (e27 : wmu2 = wmu2') (e28 : wls2 = wls2') (e29 : bmu2 = bmu2') (e30 : bls2 = bls2') (e31 : nw1 = nw1') (e32 : nb1 = nb1') (e33 : nw2 = nw2') (e34 : nb2 = nb2') (e35 : ei = ei') (e36 : batch = batch') :
    Cert.Stages.net (F := F) x ea We0 be0 W10 b10 W20 b20 eps0 We1 be1 W11 b11 W21 b21 eps1 We2 be2 W12 b12 W22 b22 eps2 wmu1 wls1 bmu1 bls1 wmu2 wls2 bmu2 bls2 nw1 nb1 nw2 nb2 ei batch = Cert.Stages.net (F := F) x' ea' We0' be0' W10' b10' W20' b20' eps0' We1' be1' W11' b11' W21' b21' eps1' We2' be2' W12' b12' W22' b22' eps2' wmu1' wls1' bmu1' bls1' wmu2' wls2' bmu2' bls2' nw1' nb1' nw2' nb2' ei' batch' := by
  subst_vars
  rfl

end Cert.ReferenceIdeal.RefRun

end
-- ==== Proof.lean ====
/-
  The certificate of a three-layer message-passing network with a pooled two-layer head, computed by seven kernel
  regions among host operations, against a plain host reference.

  Both programs compute the same network. Per layer: gather the source node's row for every edge, add the edge's
  projected attributes and bias, cut at zero, sum the messages per destination node, add (1 + eps) times the node's own
  row, and apply a two-layer perceptron; then sum the node rows per graph and apply a head whose activation is
  x · 1/(1 + e^(-x)) and whose weights are mu + e^(log sigma) · noise. The kernel program computes the edge messages, the
  perceptrons and the head in kernel regions, block of rows by block of rows; a matrix product accumulated into zero is
  the host's matrix product (the same sum over the contracted axis), so each region's output array is the matching stage
  of the reference, index by index. The host operations between the regions are the same on both sides, with two
  differences. A bias enters a kernel region as a one-row matrix made by a reshape, where the reference broadcasts it to
  one row: the same matrix. And the kernel program gathers source rows with a range mask (a node number outside
  [0, 49999], after a negative one has been wrapped, reads a fill value), where the reference's gather clamps it: under the
  precondition's conjunct that every source node number is a row of the node matrix, 0 ≤ · < 50000, every edge passes
  the mask and the two gathers agree. No law of the extended reals beyond these identities is needed, so the finiteness
  conjuncts of the precondition are not used.

  The three frames: the two kernel programs' by the generated frame certificates, the reference's by its generated run.
  The idealization ledger is empty.
-/
import proofs.«408536_j9234179687244_1_alg».proof.Defs
import proofs.«408536_j9234179687244_1_alg».proof.Proof.Gen.Kernel
import proofs.«408536_j9234179687244_1_alg».proof.Proof.Gen.Kernel.Skeleton
import proofs.«408536_j9234179687244_1_alg».proof.Proof.Gen.Kernel.Launch
import proofs.«408536_j9234179687244_1_alg».proof.Proof.Gen.Kernel.Points
import proofs.«408536_j9234179687244_1_alg».proof.Proof.Gen.Kernel.Frame
import proofs.«408536_j9234179687244_1_alg».proof.Proof.Gen.KernelIdeal
import proofs.«408536_j9234179687244_1_alg».proof.Proof.Gen.KernelIdeal.Skeleton
import proofs.«408536_j9234179687244_1_alg».proof.Proof.Gen.KernelIdeal.Launch
import proofs.«408536_j9234179687244_1_alg».proof.Proof.Gen.KernelIdeal.Points
import proofs.«408536_j9234179687244_1_alg».proof.Proof.Gen.KernelIdeal.Frame
import proofs.«408536_j9234179687244_1_alg».proof.Proof.Gen.ReferenceIdeal
import proofs.«408536_j9234179687244_1_alg».proof.Proof.Gen.Pre_finite_inputs
import proofs.«408536_j9234179687244_1_alg».proof.Proof.Gen.ReferenceIdeal.Run
import proofs.«408536_j9234179687244_1_alg».proof.Proof.KernelValue
import proofs.«408536_j9234179687244_1_alg».proof.Proof.Bridge
import proofs.«408536_j9234179687244_1_alg».proof.Proof.PreRange
import proofs.«408536_j9234179687244_1_alg».proof.Proof.RefRun
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with the same result array: the
    network of the arguments, as the kernel program computes it (its run through the seven regions) and as the reference
    computes it (its run), which are one function where the source node numbers are in range. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35, h36⟩ := hagree c
  have hs := Cert.KernelIdeal.PreRange.src_inrange m hpre c
  simp only [Cert.KernelIdeal.RowCast.srcK_eq] at hs
  rw [Cert.ReferenceIdeal.RefRun.res_eq m' c]
  refine (Cert.ReferenceIdeal.RefRun.net_congr h0 h1 h2 h3 h4 h5 h6 h7 h8 h9 h10 h11 h12 h13 h14 h15 h16 h17 h18 h19 h20 h21 h22 h23 h24 h25 h26 h27 h28 h29 h30 h31 h32 h33 h34 h35 h36).trans ?_
  exact (Cert.KernelIdeal.Bridge.netK_eq_net _ _ _ _ _ _ _ _ _ _ _ _ _ _ _ _ _ _ _ _ _ _ _ _ _ _ _ _ _ _ _ _ _ _ _ _ _ hs).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
